-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S8x2048x2048 : Shape := ⟨3, ![8, 2048, 2048]⟩
abbrev S8x2048x1024 : Shape := ⟨3, ![8, 2048, 1024]⟩
abbrev S1x512x1024 : Shape := ⟨3, ![1, 512, 1024]⟩
abbrev S1x256x2048 : Shape := ⟨3, ![1, 256, 2048]⟩
abbrev S1x256x1024 : Shape := ⟨3, ![1, 256, 1024]⟩
abbrev S256x1024 : Shape := ⟨2, ![256, 1024]⟩
abbrev S512x1024 : Shape := ⟨2, ![512, 1024]⟩
abbrev S1x1024x1024 : Shape := ⟨3, ![1, 1024, 1024]⟩
abbrev S512x1 : Shape := ⟨2, ![512, 1]⟩
abbrev S512 : Shape := ⟨1, ![512]⟩

abbrev nBuf : Space → Nat
  | .hbm => 19
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8x2048x2048, .f32⟩
  | .hbm, ⟨14, _⟩ => ⟨S8x2048x1024, .f32⟩
  | .hbm, ⟨15, _⟩ => ⟨S8x2048x1024, .bf16⟩
  | .hbm, ⟨16, _⟩ => ⟨S8x4096x1024, .bf16⟩
  | .hbm, ⟨17, _⟩ => ⟨S8x4096x1024, .bf16⟩
  | .hbm, ⟨18, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x2048, .f32⟩
  | .local _ .vmem, ⟨3, _⟩ => ⟨S1x256x2048, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x512x1024, .f32⟩
  | .local _ .vmem, ⟨25, _⟩ => ⟨S1x512x1024, .f32⟩
  | .local _ .vmem, ⟨26, _⟩ => ⟨S512x1, .f32⟩
  | .local _ .vmem, ⟨27, _⟩ => ⟨S512x1, .f32⟩
  | .local _ .vmem, ⟨28, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S1024_S1x1024 : S1024.ShapeCasts S1x1024
  shapeCasts_S8x4096x1024_S8x2048x2048 : S8x4096x1024.ShapeCasts S8x2048x2048
  inb_S1x256x2048_S1x256x1024_0_0_0 : ∀ a, (![0, 0, 0] : Fin 3 → Nat) a + S1x256x1024.size a ≤ S1x256x2048.size a
  h_S1x256x1024 : 0 < S1x256x1024.numel
  shapeCasts_S1x256x1024_S256x1024 : S1x256x1024.ShapeCasts S256x1024
  inb_S1x256x2048_S1x256x1024_0_0_1024 : ∀ a, (![0, 0, 1024] : Fin 3 → Nat) a + S1x256x1024.size a ≤ S1x256x2048.size a
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  broadcasts_S1x1024_S512x1024 : S1x1024.Broadcasts S512x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  dot_S256x1024_S1024x1024_S256x1024_1_1_0_0_n_n_wf : DotDims.WF S256x1024 S1024x1024 S256x1024 [1] [1] [0] [0] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x2048x1024.size a
  hwx0_8 : ∀ i : grid0.Coords, EltTy.bits .f32 = 32 ∨ (Rect.block (s := S8x2048x1024) S1x256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .bf16 = 32 ∨ (Rect.block (s := S8x2048x1024) S1x256x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S8x4096x1024.size a
  hwx0_10 : ∀ i : grid0.Coords, EltTy.bits .bf16 = 32 ∨ (Rect.block (s := S8x4096x1024) S1x512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S8x4096x1024.size a
  hwx0_11 : ∀ i : grid0.Coords, EltTy.bits .bf16 = 32 ∨ (Rect.block (s := S8x4096x1024) S1x512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x4096x1024.size a
  hwx1_1 : ∀ i : grid1.Coords, EltTy.bits .bf16 = 32 ∨ (Rect.block (s := S8x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x4096x1024.size a
  hwx1_2 : ∀ i : grid1.Coords, EltTy.bits .bf16 = 32 ∨ (Rect.block (s := S8x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S1x512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_3) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7_1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_3) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S8x2048x2x1024 : Shape := ⟨4, ![8, 2048, 2, 1024]⟩
abbrev S_ : Shape := ⟨0, ![]⟩
abbrev S8x2048x1024 : Shape := ⟨3, ![8, 2048, 1024]⟩
abbrev S1x1x1024 : Shape := ⟨3, ![1, 1, 1024]⟩
abbrev S8x2048x4096 : Shape := ⟨3, ![8, 2048, 4096]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x2x1024, .f32⟩
  | .hbm, ⟨8, _⟩ => ⟨S_, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x2048x4096, .f32⟩
  | .hbm, ⟨26, _⟩ => ⟨S_, .f32⟩
  | .hbm, ⟨27, _⟩ => ⟨S8x2048x4096, .f32⟩
  | .hbm, ⟨28, _⟩ => ⟨S8x2048x4096, .f32⟩
  | .hbm, ⟨29, _⟩ => ⟨S_, .f32⟩
  | .hbm, ⟨30, _⟩ => ⟨S8x2048x4096, .f32⟩
  | .hbm, ⟨31, _⟩ => ⟨S8x2048x4096, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x4096, .f32⟩
  | .hbm, ⟨39, _⟩ => ⟨S8x2048x4096, .f32⟩
  | .hbm, ⟨40, _⟩ => ⟨S8x2048x4096, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x4096, .f32⟩
  | .hbm, ⟨45, _⟩ => ⟨S8x2048x4096, .f32⟩
  | .hbm, ⟨46, _⟩ => ⟨S8x2048x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  shapeCasts_S8x4096x1024_S8x2048x2x1024 : S8x4096x1024.ShapeCasts S8x2048x2x1024
  reducesTo_S8x2048x2x1024_S8x2048x1024_d2 : S8x2048x2x1024.ReducesTo [2] S8x2048x1024
  h_S_ : 0 < S_.numel
  bcast_S_S8x2048x1024 : S_.BroadcastsInDim S8x2048x1024 (![] : Fin 0 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S1x1x1024_S8x4096x1024_0_1_2 : S1x1x1024.BroadcastsInDim S8x4096x1024 (![0, 1, 2] : Fin 3 → Fin S8x4096x1024.rank)
  bcast_S_S8x2048x4096 : S_.BroadcastsInDim S8x2048x4096 (![] : Fin 0 → Fin S8x2048x4096.rank)
  reducesTo_S8x2048x4096_S8x2048_d2 : S8x2048x4096.ReducesTo [2] S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x1024_S1024x1024_S8x2048x1024_2_1_01_0_n_n_wf : DotDims.WF S8x2048x1024 S1024x1024 S8x2048x1024 [2] [1] [0, 1] [0] [] []
  dot_S8x4096x1024_S1024x1024_S8x4096x1024_2_1_01_0_n_n_wf : DotDims.WF S8x4096x1024 S1024x1024 S8x4096x1024 [2] [1] [0, 1] [0] [] []
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.ProjData.lean ====
/- The first launch (pooling fused with the three projections), read as proof data: what each of its four
   output blocks holds after the body, as a function of the blocks the body loads. -/
import proofs.«401980_j60120952209552_3_alg».proof.Proof.Gen.KernelIdeal.Launch
import proofs.«401980_j60120952209552_3_alg».proof.Proof.Gen.KernelIdeal.Skeleton
import proofs.«401980_j60120952209552_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffer contents of core `c` when a launch is entered. -/
abbrev Entry (F : FTy → Type) : Type := (c : Dev nD) → (b : Ref sig .tc) → Buf (Elt F) ((c : Thread nD τ).loc b)

variable (V : Entry F)

/-- Window `w`'s block at point `t` of the first launch, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes -/

abbrev rX : Rect S1x512x1024 := Rect.unit (s := S1x512x1024) ![0, 0, 0] S1x512x1024.size Facts₀.inb_S1x512x1024_S1x512x1024_0_0_0
abbrev rPe : Rect S1x256x2048 := Rect.unit (s := S1x256x2048) ![0, 0, 0] S1x256x1024.size Facts₀.inb_S1x256x2048_S1x256x1024_0_0_0
abbrev rPo : Rect S1x256x2048 := Rect.unit (s := S1x256x2048) ![0, 0, 1024] S1x256x1024.size Facts₀.inb_S1x256x2048_S1x256x1024_0_0_1024
abbrev rW : Rect S1024x1024 := Rect.unit (s := S1024x1024) ![0, 0] S1024x1024.size Facts₀.inb_S1024x1024_S1024x1024_0_0
abbrev rB : Rect S1x1024 := Rect.unit (s := S1x1024) ![0, 0] S1x1024.size Facts₀.inb_S1x1024_S1x1024_0_0
abbrev rQ : Rect S1x256x1024 := Rect.unit (s := S1x256x1024) ![0, 0, 0] S1x256x1024.size Facts₀.inb_S1x256x1024_S1x256x1024_0_0_0

/-! ## What the body leaves in each output block -/

/-- The pooled rows projected by the query weights, plus the bias: the value both query outputs store. -/
def qFull (xp : Vec F S1x256x2048 .f32) (wq : Vec F S1024x1024 .bf16) (bq : Vec F S1x1024 .f32) : FVec F S256x1024 .f32 :=
  k0_pay6 (View.ld xp rPe) (View.ld xp rPo) (View.ld wq rW) (View.ld bq rB)

def out0_8 (xp : Vec F S1x256x2048 .f32) (wq : Vec F S1024x1024 .bf16) (bq : Vec F S1x1024 .f32) : Vec F S1x256x1024 .f32 :=
  View.canon [⟨rQ, k0_pay1 (qFull xp wq bq)⟩]
def out0_9 (xp : Vec F S1x256x2048 .f32) (wq : Vec F S1024x1024 .bf16) (bq : Vec F S1x1024 .f32) : Vec F S1x256x1024 .bf16 :=
  View.canon [⟨rQ, k0_pay2 (qFull xp wq bq)⟩]
def out0_10 (x : Vec F S1x512x1024 .f32) (wk : Vec F S1024x1024 .bf16) (bk : Vec F S1x1024 .f32) : Vec F S1x512x1024 .bf16 :=
  View.canon [⟨rX, k0_pay3 (k0_pay7 (View.ld x rX) (View.ld wk rW) (View.ld bk rB))⟩]
def out0_11 (x : Vec F S1x512x1024 .f32) (wv : Vec F S1024x1024 .bf16) (bv : Vec F S1x1024 .f32) : Vec F S1x512x1024 .bf16 :=
  View.canon [⟨rX, k0_pay4 (k0_pay8 (View.ld x rX) (View.ld wv rW) (View.ld bv rB))⟩]

/-- The proof data of the first launch on core `c`: the arrays as the launch finds them; after the body each input
    block in place and each output block at the function above of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 1 t) (iblk0 V c 2 t) (iblk0 V c 3 t)
    | ⟨9, _⟩ => out0_9 (iblk0 V c 1 t) (iblk0 V c 2 t) (iblk0 V c 3 t)
    | ⟨10, _⟩ => out0_10 (iblk0 V c 0 t) (iblk0 V c 4 t) (iblk0 V c 5 t)
    | ⟨11, _⟩ => out0_11 (iblk0 V c 0 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 1 t) (iblk0 V c 2 t) (iblk0 V c 3 t) := by dsimp only [dat0]
theorem after0_9 (c : Dev nD) (t : Fin cfg0.N) : (dat0 V c).after 9 t = out0_9 (iblk0 V c 1 t) (iblk0 V c 2 t) (iblk0 V c 3 t) := by dsimp only [dat0]
theorem after0_10 (c : Dev nD) (t : Fin cfg0.N) : (dat0 V c).after 10 t = out0_10 (iblk0 V c 0 t) (iblk0 V c 4 t) (iblk0 V c 5 t) := by dsimp only [dat0]
theorem after0_11 (c : Dev nD) (t : Fin cfg0.N) : (dat0 V c).after 11 t = out0_11 (iblk0 V c 0 t) (iblk0 V c 6 t) (iblk0 V c 7 t) := by dsimp only [dat0]

/-! ## What the first launch is entered from -/

section
variable (m : (ℓ : Loc nD τ sig) → Buf (Elt F) ℓ) (ρ : Dev nD → PrngReg)
/-- The buffers at launch. -/
abbrev W0 : Dev nD → Valuation τ sig (Elt F) := fun c b => (s₀ m ρ).mem ((c : Dev nD), b)
/-- After the host stretch (casts of the weights, reshapes of the biases, the pair view of the input). -/
abbrev W1 : Dev nD → Valuation τ sig (Elt F) := fun c => StableHlo.after hostOps0 (W0 m ρ c)
abbrev V1 : Entry F := fun c b => W1 m ρ c b
end

end Cert.KernelIdeal.Hand

end
-- ==== Proof.ProjBody.lean ====
/- The first launch's body meets its proof data: on whole staging memrefs holding the input blocks the body runs
   to the end and leaves each output block at the function `out0_W` of the input blocks (ProjData); hence the body
   obligation of the launch at every grid point. -/
import proofs.«401980_j60120952209552_3_alg».proof.Proof.ProjData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## An input's current staging buffer holds its block, fetched at the point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-! ## Each output's one store covers its block -/

theorem cover0_8 (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

theorem cover0_9 (p0 : Vec F S1x256x1024 .bf16) (y : S1x256x1024.Idx) :
    ∃ pc ∈ ([⟨rQ, p0⟩] : List (View.Piece (Elt F) S1x256x1024 .bf16)), y ∈ pc.1.set :=
  View.cover_of_tiled [⟨rQ, p0⟩] S1x256x1024.size (by rfl) y

theorem cover0_10 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

theorem cover0_11 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 4000000 in
theorem sound_kernel0 (c : Dev nD) (E : Set ℕ) (i : grid0.Coords) (arg2 : Memref sig .tc .vmem S1x512x1024 .f32) (harg2 : arg2.IsWhole) (arg3 : Memref sig .tc .vmem S1x256x2048 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x512x1024 .bf16) (harg12 : arg12.IsWhole) (arg13 : Memref sig .tc .vmem S1x512x1024 .bf16) (harg13 : arg13.IsWhole)
    (x0 : Vec F S1x512x1024 .f32) (x1 : Vec F S1x256x2048 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x1 x2 x3) ∗ owns (c : Thread nD τ) arg11 fullShare (out0_9 x1 x2 x3) ∗ owns (c : Thread nD τ) arg12 fullShare (out0_10 x0 x4 x5) ∗ owns (c : Thread nD τ) arg13 fullShare (out0_11 x0 x6 x7)) -∗ K ⟨⟩))
      ⊢ wp frame (wpE (defs₀ (F := F)) Variants.none c none) E (cc0__fused_qkv_kernel i arg2 harg2 arg3 harg3 arg4 harg4 arg5 harg5 arg6 harg6 arg7 harg7 arg8 harg8 arg9 harg9 arg10 harg10 arg11 harg11 arg12 harg12 arg13 harg13) K := by
  simp only [cc0__fused_qkv_kernel_eq_skeleton]; unfold cc0__fused_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRuns.lean ====
/- The second launch (attention with a running maximum, a running normaliser and a running weighted sum kept in
   scratch across the key/value axis): what its three control cases share. Case A is the first key/value block of a
   query tile (the scratch is reset), case B a middle block, case C the last block (the quotient is written out). -/
import proofs.«401980_j60120952209552_3_alg».proof.Proof.ProjData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, decided over the grid -/

/-- "This is the first key/value block": the kernel's own scalar chain on the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value block". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x1024x1024 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x1024x1024 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1x512x1024 .f32 := win1_3.stage (cfg1.slots t 3)
abbrev hs1_3 (t : Fin cfg1.N) : (ms1_3 t).IsWhole := Facts₀.hstage1_3 ((cfg1.slots t 3).cast Facts₀.nbuf1_3)
/-- The three scratch operands: the running maximum, the running normaliser, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

end Cert.KernelIdeal.Hand

end
-- ==== Proof.AttnRunA.lean ====
/- The attention body at the first key/value block of a query tile: the three scratch buffers are reset (so
   whatever they held is irrelevant), the first block's maximum, normaliser and weighted sum are stored, and the
   output block is left untouched. The pieces each scratch buffer ends with are found by running the body. -/
import proofs.«401980_j60120952209552_3_alg».proof.Proof.AttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1x1024x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunB.lean ====
/- The attention body at a middle key/value block: the scratch buffers hold what the block before left; the
   running maximum, normaliser and weighted sum are updated; the output block is left untouched. -/
import proofs.«401980_j60120952209552_3_alg».proof.Proof.AttnRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunC.lean ====
/- The attention body at the last key/value block: the scratch buffers hold what the block before left; they are
   updated once more and the output block receives the weighted sum divided by the normaliser. -/
import proofs.«401980_j60120952209552_3_alg».proof.Proof.AttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttnData.lean ====
/- The second launch read as proof data: what the output block and the three scratch buffers (running maximum,
   running normaliser, running weighted sum) hold after each grid point, by recursion along the key/value axis; the
   invariant that carries the scratch contents from one point to the next; the proof data of the launch. -/
import proofs.«401980_j60120952209552_3_alg».proof.Proof.AttnRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- Window `w`'s block at point `t` of the second launch, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Per case: the pieces the run found cover each buffer, and what they read back as -/

/-- The output block after case A (nothing stored: a placeholder nothing consults). -/
def out1_A_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y

def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1.size (by sl_kernel_rfl) y

def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S512x1024.size (by sl_kernel_rfl) y

def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- The output block after case B (nothing stored: a placeholder nothing consults). -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y

def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y

def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y

def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

theorem cover1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-- The output block after case C: its pieces read back. -/
def out1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

theorem scover1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S512x1.size (by sl_kernel_rfl) y

def sout1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

theorem scover1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S512x1.size (by sl_kernel_rfl) y

def sout1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

theorem scover1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S512x1024.size (by sl_kernel_rfl) y

def sout1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## Point by point -/

/-- The output block and the three scratch buffers, in that order. -/
abbrev Outs1 (F : FTy → Type) : Type := Vec F S1x512x1024 .f32 × Vec F S512x1 .f32 × Vec F S512x1 .f32 × Vec F S512x1024 .f32

/-- After a first key/value block. -/
def atA (c : Dev nD) (t : Fin cfg1.N) (h0 : t.val % 4 = 0) (h1 : ¬t.val % 4 = 3) : Outs1 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- After a middle block, over what the point before left (`p`). -/
def atB (c : Dev nD) (t : Fin cfg1.N) (h0 : ¬t.val % 4 = 0) (h1 : ¬t.val % 4 = 3) (p : Outs1 F) : Outs1 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- After a last block, over what the point before left (`p`). -/
def atC (c : Dev nD) (t : Fin cfg1.N) (h0 : ¬t.val % 4 = 0) (h1 : t.val % 4 = 3) (p : Outs1 F) : Outs1 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE RECURRENCE along the grid: the key/value axis is innermost and has four blocks, so position `n` is a first
    block when `n % 4 = 0`, a last block when `n % 4 = 3`. -/
def outsAt1 (c : Dev nD) : (n : ℕ) → n < cfg1.N → Outs1 F
  | 0, hn => atA V c ⟨0, hn⟩ (Nat.zero_mod 4) (show ¬(0 % 4 = 3) by decide)
  | n + 1, hn =>
    if h0 : (n + 1) % 4 = 0 then atA V c ⟨n + 1, hn⟩ h0 (fun h3 => by have h3' : (n + 1) % 4 = 3 := h3; omega)
    else if h1 : (n + 1) % 4 = 3 then atC V c ⟨n + 1, hn⟩ h0 h1 (outsAt1 c n (Nat.lt_of_succ_lt hn))
    else atB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = atA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The invariant between points -/

/-- The core's other scoped buffers (the first launch's staging buffers), each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- Before position `n`: at the first point whatever the launch hands over; afterwards the three scratch buffers at
    what the point before left in them, the other scoped buffers at anything, the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

end Cert.KernelIdeal.Hand

end
-- ==== Proof.AttnBody.lean ====
/- The second launch's body meets its proof data: at every grid point, from the invariant before the point and
   the input blocks in their staging buffers, the body runs to the end, leaves the scratch at the next step of the
   recurrence and (at a last key/value block) the output block at the quotient; hence the body obligation. -/
import proofs.«401980_j60120952209552_3_alg».proof.Proof.AttnData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-! ## An input's current staging buffer holds its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-! ## What the launch hands over, opened into the three scratch buffers and the rest -/

theorem PhiA1_split (c : Dev nD) :
    (Pipeline.ΦA spec1 c : sProp 𝕄) ⊢ iprop(Rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA Rest1; rw [scopedRest1_eq]; simp only [scM1_0, scM1_1, scM1_2, owns_whole]
  iintro ⟨⟨R1, R2, R3, R4, R5, R6, R7, R8, R9, R10, R11, R12, R13, R14, R15, R16, R17, R18, S0, S1, S2⟩, Hp⟩
  isplitl [R1 R2 R3 R4 R5 R6 R7 R8 R9 R10 R11 R12 R13 R14 R15 R16 R17 R18]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact R18
  isplitl [S0]; · iexact S0
  isplitl [S1]; · iexact S1
  isplitl [S2]; · iexact S2
  iexact Hp

theorem PhiA1_join (c : Dev nD) :
    iprop(Rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA Rest1; rw [scopedRest1_eq]; simp only [scM1_0, scM1_1, scM1_2, owns_whole]
  iintro ⟨⟨R1, R2, R3, R4, R5, R6, R7, R8, R9, R10, R11, R12, R13, R14, R15, R16, R17, R18⟩, S0, S1, S2, Hp⟩
  isplitr [Hp]
  swap; · iexact Hp
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [S0]; · iexact S0
  isplitl [S1]; · iexact S1
  iexact S2

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · -- a first key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold atA sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HR, HS0, HS1, HS2, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · -- a last key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold atC out1_C_3 sout1_C_0 sout1_C_1 sout1_C_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · -- a middle key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold atB sout1_B_0 sout1_B_1 sout1_B_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back, the scratch contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join (F := F) c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.KernelIdeal.Hand

end
-- ==== Proof.Run.lean ====
/- The whole program run: the buffer contents at the boundaries between the host stretch and the two launches, each
   launch as a segment over its proof data, and the run of @main to a state in which every unscoped buffer holds the
   last boundary's contents. -/
import proofs.«401980_j60120952209552_3_alg».proof.Proof.ProjBody
import proofs.«401980_j60120952209552_3_alg».proof.Proof.AttnBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : Entry F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes none of the arguments (each of its operations writes its own result only). -/
theorem W1_of_arg (c : Dev nD) (b : Ref sig .tc) (hb : b ∉ ([main_v0, main_v1, main_v2, main_v3, main_v4, main_v5, main_v6] : List (Ref sig .tc))) :
    W1 m ρ c (Proc.devRef .tc b) = W0 m ρ c (Proc.devRef .tc b) := by
  simp only [List.mem_cons, List.not_mem_nil, or_false, not_or] at hb
  obtain ⟨h0, h1, h2, h3, h4, h5, h6⟩ := hb
  refine StableHlo.after_of_forall_not_mem (b := Proc.devRef .tc b) _ _ (List.forall_iff_forall_mem.mp ?_)
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

/-! ## The results and the arguments at the end -/

/-- The query projection's array at the end is what the first launch's write-backs leave in it. -/
theorem W3_q (c : Dev nD) : W3 m ρ c (Proc.devRef .tc main_v7_0) = (dat0 (V1 m ρ) c).arrAt 8 cfg0.N :=
  (W3_of_ne m ρ c main_v7_0 (by decide)).trans (W2_arr m ρ c 8)
/-- The attention output's array at the end is what the second launch's write-backs leave in it. -/
theorem W3_o (c : Dev nD) : W3 m ρ c (Proc.devRef .tc main_v8) = (dat1 (V2 m ρ) c).arrAt 3 cfg1.N :=
  W3_arr m ρ c 3
/-- What the second launch reads: the first launch's other three results. -/
theorem V2_qb (c : Dev nD) : V2 m ρ c main_v7_1 = (dat0 (V1 m ρ) c).arrAt 9 cfg0.N := W2_arr m ρ c 9
theorem V2_k (c : Dev nD) : V2 m ρ c main_v7_2 = (dat0 (V1 m ρ) c).arrAt 10 cfg0.N := W2_arr m ρ c 10
theorem V2_v (c : Dev nD) : V2 m ρ c main_v7_3 = (dat0 (V1 m ρ) c).arrAt 11 cfg0.N := W2_arr m ρ c 11
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_arg m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_arg m ρ c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

theorem hostOps0_fresh : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, in a
    state in which every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The run with the two results named: the query projection and the attention output at what the launches'
    write-backs leave, the arguments as launched. -/
theorem run_values : θ_run defs (onTc (τ := τ) (main (F := F))) ⟨m, fun _ => 0, ρ⟩ (fun r => ∀ c : Dev nD,
      r.2.mem ((c.tc : Thread nD τ).loc main_v7_0) = (dat0 (V1 m ρ) c).arrAt 8 cfg0.N
      ∧ r.2.mem ((c.tc : Thread nD τ).loc main_v8) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7_0 (by decide))).trans (W3_q m ρ c), (h c _ (mem_uc main_v8 (by decide))).trans (W3_o m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Hand

end
-- ==== Proof.Bits.ProjData.lean ====
/- The first launch (pooling fused with the three projections), read as proof data: what each of its four
   output blocks holds after the body, as a function of the blocks the body loads. -/
import proofs.«401980_j60120952209552_3_alg».proof.Proof.Gen.Kernel.Launch
import proofs.«401980_j60120952209552_3_alg».proof.Proof.Gen.Kernel.Skeleton
import proofs.«401980_j60120952209552_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffer contents of core `c` when a launch is entered. -/
abbrev Entry (F : FTy → Type) : Type := (c : Dev nD) → (b : Ref sig .tc) → Buf (Elt F) ((c : Thread nD τ).loc b)

variable (V : Entry F)

/-- Window `w`'s block at point `t` of the first launch, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes -/

abbrev rX : Rect S1x512x1024 := Rect.unit (s := S1x512x1024) ![0, 0, 0] S1x512x1024.size Facts₀.inb_S1x512x1024_S1x512x1024_0_0_0
abbrev rPe : Rect S1x256x2048 := Rect.unit (s := S1x256x2048) ![0, 0, 0] S1x256x1024.size Facts₀.inb_S1x256x2048_S1x256x1024_0_0_0
abbrev rPo : Rect S1x256x2048 := Rect.unit (s := S1x256x2048) ![0, 0, 1024] S1x256x1024.size Facts₀.inb_S1x256x2048_S1x256x1024_0_0_1024
abbrev rW : Rect S1024x1024 := Rect.unit (s := S1024x1024) ![0, 0] S1024x1024.size Facts₀.inb_S1024x1024_S1024x1024_0_0
abbrev rB : Rect S1x1024 := Rect.unit (s := S1x1024) ![0, 0] S1x1024.size Facts₀.inb_S1x1024_S1x1024_0_0
abbrev rQ : Rect S1x256x1024 := Rect.unit (s := S1x256x1024) ![0, 0, 0] S1x256x1024.size Facts₀.inb_S1x256x1024_S1x256x1024_0_0_0

/-! ## What the body leaves in each output block -/

/-- The pooled rows projected by the query weights, plus the bias: the value both query outputs store. -/
def qFull (xp : Vec F S1x256x2048 .f32) (wq : Vec F S1024x1024 .bf16) (bq : Vec F S1x1024 .f32) : FVec F S256x1024 .f32 :=
  k0_pay6 (View.ld xp rPe) (View.ld xp rPo) (View.ld wq rW) (View.ld bq rB)

def out0_8 (xp : Vec F S1x256x2048 .f32) (wq : Vec F S1024x1024 .bf16) (bq : Vec F S1x1024 .f32) : Vec F S1x256x1024 .f32 :=
  View.canon [⟨rQ, k0_pay1 (qFull xp wq bq)⟩]
def out0_9 (xp : Vec F S1x256x2048 .f32) (wq : Vec F S1024x1024 .bf16) (bq : Vec F S1x1024 .f32) : Vec F S1x256x1024 .bf16 :=
  View.canon [⟨rQ, k0_pay2 (qFull xp wq bq)⟩]
def out0_10 (x : Vec F S1x512x1024 .f32) (wk : Vec F S1024x1024 .bf16) (bk : Vec F S1x1024 .f32) : Vec F S1x512x1024 .bf16 :=
  View.canon [⟨rX, k0_pay3 (k0_pay7 (View.ld x rX) (View.ld wk rW) (View.ld bk rB))⟩]
def out0_11 (x : Vec F S1x512x1024 .f32) (wv : Vec F S1024x1024 .bf16) (bv : Vec F S1x1024 .f32) : Vec F S1x512x1024 .bf16 :=
  View.canon [⟨rX, k0_pay4 (k0_pay8 (View.ld x rX) (View.ld wv rW) (View.ld bv rB))⟩]

/-- The proof data of the first launch on core `c`: the arrays as the launch finds them; after the body each input
    block in place and each output block at the function above of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 1 t) (iblk0 V c 2 t) (iblk0 V c 3 t)
    | ⟨9, _⟩ => out0_9 (iblk0 V c 1 t) (iblk0 V c 2 t) (iblk0 V c 3 t)
    | ⟨10, _⟩ => out0_10 (iblk0 V c 0 t) (iblk0 V c 4 t) (iblk0 V c 5 t)
    | ⟨11, _⟩ => out0_11 (iblk0 V c 0 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 1 t) (iblk0 V c 2 t) (iblk0 V c 3 t) := by dsimp only [dat0]
theorem after0_9 (c : Dev nD) (t : Fin cfg0.N) : (dat0 V c).after 9 t = out0_9 (iblk0 V c 1 t) (iblk0 V c 2 t) (iblk0 V c 3 t) := by dsimp only [dat0]
theorem after0_10 (c : Dev nD) (t : Fin cfg0.N) : (dat0 V c).after 10 t = out0_10 (iblk0 V c 0 t) (iblk0 V c 4 t) (iblk0 V c 5 t) := by dsimp only [dat0]
theorem after0_11 (c : Dev nD) (t : Fin cfg0.N) : (dat0 V c).after 11 t = out0_11 (iblk0 V c 0 t) (iblk0 V c 6 t) (iblk0 V c 7 t) := by dsimp only [dat0]

/-! ## What the first launch is entered from -/

section
variable (m : (ℓ : Loc nD τ sig) → Buf (Elt F) ℓ) (ρ : Dev nD → PrngReg)
/-- The buffers at launch. -/
abbrev W0 : Dev nD → Valuation τ sig (Elt F) := fun c b => (s₀ m ρ).mem ((c : Dev nD), b)
/-- After the host stretch (casts of the weights, reshapes of the biases, the pair view of the input). -/
abbrev W1 : Dev nD → Valuation τ sig (Elt F) := fun c => StableHlo.after hostOps0 (W0 m ρ c)
abbrev V1 : Entry F := fun c b => W1 m ρ c b
end

end Cert.Kernel.Hand

end
-- ==== Proof.Bits.ProjBody.lean ====
/- The first launch's body meets its proof data: on whole staging memrefs holding the input blocks the body runs
   to the end and leaves each output block at the function `out0_W` of the input blocks (ProjData); hence the body
   obligation of the launch at every grid point. -/
import proofs.«401980_j60120952209552_3_alg».proof.Proof.Bits.ProjData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## An input's current staging buffer holds its block, fetched at the point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-! ## Each output's one store covers its block -/

theorem cover0_8 (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

theorem cover0_9 (p0 : Vec F S1x256x1024 .bf16) (y : S1x256x1024.Idx) :
    ∃ pc ∈ ([⟨rQ, p0⟩] : List (View.Piece (Elt F) S1x256x1024 .bf16)), y ∈ pc.1.set :=
  View.cover_of_tiled [⟨rQ, p0⟩] S1x256x1024.size (by rfl) y

theorem cover0_10 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

theorem cover0_11 (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 4000000 in
theorem sound_kernel0 (c : Dev nD) (E : Set ℕ) (i : grid0.Coords) (arg2 : Memref sig .tc .vmem S1x512x1024 .f32) (harg2 : arg2.IsWhole) (arg3 : Memref sig .tc .vmem S1x256x2048 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x512x1024 .bf16) (harg12 : arg12.IsWhole) (arg13 : Memref sig .tc .vmem S1x512x1024 .bf16) (harg13 : arg13.IsWhole)
    (x0 : Vec F S1x512x1024 .f32) (x1 : Vec F S1x256x2048 .f32) (x2 : Vec F S1024x1024 .bf16) (x3 : Vec F S1x1024 .f32) (x4 : Vec F S1024x1024 .bf16) (x5 : Vec F S1x1024 .f32) (x6 : Vec F S1024x1024 .bf16) (x7 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x1 x2 x3) ∗ owns (c : Thread nD τ) arg11 fullShare (out0_9 x1 x2 x3) ∗ owns (c : Thread nD τ) arg12 fullShare (out0_10 x0 x4 x5) ∗ owns (c : Thread nD τ) arg13 fullShare (out0_11 x0 x6 x7)) -∗ K ⟨⟩))
      ⊢ wp frame (wpE (defs₀ (F := F)) Variants.none c none) E (cc0__fused_qkv_kernel i arg2 harg2 arg3 harg3 arg4 harg4 arg5 harg5 arg6 harg6 arg7 harg7 arg8 harg8 arg9 harg9 arg10 harg10 arg11 harg11 arg12 harg12 arg13 harg13) K := by
  simp only [cc0__fused_qkv_kernel_eq_skeleton]; unfold cc0__fused_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AttnRuns.lean ====
/- The second launch (attention with a running maximum, a running normaliser and a running weighted sum kept in
   scratch across the key/value axis): what its three control cases share. Case A is the first key/value block of a
   query tile (the scratch is reset), case B a middle block, case C the last block (the quotient is written out). -/
import proofs.«401980_j60120952209552_3_alg».proof.Proof.Bits.ProjData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, decided over the grid -/

/-- "This is the first key/value block": the kernel's own scalar chain on the third grid coordinate. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key/value block". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x1024x1024 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x1024x1024 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1x512x1024 .f32 := win1_3.stage (cfg1.slots t 3)
abbrev hs1_3 (t : Fin cfg1.N) : (ms1_3 t).IsWhole := Facts₀.hstage1_3 ((cfg1.slots t 3).cast Facts₀.nbuf1_3)
/-- The three scratch operands: the running maximum, the running normaliser, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

end Cert.Kernel.Hand

end
-- ==== Proof.Bits.AttnRunA.lean ====
/- The attention body at the first key/value block of a query tile: the three scratch buffers are reset (so
   whatever they held is irrelevant), the first block's maximum, normaliser and weighted sum are stored, and the
   output block is left untouched. The pieces each scratch buffer ends with are found by running the body. -/
import proofs.«401980_j60120952209552_3_alg».proof.Proof.Bits.AttnRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1x1024x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.Bits.AttnRunB.lean ====
/- The attention body at a middle key/value block: the scratch buffers hold what the block before left; the
   running maximum, normaliser and weighted sum are updated; the output block is left untouched. -/
import proofs.«401980_j60120952209552_3_alg».proof.Proof.Bits.AttnRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.Bits.AttnRunC.lean ====
/- The attention body at the last key/value block: the scratch buffers hold what the block before left; they are
   updated once more and the output block receives the weighted sum divided by the normaliser. -/
import proofs.«401980_j60120952209552_3_alg».proof.Proof.Bits.AttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.Bits.AttnData.lean ====
/- The second launch read as proof data: what the output block and the three scratch buffers (running maximum,
   running normaliser, running weighted sum) hold after each grid point, by recursion along the key/value axis; the
   invariant that carries the scratch contents from one point to the next; the proof data of the launch. -/
import proofs.«401980_j60120952209552_3_alg».proof.Proof.Bits.AttnRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- Window `w`'s block at point `t` of the second launch, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Per case: the pieces the run found cover each buffer, and what they read back as -/

/-- The output block after case A (nothing stored: a placeholder nothing consults). -/
def out1_A_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S1x512x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y

def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1.size (by sl_kernel_rfl) y

def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S512x1024.size (by sl_kernel_rfl) y

def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- The output block after case B (nothing stored: a placeholder nothing consults). -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y

def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y

def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y

def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

theorem cover1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x512x1024.size (by sl_kernel_rfl) y

/-- The output block after case C: its pieces read back. -/
def out1_C_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

theorem scover1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S512x1.size (by sl_kernel_rfl) y

def sout1_C_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

theorem scover1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S512x1.size (by sl_kernel_rfl) y

def sout1_C_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

theorem scover1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S512x1024.size (by sl_kernel_rfl) y

def sout1_C_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## Point by point -/

/-- The output block and the three scratch buffers, in that order. -/
abbrev Outs1 (F : FTy → Type) : Type := Vec F S1x512x1024 .f32 × Vec F S512x1 .f32 × Vec F S512x1 .f32 × Vec F S512x1024 .f32

/-- After a first key/value block. -/
def atA (c : Dev nD) (t : Fin cfg1.N) (h0 : t.val % 4 = 0) (h1 : ¬t.val % 4 = 3) : Outs1 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))
/-- After a middle block, over what the point before left (`p`). -/
def atB (c : Dev nD) (t : Fin cfg1.N) (h0 : ¬t.val % 4 = 0) (h1 : ¬t.val % 4 = 3) (p : Outs1 F) : Outs1 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.2.1 p.2.2.1 p.2.2.2)
/-- After a last block, over what the point before left (`p`). -/
def atC (c : Dev nD) (t : Fin cfg1.N) (h0 : ¬t.val % 4 = 0) (h1 : t.val % 4 = 3) (p : Outs1 F) : Outs1 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.2.1 p.2.2.1 p.2.2.2)

/-- THE RECURRENCE along the grid: the key/value axis is innermost and has four blocks, so position `n` is a first
    block when `n % 4 = 0`, a last block when `n % 4 = 3`. -/
def outsAt1 (c : Dev nD) : (n : ℕ) → n < cfg1.N → Outs1 F
  | 0, hn => atA V c ⟨0, hn⟩ (Nat.zero_mod 4) (show ¬(0 % 4 = 3) by decide)
  | n + 1, hn =>
    if h0 : (n + 1) % 4 = 0 then atA V c ⟨n + 1, hn⟩ h0 (fun h3 => by have h3' : (n + 1) % 4 = 3 := h3; omega)
    else if h1 : (n + 1) % 4 = 3 then atC V c ⟨n + 1, hn⟩ h0 h1 (outsAt1 c n (Nat.lt_of_succ_lt hn))
    else atB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = atA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = atB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = atC V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_pos h1).trans rfl)

/-! ## The invariant between points -/

/-- The core's other scoped buffers (the first launch's staging buffers), each whole at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- Before position `n`: at the first point whatever the launch hands over; afterwards the three scratch buffers at
    what the point before left in them, the other scoped buffers at anything, the generator register at some state. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

end Cert.Kernel.Hand

end
-- ==== Proof.Bits.AttnBody.lean ====
/- The second launch's body meets its proof data: at every grid point, from the invariant before the point and
   the input blocks in their staging buffers, the body runs to the end, leaves the scratch at the next step of the
   recurrence and (at a last key/value block) the output block at the quotient; hence the body obligation. -/
import proofs.«401980_j60120952209552_3_alg».proof.Proof.Bits.AttnData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-! ## An input's current staging buffer holds its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-! ## What the launch hands over, opened into the three scratch buffers and the rest -/

theorem PhiA1_split (c : Dev nD) :
    (Pipeline.ΦA spec1 c : sProp 𝕄) ⊢ iprop(Rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA Rest1; rw [scopedRest1_eq]; simp only [scM1_0, scM1_1, scM1_2, owns_whole]
  iintro ⟨⟨R1, R2, R3, R4, R5, R6, R7, R8, R9, R10, R11, R12, R13, R14, R15, R16, R17, R18, S0, S1, S2⟩, Hp⟩
  isplitl [R1 R2 R3 R4 R5 R6 R7 R8 R9 R10 R11 R12 R13 R14 R15 R16 R17 R18]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact R18
  isplitl [S0]; · iexact S0
  isplitl [S1]; · iexact S1
  isplitl [S2]; · iexact S2
  iexact Hp

theorem PhiA1_join (c : Dev nD) :
    iprop(Rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA Rest1; rw [scopedRest1_eq]; simp only [scM1_0, scM1_1, scM1_2, owns_whole]
  iintro ⟨⟨R1, R2, R3, R4, R5, R6, R7, R8, R9, R10, R11, R12, R13, R14, R15, R16, R17, R18⟩, S0, S1, S2, Hp⟩
  isplitr [Hp]
  swap; · iexact Hp
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [S0]; · iexact S0
  isplitl [S1]; · iexact S1
  iexact S2

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · -- a first key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold atA sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HR, HS0, HS1, HS2, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, HS1, HS2, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · -- a last key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold atC out1_C_3 sout1_C_0 sout1_C_1 sout1_C_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · -- a middle key/value block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold atB sout1_B_0 sout1_B_1 sout1_B_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back, the scratch contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  refine BIBase.Entails.trans ?_ (PhiA1_join (F := F) c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.Kernel.Hand

end
-- ==== Proof.Bits.Run.lean ====
/- The whole program run: the buffer contents at the boundaries between the host stretch and the two launches, each
   launch as a segment over its proof data, and the run of @main to a state in which every unscoped buffer holds the
   last boundary's contents. -/
import proofs.«401980_j60120952209552_3_alg».proof.Proof.Bits.ProjBody
import proofs.«401980_j60120952209552_3_alg».proof.Proof.Bits.AttnBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the first launch: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : Entry F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes none of the arguments (each of its operations writes its own result only). -/
theorem W1_of_arg (c : Dev nD) (b : Ref sig .tc) (hb : b ∉ ([main_v0, main_v1, main_v2, main_v3, main_v4, main_v5, main_v6] : List (Ref sig .tc))) :
    W1 m ρ c (Proc.devRef .tc b) = W0 m ρ c (Proc.devRef .tc b) := by
  simp only [List.mem_cons, List.not_mem_nil, or_false, not_or] at hb
  obtain ⟨h0, h1, h2, h3, h4, h5, h6⟩ := hb
  refine StableHlo.after_of_forall_not_mem (b := Proc.devRef .tc b) _ _ (List.forall_iff_forall_mem.mp ?_)
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6⟩

/-! ## The results and the arguments at the end -/

/-- The query projection's array at the end is what the first launch's write-backs leave in it. -/
theorem W3_q (c : Dev nD) : W3 m ρ c (Proc.devRef .tc main_v7_0) = (dat0 (V1 m ρ) c).arrAt 8 cfg0.N :=
  (W3_of_ne m ρ c main_v7_0 (by decide)).trans (W2_arr m ρ c 8)
/-- The attention output's array at the end is what the second launch's write-backs leave in it. -/
theorem W3_o (c : Dev nD) : W3 m ρ c (Proc.devRef .tc main_v8) = (dat1 (V2 m ρ) c).arrAt 3 cfg1.N :=
  W3_arr m ρ c 3
/-- What the second launch reads: the first launch's other three results. -/
theorem V2_qb (c : Dev nD) : V2 m ρ c main_v7_1 = (dat0 (V1 m ρ) c).arrAt 9 cfg0.N := W2_arr m ρ c 9
theorem V2_k (c : Dev nD) : V2 m ρ c main_v7_2 = (dat0 (V1 m ρ) c).arrAt 10 cfg0.N := W2_arr m ρ c 10
theorem V2_v (c : Dev nD) : V2 m ρ c main_v7_3 = (dat0 (V1 m ρ) c).arrAt 11 cfg0.N := W2_arr m ρ c 11
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_arg m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_arg m ρ c main_arg6 (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

theorem hostOps0_fresh : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, in a
    state in which every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The run with the two results named: the query projection and the attention output at what the launches'
    write-backs leave, the arguments as launched. -/
theorem run_values : θ_run defs (onTc (τ := τ) (main (F := F))) ⟨m, fun _ => 0, ρ⟩ (fun r => ∀ c : Dev nD,
      r.2.mem ((c.tc : Thread nD τ).loc main_v7_0) = (dat0 (V1 m ρ) c).arrAt 8 cfg0.N
      ∧ r.2.mem ((c.tc : Thread nD τ).loc main_v8) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7_0 (by decide))).trans (W3_q m ρ c), (h c _ (mem_uc main_v8 (by decide))).trans (W3_o m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Hand

end
-- ==== Proof.Finite.lean ====
/- Finite inputs are real numbers: under the precondition every entry of every argument array is the image of a
   real number in the extended reals. -/
import proofs.«401980_j60120952209552_3_alg».proof.Defs
import proofs.«401980_j60120952209552_3_alg».proof.Proof.Gen.KernelIdeal
import proofs.«401980_j60120952209552_3_alg».proof.Proof.Gen.Pre_finite_inputs
import Idealize.ShloMosaic.Lib.ReduceAll
import Idealize.ShloMosaic.Lib.ValueIdx

set_option maxRecDepth 16384

noncomputable section

namespace Cert.KernelIdeal.Hand

open Idealize.ShloMosaic Idealize.ShloMosaic.TcCoe
open Idealize.SL Idealize.SL.Sem
open Cert.KernelIdeal Cert.KernelIdeal.Gen

/-- An extended real whose absolute value, the larger of the number and its negative, lies strictly below plus
    infinity is neither infinity, hence the image of its real part. -/
private theorem coe_toReal_of_abs_lt_top (a : EReal) (h : max a (-a) < ⊤) : ((a.toReal : ℝ) : EReal) = a := by
  refine EReal.coe_toReal ?_ ?_
  · rintro rfl
    simp at h
  · rintro rfl
    simp at h

/-- The scalar shape has exactly one index. -/
private instance : Subsingleton Cert.Pre_finite_inputs.S_.Idx := ⟨fun a b => funext fun d => d.elim0⟩

/-- One array's finiteness test read back: if the conjunction over all entries of "the absolute value is below
    the word for plus infinity" came out true, then every entry is the image of its real part. -/
private theorem real_of_all {s : Shape} {axes : List (Fin s.rank)} (A : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (h : Host.reduce IntOp.andi
          (cmpf .olt (Host.absf A)
            (broadcastInDim s ![] hb (constant (F := Ideal) Cert.Pre_finite_inputs.S_ .f32 0x7F800000#32))) init hr hu j = 1#1)
    (i : s.Idx) : (((A i : EReal).toReal : ℝ) : EReal) = A i := by
  have e := Host.reduce_andi_all _ init hr hu j h i
  refine coe_toReal_of_abs_lt_top (A i) ?_
  have e' : Ideal.cmp .olt (max (A i) (-(A i))) (Ideal.ofBits .f32 0x7F800000#32) = 1#1 := e
  have ht : Ideal.ofBits .f32 0x7F800000#32 = (⊤ : EReal) := by simp [Ideal.ofBits, Ideal.ieee]
  rw [ht] at e'
  by_contra hn
  simp [Ideal.cmp, hn] at e'

/-- A rank-3 array of extended reals each of whose entries is the image of its real part is the image of the real
    array of those real parts, read by coordinates. -/
private theorem exists_real3 {n0 n1 n2 : Nat} (A : (⟨3, ![n0, n1, n2]⟩ : Shape).Idx → EReal)
    (hA : ∀ i, (((A i).toReal : ℝ) : EReal) = A i) :
    ∃ x : Fin n0 → Fin n1 → Fin n2 → ℝ, A = fun i => ((x (i 0) (i 1) (i 2) : ℝ) : EReal) :=
  ⟨fun a b d => (A (ValueIdx.ix3 a b d)).toReal, funext fun i =>
    (hA i).symm.trans (congrArg (fun j => (((A j).toReal : ℝ) : EReal)) (ValueIdx.eq_ix3 i))⟩

/-- The same for a matrix. -/
private theorem exists_real2 {n0 n1 : Nat} (A : (⟨2, ![n0, n1]⟩ : Shape).Idx → EReal)
    (hA : ∀ i, (((A i).toReal : ℝ) : EReal) = A i) :
    ∃ x : Fin n0 → Fin n1 → ℝ, A = fun i => ((x (i 0) (i 1) : ℝ) : EReal) :=
  ⟨fun a b => (A (ValueIdx.ix2 a b)).toReal, funext fun i =>
    (hA i).symm.trans (congrArg (fun j => (((A j).toReal : ℝ) : EReal)) (ValueIdx.eq_ix2 i))⟩

/-- The same for a vector. -/
private theorem exists_real1 {n0 : Nat} (A : (⟨1, ![n0]⟩ : Shape).Idx → EReal)
    (hA : ∀ i, (((A i).toReal : ℝ) : EReal) = A i) :
    ∃ x : Fin n0 → ℝ, A = fun i => ((x (i 0) : ℝ) : EReal) :=
  ⟨fun a => (A (ValueIdx.ix1 a)).toReal, funext fun i =>
    (hA i).symm.trans (congrArg (fun j => (((A j).toReal : ℝ) : EReal)) (ValueIdx.eq_ix1 i))⟩

theorem reals_of_pre (m : (ℓ : Loc nD τ sig) → Buf (Elt Ideal) ℓ)
    (h : Cert.Pre_KernelIdeal (hPre_finite_inputs := Cert.Pre_finite_inputs.Gen.facts) m) (c : Dev nD) :
    ∃ (x : Fin 8 → Fin 4096 → Fin 1024 → ℝ) (Wq Wk Wv : Fin 1024 → Fin 1024 → ℝ) (bq bk bv : Fin 1024 → ℝ),
      (m ((c.tc : Thread nD τ).loc main_arg0) : S8x4096x1024.Idx → EReal) = (fun i => ((x (i 0) (i 1) (i 2) : ℝ) : EReal))
      ∧ (m ((c.tc : Thread nD τ).loc main_arg1) : S1024x1024.Idx → EReal) = (fun i => ((Wq (i 0) (i 1) : ℝ) : EReal))
      ∧ (m ((c.tc : Thread nD τ).loc main_arg2) : S1024.Idx → EReal) = (fun i => ((bq (i 0) : ℝ) : EReal))
      ∧ (m ((c.tc : Thread nD τ).loc main_arg3) : S1024x1024.Idx → EReal) = (fun i => ((Wk (i 0) (i 1) : ℝ) : EReal))
      ∧ (m ((c.tc : Thread nD τ).loc main_arg4) : S1024.Idx → EReal) = (fun i => ((bk (i 0) : ℝ) : EReal))
      ∧ (m ((c.tc : Thread nD τ).loc main_arg5) : S1024x1024.Idx → EReal) = (fun i => ((Wv (i 0) (i 1) : ℝ) : EReal))
      ∧ (m ((c.tc : Thread nD τ).loc main_arg6) : S1024.Idx → EReal) = (fun i => ((bv (i 0) : ℝ) : EReal)) := by
  -- the precondition on this device, read at the scalar result's one index
  have h0 := congrFun (h c) ValueIdx.ix0
  unfold Cert.Pre_finite_inputs.fn Cert.Pre_finite_inputs.fn_part1 at h0
  dsimp only at h0
  -- the result is the conjunction of the seven arrays' tests, nested to the left
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  -- each array: every entry is the image of its real part, so the array is the image of a real array
  obtain ⟨x, hx⟩ := exists_real3 (m ((c.tc : Thread nD τ).loc main_arg0) : S8x4096x1024.Idx → EReal)
    (real_of_all _ _ _ _ _ _ h3)
  obtain ⟨Wq, hWq⟩ := exists_real2 (m ((c.tc : Thread nD τ).loc main_arg1) : S1024x1024.Idx → EReal)
    (real_of_all _ _ _ _ _ _ h7)
  obtain ⟨bq, hbq⟩ := exists_real1 (m ((c.tc : Thread nD τ).loc main_arg2) : S1024.Idx → EReal)
    (real_of_all _ _ _ _ _ _ h12)
  obtain ⟨Wk, hWk⟩ := exists_real2 (m ((c.tc : Thread nD τ).loc main_arg3) : S1024x1024.Idx → EReal)
    (real_of_all _ _ _ _ _ _ h17)
  obtain ⟨bk, hbk⟩ := exists_real1 (m ((c.tc : Thread nD τ).loc main_arg4) : S1024.Idx → EReal)
    (real_of_all _ _ _ _ _ _ h22)
  obtain ⟨Wv, hWv⟩ := exists_real2 (m ((c.tc : Thread nD τ).loc main_arg5) : S1024x1024.Idx → EReal)
    (real_of_all _ _ _ _ _ _ h27)
  obtain ⟨bv, hbv⟩ := exists_real1 (m ((c.tc : Thread nD τ).loc main_arg6) : S1024.Idx → EReal)
    (real_of_all _ _ _ _ _ _ h32)
  exact ⟨x, Wq, Wk, Wv, bq, bk, bv, hx, hWq, hbq, hWk, hbk, hWv, hbv⟩

end Cert.KernelIdeal.Hand

end
-- ==== Proof.Spec.lean ====
/- The mathematics both programs compute, over the reals: adjacent rows of the input are averaged; the averaged
   rows are projected by the query weights, the input rows by the key and the value weights (each a product with the
   weight matrix's transpose plus a bias); every query row is scored against every key row, the scores scaled by
   1/32; each score row is turned into softmax weights; the output row is the weighted sum of the value rows. -/
import Mathlib.Analysis.SpecialFunctions.Exp
import Mathlib.Data.EReal.Basic
import Mathlib.Algebra.BigOperators.Fin

noncomputable section

namespace Cert.Spec

open scoped BigOperators

/-! ## Attention of given queries, keys and values -/

section Attn
variable (q : Fin 8 → Fin 2048 → Fin 1024 → ℝ) (k v : Fin 8 → Fin 4096 → Fin 1024 → ℝ)

/-- The scaled score of query row `m` against key row `n`. -/
def sc (b : Fin 8) (m : Fin 2048) (n : Fin 4096) : ℝ := (∑ d, q b m d * k b n d) * (1 / 32)
/-- The largest score of a query row. -/
def mx (b : Fin 8) (m : Fin 2048) : ℝ := Finset.univ.sup' Finset.univ_nonempty (sc q k b m)
/-- The unnormalised softmax weight and the normaliser. -/
def pw (b : Fin 8) (m : Fin 2048) (n : Fin 4096) : ℝ := Real.exp (sc q k b m n - mx q k b m)
def Z (b : Fin 8) (m : Fin 2048) : ℝ := ∑ n, pw q k b m n
/-- The attention output: the softmax-weighted sum of the value rows. -/
def attn (b : Fin 8) (m : Fin 2048) (d : Fin 1024) : ℝ := ∑ n, pw q k b m n / Z q k b m * v b n d
end Attn

/-! ## The projections -/

variable (x : Fin 8 → Fin 4096 → Fin 1024 → ℝ)
variable (Wq Wk Wv : Fin 1024 → Fin 1024 → ℝ) (bq bk bv : Fin 1024 → ℝ)

/-- Rows `2m` and `2m + 1` of batch `b`, averaged. -/
def pool (b : Fin 8) (m : Fin 2048) (d : Fin 1024) : ℝ :=
  (x b ⟨2 * m.val, by omega⟩ d + x b ⟨2 * m.val + 1, by omega⟩ d) * (1 / 2)

/-- The query projection of the averaged rows. -/
def qP (b : Fin 8) (m : Fin 2048) (e : Fin 1024) : ℝ := (∑ d, pool x b m d * Wq e d) + bq e
/-- The key and value projections of the input rows. -/
def kP (b : Fin 8) (n : Fin 4096) (e : Fin 1024) : ℝ := (∑ d, x b n d * Wk e d) + bk e
def vP (b : Fin 8) (n : Fin 4096) (e : Fin 1024) : ℝ := (∑ d, x b n d * Wv e d) + bv e

/-- The whole computation's second result. -/
def oP (b : Fin 8) (m : Fin 2048) (d : Fin 1024) : ℝ :=
  attn (qP x Wq bq) (kP x Wk bk) (vP x Wv bv) b m d

end Cert.Spec

end
-- ==== Proof.ProjValueKV.lean ====
/- What the first launch leaves in its key and value result arrays, at the real numbers: the key projection and the
   value projection of the input rows (the input tile's rows times the weight matrix's transpose, plus the bias). -/
import proofs.«401980_j60120952209552_3_alg».proof.Proof.ProjData
import proofs.«401980_j60120952209552_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

open Idealize.ShloMosaic.ValueIdx

/-! ## The arithmetic of one tile -/

/-- The contraction of the tile product runs over the second axis of both operands: the left index is
    (row of the result, contraction coordinate) … -/
private theorem lhs_tile_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
private theorem lhs_tile_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- … and the right index is (column of the result, contraction coordinate). -/
private theorem rhs_tile_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
private theorem rhs_tile_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The tile product into a zero accumulator, at row r and column e: the sum over d of the left operand at
    (r, d) times the right operand at (e, d). -/
private theorem tile_product (a : FVec Ideal S512x1024 .bf16) (w : FVec Ideal S1024x1024 .bf16) (r : Fin 512) (e : Fin 1024) :
    (matmul dot_S512x1024_S1024x1024_S512x1024_1_1_0_0_n_n none a w (constant (F := Ideal) S512x1024 .f32 0x00000000#32) : FVec Ideal S512x1024 .f32) (ix2 r e)
      = ∑ d : Fin 1024, a (ix2 r d) * w (ix2 e d) := by
  simp only [matmul]
  rw [Ideal.matmul_constant_zero_apply, ← Equiv.sum_comp (contrEquiv1 dot_S512x1024_S1024x1024_S512x1024_1_1_0_0_n_n 1024 rfl rfl).symm]
  refine Finset.sum_congr rfl fun d _ => ?_
  have hd := contrEquiv1_symm_val dot_S512x1024_S1024x1024_S512x1024_1_1_0_0_n_n 1024 rfl rfl d
  have el : dot_S512x1024_S1024x1024_S512x1024_1_1_0_0_n_n.lhsIdx (ix2 r e) ((contrEquiv1 dot_S512x1024_S1024x1024_S512x1024_1_1_0_0_n_n 1024 rfl rfl).symm d) = ix2 r d := funext fun ax => Fin.ext (by
    match ax with
    | ⟨0, _⟩ => exact lhs_tile_0 _ _
    | ⟨1, _⟩ => exact (lhs_tile_1 _ _).trans hd)
  have er : dot_S512x1024_S1024x1024_S512x1024_1_1_0_0_n_n.rhsIdx (ix2 r e) ((contrEquiv1 dot_S512x1024_S1024x1024_S512x1024_1_1_0_0_n_n 1024 rfl rfl).symm d) = ix2 e d := funext fun ax => Fin.ext (by
    match ax with
    | ⟨0, _⟩ => exact rhs_tile_0 _ _
    | ⟨1, _⟩ => exact (rhs_tile_1 _ _).trans hd)
  rw [el, er]

/-! ## From the blocks to the array -/

private theorem zero_offsets : (![0, 0, 0] : Fin 3 → Nat) = fun _ => 0 := funext fun a => by fin_cases a <;> rfl
private theorem zero_offsets2 : (![0, 0] : Fin 2 → Nat) = fun _ => 0 := funext fun a => by fin_cases a <;> rfl

/-- The coercion of the reals into the extended reals goes through finite sums. -/
private theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The input's index map, decided over the 64 grid points: point t works on batch t / 8 and on the block of
    512 rows number t % 8. -/
private theorem idx_x : ∀ t : Fin cfg0.N,
    win0_0.index t (0 : Fin 3) = t.val / 8 ∧ win0_0.index t (1 : Fin 3) = t.val % 8 ∧ win0_0.index t (2 : Fin 3) = 0 :=
  (by decide +kernel : ∀ t : Fin grid0.N, _)

section
variable (V : Entry Ideal) (c : Dev nD)

/-- The input block the body loads at point t, at its literal type, and the array behind it. -/
private abbrev xblk (t : Fin cfg0.N) : Vec Ideal S1x512x1024 .f32 := iblk0 V c 0 t
private abbrev xarr : S8x4096x1024.Idx → EReal := V c main_arg0

/-- Row r of the input block of point t is row 512 (t % 8) + r of batch t / 8. -/
private theorem xblk_apply (t : Fin cfg0.N) (r : Fin 512) (d : Fin 1024) :
    xblk V c t (ix3 (0 : Fin 1) r d)
      = xarr V c (ix3 (⟨t.val / 8, by have ht : t.val < 64 := t.isLt; omega⟩ : Fin 8)
          (⟨512 * (t.val % 8) + r.val, by have := r.isLt; omega⟩ : Fin 4096) d) := by
  obtain ⟨e0, e1, e2⟩ := idx_x t
  show V c main_arg0 (((cfg0.win 0).blk t).view.emb (ix3 (0 : Fin 1) r d)) = V c main_arg0 _
  refine congrArg (V c main_arg0) (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * d.val = d.val; omega

end

/-! ## The key result -/

/-- What the body stores into the key block, at (0, r, e): the input tile's row r times row e of the weight
    matrix, summed over the 1024 features, plus entry e of the bias row. The changes of float format are the
    identity on the extended reals and the casts only add or drop the unit axis. -/
private theorem key_tile (xb : Vec Ideal S1x512x1024 .f32) (w : Vec Ideal S1024x1024 .bf16) (bias : Vec Ideal S1x1024 .f32)
    (p : Fin 1) (r : Fin 512) (e : Fin 1024) :
    k0_pay3 (k0_pay7 xb w bias) (ix3 p r e)
      = (∑ d : Fin 1024, xb (ix3 (0 : Fin 1) r d) * w (ix2 e d)) + bias (ix2 (0 : Fin 1) e) := by
  unfold k0_pay3
  refine (shapeCast_ab_1ab_apply _ _ p r e).trans ?_
  show k0_pay7 xb w bias (ix2 r e) = _
  unfold k0_pay7
  refine (addf_apply _ _ (ix2 r e)).trans ?_
  refine congrArg₂ (· + ·) ?_ ?_
  · refine (tile_product _ _ r e).trans ?_
    refine Finset.sum_congr rfl fun d _ => ?_
    refine congrArg₂ (· * ·) ?_ ?_
    · unfold k0_pay5
      show shapeCast S512x1024 xb shapeCasts_S1x512x1024_S512x1024 (ix2 r d) = _
      exact shapeCast_1ab_ab_apply _ _ r d
    · exact congrFun (shapeCast_self w _) (ix2 e d)
  · refine (broadcastTo_1b_ab_apply _ _ r e).trans ?_
    exact congrFun (shapeCast_self bias _) (ix2 (0 : Fin 1) e)

/-- The index maps of the key weights, the key bias and the key result, decided over the 64 grid points: the
    weight matrix and the bias row are whole at every point; the result's block moves with the input's. -/
private theorem idx_wk : ∀ t : Fin cfg0.N, win0_4.index t (0 : Fin 2) = 0 ∧ win0_4.index t (1 : Fin 2) = 0 :=
  (by decide +kernel : ∀ t : Fin grid0.N, _)
private theorem idx_bk : ∀ t : Fin cfg0.N, win0_5.index t (0 : Fin 2) = 0 ∧ win0_5.index t (1 : Fin 2) = 0 :=
  (by decide +kernel : ∀ t : Fin grid0.N, _)
private theorem idx_key : ∀ t : Fin cfg0.N,
    win0_10.index t (0 : Fin 3) = t.val / 8 ∧ win0_10.index t (1 : Fin 3) = t.val % 8 ∧ win0_10.index t (2 : Fin 3) = 0 :=
  (by decide +kernel : ∀ t : Fin grid0.N, _)

section
variable (V : Entry Ideal) (c : Dev nD)

/-- The weight and bias blocks the body loads at point t, at their literal types, and the arrays behind them. -/
private abbrev wkblk (t : Fin cfg0.N) : Vec Ideal S1024x1024 .bf16 := iblk0 V c 4 t
private abbrev bkblk (t : Fin cfg0.N) : Vec Ideal S1x1024 .f32 := iblk0 V c 5 t
private abbrev wkarr : S1024x1024.Idx → EReal := V c main_v1
private abbrev bkarr : S1x1024.Idx → EReal := V c main_v4

/-- The weight block is the whole weight matrix … -/
private theorem wkblk_apply (t : Fin cfg0.N) (e d : Fin 1024) :
    wkblk V c t (ix2 e d) = wkarr V c (ix2 e d) := by
  obtain ⟨e0, e1⟩ := idx_wk t
  show V c main_v1 (((cfg0.win 4).blk t).view.emb (ix2 e d)) = V c main_v1 _
  refine congrArg (V c main_v1) (funext fun a => Fin.ext ?_)
  match a with
  | ⟨0, _⟩ => show win0_4.index t (0 : Fin 2) * 1024 + 1 * e.val = e.val; omega
  | ⟨1, _⟩ => show win0_4.index t (1 : Fin 2) * 1024 + 1 * d.val = d.val; omega

/-- … and the bias block the whole bias row. -/
private theorem bkblk_apply (t : Fin cfg0.N) (e : Fin 1024) :
    bkblk V c t (ix2 (0 : Fin 1) e) = bkarr V c (ix2 (0 : Fin 1) e) := by
  obtain ⟨e0, e1⟩ := idx_bk t
  show V c main_v4 (((cfg0.win 5).blk t).view.emb (ix2 (0 : Fin 1) e)) = V c main_v4 _
  refine congrArg (V c main_v4) (funext fun a => Fin.ext ?_)
  match a with
  | ⟨0, _⟩ => show win0_5.index t (0 : Fin 2) * 1 + 1 * 0 = 0; omega
  | ⟨1, _⟩ => show win0_5.index t (1 : Fin 2) * 1024 + 1 * e.val = e.val; omega

end

section
variable (V : Entry Ideal) (c : Dev nD) (x : Fin 8 → Fin 4096 → Fin 1024 → ℝ) (Wk : Fin 1024 → Fin 1024 → ℝ) (bk : Fin 1024 → ℝ)

/-- The key projection as an array of extended reals. -/
private abbrev keyArr : S8x4096x1024.Idx → EReal := fun i => ((Spec.kP x Wk bk (i 0) (i 1) (i 2) : ℝ) : EReal)
/-- The tile's arithmetic on the blocks of point t gives the key projection at row 512 (t % 8) + r of batch t / 8:
    the blocks hold the arrays' real numbers, and the coercion commutes with the products, the sum and the
    addition of the bias. -/
private theorem key_block
    (hx : (V c main_arg0 : S8x4096x1024.Idx → EReal) = fun i => ((x (i 0) (i 1) (i 2) : ℝ) : EReal))
    (hwk : (V c main_v1 : S1024x1024.Idx → EReal) = fun i => ((Wk (i 0) (i 1) : ℝ) : EReal))
    (hbk : (V c main_v4 : S1x1024.Idx → EReal) = fun i => ((bk (i 1) : ℝ) : EReal))
    (t : Fin cfg0.N) (p : Fin 1) (r : Fin 512) (e : Fin 1024) :
    k0_pay3 (k0_pay7 (xblk V c t) (wkblk V c t) (bkblk V c t)) (ix3 p r e)
      = keyArr x Wk bk (ix3 (⟨t.val / 8, by have ht : t.val < 64 := t.isLt; omega⟩ : Fin 8)
          (⟨512 * (t.val % 8) + r.val, by have := r.isLt; omega⟩ : Fin 4096) e) := by
  refine (key_tile (xblk V c t) (wkblk V c t) (bkblk V c t) p r e).trans ?_
  have hsum : (∑ d : Fin 1024, xblk V c t (ix3 (0 : Fin 1) r d) * wkblk V c t (ix2 e d))
      = ∑ d : Fin 1024, ((x (⟨t.val / 8, by have ht : t.val < 64 := t.isLt; omega⟩ : Fin 8)
          (⟨512 * (t.val % 8) + r.val, by have := r.isLt; omega⟩ : Fin 4096) d * Wk e d : ℝ) : EReal) :=
    Finset.sum_congr rfl fun d _ => by
      rw [xblk_apply V c t r d, wkblk_apply V c t e d, EReal.coe_mul]
      exact congrArg₂ (· * ·) (congrFun hx _) (congrFun hwk _)
  have hb : bkblk V c t (ix2 (0 : Fin 1) e) = ((bk e : ℝ) : EReal) := by
    rw [bkblk_apply V c t e]
    exact congrFun hbk _
  rw [hsum, hb, ← coe_sum, ← EReal.coe_add]
  rfl

/-- An element of point t's block of the key result sits at row 512 (t % 8) + r of batch t / 8. -/
private theorem key_emb (t : Fin cfg0.N) (p : Fin 1) (r : Fin 512) (e : Fin 1024) :
    ((cfg0.win 10).blk t).view.emb (ix3 p r e)
      = ix3 (⟨t.val / 8, by have ht : t.val < 64 := t.isLt; omega⟩ : Fin 8)
          (⟨512 * (t.val % 8) + r.val, by have := r.isLt; omega⟩ : Fin 4096) e := by
  obtain ⟨e0, e1, e2⟩ := idx_key t
  have hp := p.isLt
  refine funext fun a => Fin.ext ?_
  match a with
  | ⟨0, _⟩ => show win0_10.index t (0 : Fin 3) * 1 + 1 * p.val = t.val / 8; omega
  | ⟨1, _⟩ => show win0_10.index t (1 : Fin 3) * 512 + 1 * r.val = 512 * (t.val % 8) + r.val; omega
  | ⟨2, _⟩ => show win0_10.index t (2 : Fin 3) * 1024 + 1 * e.val = e.val; omega

/-- What point t writes back into the key result is block t of the key projection. -/
private theorem key_flushed
    (hx : (V c main_arg0 : S8x4096x1024.Idx → EReal) = fun i => ((x (i 0) (i 1) (i 2) : ℝ) : EReal))
    (hwk : (V c main_v1 : S1024x1024.Idx → EReal) = fun i => ((Wk (i 0) (i 1) : ℝ) : EReal))
    (hbk : (V c main_v4 : S1x1024.Idx → EReal) = fun i => ((bk (i 1) : ℝ) : EReal))
    (t : Fin cfg0.N) :
    (dat0 V c).flushed 10 t = ((cfg0.win 10).blk t).view.read (Elt Ideal) (keyArr x Wk bk) := by
  show (cfg0.win 10).cut (grid0.coords t) ((dat0 V c).after 10 t) = _
  rw [after0_10]
  unfold out0_10
  rw [View.canon_unit_zero zero_offsets]
  simp only [View.ld_unit_zero (S := S1x512x1024) zero_offsets, View.ld_unit_zero (S := S1024x1024) zero_offsets2, View.ld_unit_zero (S := S1x1024) zero_offsets2]
  funext y
  obtain ⟨p, r, e, rfl⟩ : ∃ (p : Fin 1) (r : Fin 512) (e : Fin 1024), y = ix3 p r e := ⟨y 0, y 1, y 2, eq_ix3 y⟩
  refine (key_block V c x Wk bk hx hwk hbk t p r e).trans ?_
  exact congrArg (keyArr x Wk bk) (key_emb t p r e).symm

/-- An index of the result array is in point t's block iff each coordinate is in the block's range on its axis. -/
private theorem key_mem_blk (t : Fin cfg0.N) (i : S8x4096x1024.Idx) :
    i ∈ ((cfg0.win 10).blk t).view.set ↔ ∀ a : Fin 3, win0_10.index t a * S1x512x1024.size a ≤ (i a).val ∧ (i a).val < win0_10.index t a * S1x512x1024.size a + S1x512x1024.size a := by
  show i ∈ ((View.whole main_v7_2).slice (win0_10.rect t)).set ↔ _
  rw [View.set_slice_whole, Rect.mem_set_unit]
  exact Iff.rfl

/-- Every index of the key result is written back by some point: row n of batch b by point 8 b + n / 512. -/
private theorem key_cover (i : S8x4096x1024.Idx) :
    ∃ t : Fin cfg0.N, (cfg0.win 10).flush t = true ∧ i ∈ ((cfg0.win 10).blk t).view.set := by
  have h0 : (i 0).val < 8 := (i 0).isLt
  have h1 : (i 1).val < 4096 := (i 1).isLt
  have h2 : (i 2).val < 1024 := (i 2).isLt
  obtain ⟨t, ht⟩ : ∃ t : Fin cfg0.N, t.val = 8 * (i 0).val + (i 1).val / 512 :=
    ⟨⟨8 * (i 0).val + (i 1).val / 512, by show _ < 64; omega⟩, rfl⟩
  obtain ⟨e0, e1, e2⟩ := idx_key t
  refine ⟨t, flush0_10 t, ?_⟩
  rw [key_mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

end

/-! ## The value result -/

/-- What the body stores into the value block, at (0, r, e): the input tile's row r times row e of the weight
    matrix, summed over the 1024 features, plus entry e of the bias row. The changes of float format are the
    identity on the extended reals and the casts only add or drop the unit axis. -/
private theorem value_tile (xb : Vec Ideal S1x512x1024 .f32) (w : Vec Ideal S1024x1024 .bf16) (bias : Vec Ideal S1x1024 .f32)
    (p : Fin 1) (r : Fin 512) (e : Fin 1024) :
    k0_pay4 (k0_pay8 xb w bias) (ix3 p r e)
      = (∑ d : Fin 1024, xb (ix3 (0 : Fin 1) r d) * w (ix2 e d)) + bias (ix2 (0 : Fin 1) e) := by
  unfold k0_pay4
  refine (shapeCast_ab_1ab_apply _ _ p r e).trans ?_
  show k0_pay8 xb w bias (ix2 r e) = _
  unfold k0_pay8
  refine (addf_apply _ _ (ix2 r e)).trans ?_
  refine congrArg₂ (· + ·) ?_ ?_
  · refine (tile_product _ _ r e).trans ?_
    refine Finset.sum_congr rfl fun d _ => ?_
    refine congrArg₂ (· * ·) ?_ ?_
    · unfold k0_pay5
      show shapeCast S512x1024 xb shapeCasts_S1x512x1024_S512x1024 (ix2 r d) = _
      exact shapeCast_1ab_ab_apply _ _ r d
    · exact congrFun (shapeCast_self w _) (ix2 e d)
  · refine (broadcastTo_1b_ab_apply _ _ r e).trans ?_
    exact congrFun (shapeCast_self bias _) (ix2 (0 : Fin 1) e)

/-- The index maps of the value weights, the value bias and the value result, decided over the 64 grid points: the
    weight matrix and the bias row are whole at every point; the result's block moves with the input's. -/
private theorem idx_wv : ∀ t : Fin cfg0.N, win0_6.index t (0 : Fin 2) = 0 ∧ win0_6.index t (1 : Fin 2) = 0 :=
  (by decide +kernel : ∀ t : Fin grid0.N, _)
private theorem idx_bv : ∀ t : Fin cfg0.N, win0_7.index t (0 : Fin 2) = 0 ∧ win0_7.index t (1 : Fin 2) = 0 :=
  (by decide +kernel : ∀ t : Fin grid0.N, _)
private theorem idx_val : ∀ t : Fin cfg0.N,
    win0_11.index t (0 : Fin 3) = t.val / 8 ∧ win0_11.index t (1 : Fin 3) = t.val % 8 ∧ win0_11.index t (2 : Fin 3) = 0 :=
  (by decide +kernel : ∀ t : Fin grid0.N, _)

section
variable (V : Entry Ideal) (c : Dev nD)

/-- The weight and bias blocks the body loads at point t, at their literal types, and the arrays behind them. -/
private abbrev wvblk (t : Fin cfg0.N) : Vec Ideal S1024x1024 .bf16 := iblk0 V c 6 t
private abbrev bvblk (t : Fin cfg0.N) : Vec Ideal S1x1024 .f32 := iblk0 V c 7 t
private abbrev wvarr : S1024x1024.Idx → EReal := V c main_v2
private abbrev bvarr : S1x1024.Idx → EReal := V c main_v5

/-- The weight block is the whole weight matrix … -/
private theorem wvblk_apply (t : Fin cfg0.N) (e d : Fin 1024) :
    wvblk V c t (ix2 e d) = wvarr V c (ix2 e d) := by
  obtain ⟨e0, e1⟩ := idx_wv t
  show V c main_v2 (((cfg0.win 6).blk t).view.emb (ix2 e d)) = V c main_v2 _
  refine congrArg (V c main_v2) (funext fun a => Fin.ext ?_)
  match a with
  | ⟨0, _⟩ => show win0_6.index t (0 : Fin 2) * 1024 + 1 * e.val = e.val; omega
  | ⟨1, _⟩ => show win0_6.index t (1 : Fin 2) * 1024 + 1 * d.val = d.val; omega

/-- … and the bias block the whole bias row. -/
private theorem bvblk_apply (t : Fin cfg0.N) (e : Fin 1024) :
    bvblk V c t (ix2 (0 : Fin 1) e) = bvarr V c (ix2 (0 : Fin 1) e) := by
  obtain ⟨e0, e1⟩ := idx_bv t
  show V c main_v5 (((cfg0.win 7).blk t).view.emb (ix2 (0 : Fin 1) e)) = V c main_v5 _
  refine congrArg (V c main_v5) (funext fun a => Fin.ext ?_)
  match a with
  | ⟨0, _⟩ => show win0_7.index t (0 : Fin 2) * 1 + 1 * 0 = 0; omega
  | ⟨1, _⟩ => show win0_7.index t (1 : Fin 2) * 1024 + 1 * e.val = e.val; omega

end

section
variable (V : Entry Ideal) (c : Dev nD) (x : Fin 8 → Fin 4096 → Fin 1024 → ℝ) (Wv : Fin 1024 → Fin 1024 → ℝ) (bv : Fin 1024 → ℝ)

/-- The value projection as an array of extended reals. -/
private abbrev valArr : S8x4096x1024.Idx → EReal := fun i => ((Spec.vP x Wv bv (i 0) (i 1) (i 2) : ℝ) : EReal)
/-- The tile's arithmetic on the blocks of point t gives the value projection at row 512 (t % 8) + r of batch t / 8:
    the blocks hold the arrays' real numbers, and the coercion commutes with the products, the sum and the
    addition of the bias. -/
private theorem value_block
    (hx : (V c main_arg0 : S8x4096x1024.Idx → EReal) = fun i => ((x (i 0) (i 1) (i 2) : ℝ) : EReal))
    (hwv : (V c main_v2 : S1024x1024.Idx → EReal) = fun i => ((Wv (i 0) (i 1) : ℝ) : EReal))
    (hbv : (V c main_v5 : S1x1024.Idx → EReal) = fun i => ((bv (i 1) : ℝ) : EReal))
    (t : Fin cfg0.N) (p : Fin 1) (r : Fin 512) (e : Fin 1024) :
    k0_pay4 (k0_pay8 (xblk V c t) (wvblk V c t) (bvblk V c t)) (ix3 p r e)
      = valArr x Wv bv (ix3 (⟨t.val / 8, by have ht : t.val < 64 := t.isLt; omega⟩ : Fin 8)
          (⟨512 * (t.val % 8) + r.val, by have := r.isLt; omega⟩ : Fin 4096) e) := by
  refine (value_tile (xblk V c t) (wvblk V c t) (bvblk V c t) p r e).trans ?_
  have hsum : (∑ d : Fin 1024, xblk V c t (ix3 (0 : Fin 1) r d) * wvblk V c t (ix2 e d))
      = ∑ d : Fin 1024, ((x (⟨t.val / 8, by have ht : t.val < 64 := t.isLt; omega⟩ : Fin 8)
          (⟨512 * (t.val % 8) + r.val, by have := r.isLt; omega⟩ : Fin 4096) d * Wv e d : ℝ) : EReal) :=
    Finset.sum_congr rfl fun d _ => by
      rw [xblk_apply V c t r d, wvblk_apply V c t e d, EReal.coe_mul]
      exact congrArg₂ (· * ·) (congrFun hx _) (congrFun hwv _)
  have hb : bvblk V c t (ix2 (0 : Fin 1) e) = ((bv e : ℝ) : EReal) := by
    rw [bvblk_apply V c t e]
    exact congrFun hbv _
  rw [hsum, hb, ← coe_sum, ← EReal.coe_add]
  rfl

/-- An element of point t's block of the value result sits at row 512 (t % 8) + r of batch t / 8. -/
private theorem value_emb (t : Fin cfg0.N) (p : Fin 1) (r : Fin 512) (e : Fin 1024) :
    ((cfg0.win 11).blk t).view.emb (ix3 p r e)
      = ix3 (⟨t.val / 8, by have ht : t.val < 64 := t.isLt; omega⟩ : Fin 8)
          (⟨512 * (t.val % 8) + r.val, by have := r.isLt; omega⟩ : Fin 4096) e := by
  obtain ⟨e0, e1, e2⟩ := idx_val t
  have hp := p.isLt
  refine funext fun a => Fin.ext ?_
  match a with
  | ⟨0, _⟩ => show win0_11.index t (0 : Fin 3) * 1 + 1 * p.val = t.val / 8; omega
  | ⟨1, _⟩ => show win0_11.index t (1 : Fin 3) * 512 + 1 * r.val = 512 * (t.val % 8) + r.val; omega
  | ⟨2, _⟩ => show win0_11.index t (2 : Fin 3) * 1024 + 1 * e.val = e.val; omega

/-- What point t writes back into the value result is block t of the value projection. -/
private theorem value_flushed
    (hx : (V c main_arg0 : S8x4096x1024.Idx → EReal) = fun i => ((x (i 0) (i 1) (i 2) : ℝ) : EReal))
    (hwv : (V c main_v2 : S1024x1024.Idx → EReal) = fun i => ((Wv (i 0) (i 1) : ℝ) : EReal))
    (hbv : (V c main_v5 : S1x1024.Idx → EReal) = fun i => ((bv (i 1) : ℝ) : EReal))
    (t : Fin cfg0.N) :
    (dat0 V c).flushed 11 t = ((cfg0.win 11).blk t).view.read (Elt Ideal) (valArr x Wv bv) := by
  show (cfg0.win 11).cut (grid0.coords t) ((dat0 V c).after 11 t) = _
  rw [after0_11]
  unfold out0_11
  rw [View.canon_unit_zero zero_offsets]
  simp only [View.ld_unit_zero (S := S1x512x1024) zero_offsets, View.ld_unit_zero (S := S1024x1024) zero_offsets2, View.ld_unit_zero (S := S1x1024) zero_offsets2]
  funext y
  obtain ⟨p, r, e, rfl⟩ : ∃ (p : Fin 1) (r : Fin 512) (e : Fin 1024), y = ix3 p r e := ⟨y 0, y 1, y 2, eq_ix3 y⟩
  refine (value_block V c x Wv bv hx hwv hbv t p r e).trans ?_
  exact congrArg (valArr x Wv bv) (value_emb t p r e).symm

/-- An index of the result array is in point t's block iff each coordinate is in the block's range on its axis. -/
private theorem value_mem_blk (t : Fin cfg0.N) (i : S8x4096x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v7_3).slice (win0_11.rect t)).set ↔ _
  rw [View.set_slice_whole, Rect.mem_set_unit]
  exact Iff.rfl

/-- Every index of the value result is written back by some point: row n of batch b by point 8 b + n / 512. -/
private theorem value_cover (i : S8x4096x1024.Idx) :
    ∃ t : Fin cfg0.N, (cfg0.win 11).flush t = true ∧ i ∈ ((cfg0.win 11).blk t).view.set := by
  have h0 : (i 0).val < 8 := (i 0).isLt
  have h1 : (i 1).val < 4096 := (i 1).isLt
  have h2 : (i 2).val < 1024 := (i 2).isLt
  obtain ⟨t, ht⟩ : ∃ t : Fin cfg0.N, t.val = 8 * (i 0).val + (i 1).val / 512 :=
    ⟨⟨8 * (i 0).val + (i 1).val / 512, by show _ < 64; omega⟩, rfl⟩
  obtain ⟨e0, e1, e2⟩ := idx_val t
  refine ⟨t, flush0_11 t, ?_⟩
  rw [value_mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1024 ≤ (i 2).val ∧ (i 2).val < win0_11.index t (2 : Fin 3) * 1024 + 1024; omega

end

/-- One projection of the input rows: window `w` (10 for keys, 11 for values) ends holding
    `(∑ d, x b n d * W e d) + bias e` when the input, the weight matrix (window `w - 6`'s array... see below) and the
    bias row hold these real numbers. Stated for the key result. -/
theorem proj_k (V : Entry Ideal) (c : Dev nD) (x : Fin 8 → Fin 4096 → Fin 1024 → ℝ) (Wk : Fin 1024 → Fin 1024 → ℝ) (bk : Fin 1024 → ℝ)
    (hx : (V c main_arg0 : S8x4096x1024.Idx → EReal) = fun i => ((x (i 0) (i 1) (i 2) : ℝ) : EReal))
    (hwk : (V c main_v1 : S1024x1024.Idx → EReal) = fun i => ((Wk (i 0) (i 1) : ℝ) : EReal))
    (hbk : (V c main_v4 : S1x1024.Idx → EReal) = fun i => ((bk (i 1) : ℝ) : EReal)) :
    ((dat0 V c).arrAt 10 cfg0.N : S8x4096x1024.Idx → EReal) = (fun i => ((Spec.kP x Wk bk (i 0) (i 1) (i 2) : ℝ) : EReal)) := by
  -- every block written back is a block of the key projection, and the blocks cover the array
  exact (dat0 V c).arrAt_eq_of_cover 10 (keyArr x Wk bk)
    (fun t _ => key_flushed V c x Wk bk hx hwk hbk t) key_cover

/-- The same for the value result. -/
theorem proj_v (V : Entry Ideal) (c : Dev nD) (x : Fin 8 → Fin 4096 → Fin 1024 → ℝ) (Wv : Fin 1024 → Fin 1024 → ℝ) (bv : Fin 1024 → ℝ)
    (hx : (V c main_arg0 : S8x4096x1024.Idx → EReal) = fun i => ((x (i 0) (i 1) (i 2) : ℝ) : EReal))
    (hwv : (V c main_v2 : S1024x1024.Idx → EReal) = fun i => ((Wv (i 0) (i 1) : ℝ) : EReal))
    (hbv : (V c main_v5 : S1x1024.Idx → EReal) = fun i => ((bv (i 1) : ℝ) : EReal)) :
    ((dat0 V c).arrAt 11 cfg0.N : S8x4096x1024.Idx → EReal) = (fun i => ((Spec.vP x Wv bv (i 0) (i 1) (i 2) : ℝ) : EReal)) := by
  exact (dat0 V c).arrAt_eq_of_cover 11 (valArr x Wv bv)
    (fun t _ => value_flushed V c x Wv bv hx hwv hbv t) value_cover

end Cert.KernelIdeal.Hand

end
-- ==== Proof.ProjValue.lean ====
/- What the first launch leaves in its four result arrays, at the real numbers: the query projection of the
   averaged row pairs (twice: once kept, once handed to the second launch), the key projection and the value
   projection of the input rows. The two query arrays are read here: the body's arithmetic at an entry, the staged
   blocks as entries of the arrays, each point's write-back as a block of one whole array, and the blocks covering the
   array. -/
import proofs.«401980_j60120952209552_3_alg».proof.Proof.ProjData
import proofs.«401980_j60120952209552_3_alg».proof.Proof.Spec
import proofs.«401980_j60120952209552_3_alg».proof.Proof.ProjValueKV
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

/-- The arrays the first launch reads hold these real numbers: the input, its view as row pairs (row `r` of the
    view is rows `2r` and `2r + 1` of the input side by side), the three weight matrices, the three biases as rows. -/
structure EntryIs (V : Entry Ideal) (c : Dev nD) (x : Fin 8 → Fin 4096 → Fin 1024 → ℝ) (Wq Wk Wv : Fin 1024 → Fin 1024 → ℝ) (bq bk bv : Fin 1024 → ℝ) : Prop where
  hx : (V c main_arg0 : S8x4096x1024.Idx → EReal) = fun i => ((x (i 0) (i 1) (i 2) : ℝ) : EReal)
  hxp : (V c main_v6 : S8x2048x2048.Idx → EReal) = fun i =>
    ((x (i 0) ⟨2 * (i 1).val + (i 2).val / 1024, by have h1 : (i 1).val < 2048 := (i 1).isLt; have h2 : (i 2).val < 2048 := (i 2).isLt; omega⟩
      ⟨(i 2).val % 1024, Nat.mod_lt _ (by decide)⟩ : ℝ) : EReal)
  hwq : (V c main_v0 : S1024x1024.Idx → EReal) = fun i => ((Wq (i 0) (i 1) : ℝ) : EReal)
  hbq : (V c main_v3 : S1x1024.Idx → EReal) = fun i => ((bq (i 1) : ℝ) : EReal)
  hwk : (V c main_v1 : S1024x1024.Idx → EReal) = fun i => ((Wk (i 0) (i 1) : ℝ) : EReal)
  hbk : (V c main_v4 : S1x1024.Idx → EReal) = fun i => ((bk (i 1) : ℝ) : EReal)
  hwv : (V c main_v2 : S1024x1024.Idx → EReal) = fun i => ((Wv (i 0) (i 1) : ℝ) : EReal)
  hbv : (V c main_v5 : S1x1024.Idx → EReal) = fun i => ((bv (i 1) : ℝ) : EReal)

open Idealize.ShloMosaic.ValueIdx
open scoped BigOperators

namespace ProjQ

/-- Offsets written as a list of zeros are the zero function (rank 3, rank 2). -/
theorem hz3 : (![0, 0, 0] : Fin 3 → Nat) = fun _ => 0 := funext fun a => by fin_cases a <;> rfl
theorem hz2 : (![0, 0] : Fin 2 → Nat) = fun _ => 0 := funext fun a => by fin_cases a <;> rfl

/-- The word 0x3F000000 is one half. -/
theorem ofBits_half : Ideal.ofBits .f32 0x3F000000#32 = (((1 : ℝ) / 2 : ℝ) : EReal) := by
  simp [Ideal.ofBits, Ideal.ieee, -EReal.coe_mul]; norm_num

/-! ## The matrix product's index maps, axis by axis

Entry `(p, e)` of the product reads the left factor at `(p, k)` and the right factor at `(e, k)`, `k` the shared
index: the right factor enters transposed. -/

theorem lhs256_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs256_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs256_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs256_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A product of a [256,1024] matrix with the transpose of a [1024,1024] matrix into a zero accumulator, at an
    entry: the sum over the shared axis. -/
theorem matmul256_apply (l : FVec Ideal S256x1024 .bf16) (r : FVec Ideal S1024x1024 .bf16) (p : Fin 256) (e : Fin 1024) :
    matmul dot_S256x1024_S1024x1024_S256x1024_1_1_0_0_n_n none l r (constant (F := Ideal) S256x1024 .f32 0x00000000#32) (ix2 p e)
      = ∑ k : Fin 1024, l (ix2 p k) * r (ix2 e k) := by
  show FloatOps.matmul dot_S256x1024_S1024x1024_S256x1024_1_1_0_0_n_n none l r (constant S256x1024 .f32 0x00000000#32) (ix2 p e) = _
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p e) ((contrEquiv1 dot_S256x1024_S1024x1024_S256x1024_1_1_0_0_n_n 1024 rfl rfl).symm k) = ix2 p k := funext fun a => Fin.ext (by
    match a with
    | ⟨0, _⟩ => exact lhs256_0 _ _
    | ⟨1, _⟩ => exact (lhs256_1 _ _).trans hk)
  have er : dot_S256x1024_S1024x1024_S256x1024_1_1_0_0_n_n.rhsIdx (ix2 p e) ((contrEquiv1 dot_S256x1024_S1024x1024_S256x1024_1_1_0_0_n_n 1024 rfl rfl).symm k) = ix2 e k := funext fun a => Fin.ext (by
    match a with
    | ⟨0, _⟩ => exact rhs256_0 _ _
    | ⟨1, _⟩ => exact (rhs256_1 _ _).trans hk)
  rw [el, er]

/-! ## The body's arithmetic at an entry -/

/-- The query block's arithmetic: the two staged half rows added and halved, against row `e` of the weights, plus
    entry `e` of the bias row. -/
theorem pay6_apply (xe xo : Vec Ideal S1x256x1024 .f32) (w : Vec Ideal S1024x1024 .bf16) (b : Vec Ideal S1x1024 .f32) (p : Fin 256) (e : Fin 1024) :
    k0_pay6 xe xo w b (ix2 p e)
      = (∑ k : Fin 1024, ((xe (ix3 (0 : Fin 1) p k) + xo (ix3 (0 : Fin 1) p k)) * Ideal.ofBits .f32 0x3F000000#32) * w (ix2 e k)) + b (ix2 (0 : Fin 1) e) := by
  unfold k0_pay6
  refine (addf_apply _ _ _).trans ?_
  congr 1
  · refine (matmul256_apply _ _ p e).trans ?_
    refine Finset.sum_congr rfl fun k _ => ?_
    congr 1
    · refine (truncf_apply (φ := .f32) (ψ := .bf16) _ _ _).trans ?_
      refine (mulf_apply _ _ _).trans ?_
      congr 1
      refine (addf_apply _ _ _).trans ?_
      congr 1
      · exact shapeCast_1ab_ab_apply xe _ p k
      · exact shapeCast_1ab_ab_apply xo _ p k
    · rw [shapeCast_self]
  · exact (broadcastTo_1b_ab_apply _ _ p e).trans (by rw [shapeCast_self])

/-! ## From extended reals back to reals -/

/-- A finite sum of real numbers, read in the extended reals, is the sum of the readings. -/
theorem coe_sum_real {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The half sum of two rows of real numbers against a row of real numbers, plus a real number, stays real. -/
theorem q_real (xe xo : Vec Ideal S1x256x1024 .f32) (wb : Vec Ideal S1024x1024 .bf16) (bb : Vec Ideal S1x1024 .f32)
    (ev od wr : Fin 1024 → ℝ) (br : ℝ) (p : Fin 256) (e : Fin 1024)
    (hxe : ∀ k, xe (ix3 (0 : Fin 1) p k) = ((ev k : ℝ) : EReal)) (hxo : ∀ k, xo (ix3 (0 : Fin 1) p k) = ((od k : ℝ) : EReal))
    (hw : ∀ k, wb (ix2 e k) = ((wr k : ℝ) : EReal)) (hb : bb (ix2 (0 : Fin 1) e) = ((br : ℝ) : EReal)) :
    (∑ k : Fin 1024, ((xe (ix3 (0 : Fin 1) p k) + xo (ix3 (0 : Fin 1) p k)) * Ideal.ofBits .f32 0x3F000000#32) * wb (ix2 e k)) + bb (ix2 (0 : Fin 1) e)
      = (((∑ k, ((ev k + od k) * (1 / 2)) * wr k) + br : ℝ) : EReal) := by
  rw [EReal.coe_add, coe_sum_real, hb]
  congr 1
  refine Finset.sum_congr rfl fun k _ => ?_
  rw [hxe, hxo, hw, ofBits_half, ← EReal.coe_add, ← EReal.coe_mul, ← EReal.coe_mul]

/-! ## What each query block holds at an entry, when the staged blocks hold real numbers -/

/-- The pooled rows' common value: both query outputs store it. -/
theorem qFull_entry (xp : Vec Ideal S1x256x2048 .f32) (wb : Vec Ideal S1024x1024 .bf16) (bb : Vec Ideal S1x1024 .f32)
    (ev od wr : Fin 1024 → ℝ) (br : ℝ) (p : Fin 256) (e : Fin 1024)
    (hxe : ∀ k : Fin 1024, xp (ix3 (0 : Fin 1) p (⟨k.val, by omega⟩ : Fin 2048)) = ((ev k : ℝ) : EReal))
    (hxo : ∀ k : Fin 1024, xp (ix3 (0 : Fin 1) p (⟨1024 + k.val, by omega⟩ : Fin 2048)) = ((od k : ℝ) : EReal))
    (hw : ∀ k, wb (ix2 e k) = ((wr k : ℝ) : EReal)) (hb : bb (ix2 (0 : Fin 1) e) = ((br : ℝ) : EReal)) :
    qFull xp wb bb (ix2 p e) = (((∑ k, ((ev k + od k) * (1 / 2)) * wr k) + br : ℝ) : EReal) := by
  unfold qFull
  simp only [View.ld_unit_zero (S := S1024x1024) hz2, View.ld_unit_zero (S := S1x1024) hz2]
  refine (pay6_apply _ _ wb bb p e).trans ?_
  refine q_real _ _ wb bb ev od wr br p e (fun k => ?_) (fun k => ?_) hw hb
  · refine Eq.trans ?_ (hxe k)
    show xp (rPe.idx (ix3 (0 : Fin 1) p k)) = xp (ix3 (0 : Fin 1) p (⟨k.val, by omega⟩ : Fin 2048))
    congr 1
    funext a
    apply Fin.ext
    match a with
    | ⟨0, _⟩ => rfl
    | ⟨1, _⟩ => show 0 + 1 * p.val = p.val; omega
    | ⟨2, _⟩ => show 0 + 1 * k.val = k.val; omega
  · refine Eq.trans ?_ (hxo k)
    show xp (rPo.idx (ix3 (0 : Fin 1) p k)) = xp (ix3 (0 : Fin 1) p (⟨1024 + k.val, by omega⟩ : Fin 2048))
    congr 1
    funext a
    apply Fin.ext
    match a with
    | ⟨0, _⟩ => rfl
    | ⟨1, _⟩ => show 0 + 1 * p.val = p.val; omega
    | ⟨2, _⟩ => show 1024 + 1 * k.val = 1024 + k.val; omega

theorem out8_entry (xp : Vec Ideal S1x256x2048 .f32) (wb : Vec Ideal S1024x1024 .bf16) (bb : Vec Ideal S1x1024 .f32)
    (ev od wr : Fin 1024 → ℝ) (br : ℝ) (u : Fin 1) (p : Fin 256) (e : Fin 1024)
    (hxe : ∀ k : Fin 1024, xp (ix3 (0 : Fin 1) p (⟨k.val, by omega⟩ : Fin 2048)) = ((ev k : ℝ) : EReal))
    (hxo : ∀ k : Fin 1024, xp (ix3 (0 : Fin 1) p (⟨1024 + k.val, by omega⟩ : Fin 2048)) = ((od k : ℝ) : EReal))
    (hw : ∀ k, wb (ix2 e k) = ((wr k : ℝ) : EReal)) (hb : bb (ix2 (0 : Fin 1) e) = ((br : ℝ) : EReal)) :
    out0_8 xp wb bb (ix3 u p e) = (((∑ k, ((ev k + od k) * (1 / 2)) * wr k) + br : ℝ) : EReal) := by
  unfold out0_8
  rw [View.canon_unit_zero hz3]
  unfold k0_pay1
  refine (shapeCast_ab_1ab_apply _ _ u p e).trans ?_
  exact qFull_entry xp wb bb ev od wr br p e hxe hxo hw hb

theorem out9_entry (xp : Vec Ideal S1x256x2048 .f32) (wb : Vec Ideal S1024x1024 .bf16) (bb : Vec Ideal S1x1024 .f32)
    (ev od wr : Fin 1024 → ℝ) (br : ℝ) (u : Fin 1) (p : Fin 256) (e : Fin 1024)
    (hxe : ∀ k : Fin 1024, xp (ix3 (0 : Fin 1) p (⟨k.val, by omega⟩ : Fin 2048)) = ((ev k : ℝ) : EReal))
    (hxo : ∀ k : Fin 1024, xp (ix3 (0 : Fin 1) p (⟨1024 + k.val, by omega⟩ : Fin 2048)) = ((od k : ℝ) : EReal))
    (hw : ∀ k, wb (ix2 e k) = ((wr k : ℝ) : EReal)) (hb : bb (ix2 (0 : Fin 1) e) = ((br : ℝ) : EReal)) :
    out0_9 xp wb bb (ix3 u p e) = (((∑ k, ((ev k + od k) * (1 / 2)) * wr k) + br : ℝ) : EReal) := by
  unfold out0_9
  rw [View.canon_unit_zero hz3]
  unfold k0_pay2
  refine (shapeCast_ab_1ab_apply _ _ u p e).trans ?_
  refine (truncf_apply (φ := .f32) (ψ := .bf16) _ _ _).trans ?_
  exact qFull_entry xp wb bb ev od wr br p e hxe hxo hw hb

/-! ## Where the blocks lie: the index maps over the 8 x 8 grid -/

/-- At every grid point the pair view's window and the two query windows name the same block of 256 rows of the
    same batch, and the last axis is never split. -/
theorem idx_q : ∀ t : Fin cfg0.N,
    win0_1.index t (0 : Fin 3) = win0_8.index t (0 : Fin 3) ∧ win0_1.index t (1 : Fin 3) = win0_8.index t (1 : Fin 3)
    ∧ win0_1.index t (2 : Fin 3) = 0
    ∧ win0_9.index t (0 : Fin 3) = win0_8.index t (0 : Fin 3) ∧ win0_9.index t (1 : Fin 3) = win0_8.index t (1 : Fin 3)
    ∧ win0_9.index t (2 : Fin 3) = 0
    ∧ win0_8.index t (0 : Fin 3) < 8 ∧ win0_8.index t (1 : Fin 3) < 8 ∧ win0_8.index t (2 : Fin 3) = 0 :=
  (by decide +kernel : ∀ t : Fin grid0.N, _)

/-- The query weights' and the query bias's windows are their whole arrays at every point. -/
theorem idx_w : ∀ t : Fin cfg0.N,
    win0_2.index t (0 : Fin 2) = 0 ∧ win0_2.index t (1 : Fin 2) = 0 ∧ win0_3.index t (0 : Fin 2) = 0 ∧ win0_3.index t (1 : Fin 2) = 0 :=
  (by decide +kernel : ∀ t : Fin grid0.N, _)

/-- Every (batch, row block) pair is some point's. -/
theorem onto_q : ∀ (q0 q1 : Fin 8), ∃ t : Fin cfg0.N, win0_8.index t (0 : Fin 3) = q0.val ∧ win0_8.index t (1 : Fin 3) = q1.val :=
  (by decide +kernel : ∀ (q0 q1 : Fin 8), ∃ t : Fin grid0.N, win0_8.index t (0 : Fin 3) = q0.val ∧ win0_8.index t (1 : Fin 3) = q1.val)

/-! ## The staged blocks as entries of the arrays -/

section Blocks
variable (V : Entry Ideal) (c : Dev nD)

/-- An entry of the pair view's block at a point is the view's entry in the point's batch, at the point's block of
    256 rows. -/
theorem xpblk_apply (t : Fin cfg0.N) (u : Fin 1) (p : Fin 256) (j : Fin 2048) (B : Fin 8) (R : Fin 2048)
    (hB : B.val = win0_1.index t (0 : Fin 3)) (hR : R.val = win0_1.index t (1 : Fin 3) * 256 + p.val)
    (h2 : win0_1.index t (2 : Fin 3) = 0) :
    (iblk0 V c 1 t : Vec Ideal S1x256x2048 .f32) (ix3 u p j) = (V c main_v6 : S8x2048x2048.Idx → EReal) (ix3 B R j) := by
  unfold iblk0
  rw [View.read_apply]
  show V c main_v6 _ = V c main_v6 _
  congr 1
  funext a
  apply Fin.ext
  match a with
  | ⟨0, _⟩ => show win0_1.index t (0 : Fin 3) * 1 + 1 * u.val = B.val; omega
  | ⟨1, _⟩ => show win0_1.index t (1 : Fin 3) * 256 + 1 * p.val = R.val; omega
  | ⟨2, _⟩ => show win0_1.index t (2 : Fin 3) * 2048 + 1 * j.val = j.val; omega

/-- The query weights' block is the whole matrix. -/
theorem wqblk_apply (t : Fin cfg0.N) (e k : Fin 1024) (h0 : win0_2.index t (0 : Fin 2) = 0) (h1 : win0_2.index t (1 : Fin 2) = 0) :
    (iblk0 V c 2 t : Vec Ideal S1024x1024 .bf16) (ix2 e k) = (V c main_v0 : S1024x1024.Idx → EReal) (ix2 e k) := by
  unfold iblk0
  rw [View.read_apply]
  show V c main_v0 _ = V c main_v0 _
  congr 1
  funext a
  apply Fin.ext
  match a with
  | ⟨0, _⟩ => show win0_2.index t (0 : Fin 2) * 1024 + 1 * e.val = e.val; omega
  | ⟨1, _⟩ => show win0_2.index t (1 : Fin 2) * 1024 + 1 * k.val = k.val; omega

/-- The query bias's block is the whole row. -/
theorem bqblk_apply (t : Fin cfg0.N) (u : Fin 1) (e : Fin 1024) (h0 : win0_3.index t (0 : Fin 2) = 0) (h1 : win0_3.index t (1 : Fin 2) = 0) :
    (iblk0 V c 3 t : Vec Ideal S1x1024 .f32) (ix2 u e) = (V c main_v3 : S1x1024.Idx → EReal) (ix2 u e) := by
  unfold iblk0
  rw [View.read_apply]
  show V c main_v3 _ = V c main_v3 _
  congr 1
  funext a
  apply Fin.ext
  match a with
  | ⟨0, _⟩ => show win0_3.index t (0 : Fin 2) * 1 + 1 * u.val = u.val; omega
  | ⟨1, _⟩ => show win0_3.index t (1 : Fin 2) * 1024 + 1 * e.val = e.val; omega

end Blocks

/-! ## The query arrays after the launch -/

section Final
variable (V : Entry Ideal) (c : Dev nD) (x : Fin 8 → Fin 4096 → Fin 1024 → ℝ) (Wq : Fin 1024 → Fin 1024 → ℝ) (bq : Fin 1024 → ℝ)

/-- The whole query array: the projection of the averaged row pairs. -/
abbrev Gq : S8x2048x1024.Idx → EReal := fun i => ((Spec.qP x Wq bq (i 0) (i 1) (i 2) : ℝ) : EReal)

/-- What the body finds in its staged blocks at a point, in real numbers: row `p` of the pair view's block is the
    input's rows `2R` and `2R + 1` of batch `B` side by side (`R` the row of the view), the weights and the bias
    are the arguments'. -/
theorem blocks_real
    (hxp : (V c main_v6 : S8x2048x2048.Idx → EReal) = fun i =>
      ((x (i 0) ⟨2 * (i 1).val + (i 2).val / 1024, by have h1 : (i 1).val < 2048 := (i 1).isLt; have h2 : (i 2).val < 2048 := (i 2).isLt; omega⟩
        ⟨(i 2).val % 1024, Nat.mod_lt _ (by decide)⟩ : ℝ) : EReal))
    (hwq : (V c main_v0 : S1024x1024.Idx → EReal) = fun i => ((Wq (i 0) (i 1) : ℝ) : EReal))
    (hbq : (V c main_v3 : S1x1024.Idx → EReal) = fun i => ((bq (i 1) : ℝ) : EReal))
    (t : Fin cfg0.N) (p : Fin 256) (e : Fin 1024) (B : Fin 8) (R : Fin 2048)
    (hB : B.val = win0_1.index t (0 : Fin 3)) (hR : R.val = win0_1.index t (1 : Fin 3) * 256 + p.val) :
    (∀ k : Fin 1024, (iblk0 V c 1 t : Vec Ideal S1x256x2048 .f32) (ix3 (0 : Fin 1) p (⟨k.val, by omega⟩ : Fin 2048)) = ((x B ⟨2 * R.val, by omega⟩ k : ℝ) : EReal))
    ∧ (∀ k : Fin 1024, (iblk0 V c 1 t : Vec Ideal S1x256x2048 .f32) (ix3 (0 : Fin 1) p (⟨1024 + k.val, by omega⟩ : Fin 2048)) = ((x B ⟨2 * R.val + 1, by omega⟩ k : ℝ) : EReal))
    ∧ (∀ k : Fin 1024, (iblk0 V c 2 t : Vec Ideal S1024x1024 .bf16) (ix2 e k) = ((Wq e k : ℝ) : EReal))
    ∧ (iblk0 V c 3 t : Vec Ideal S1x1024 .f32) (ix2 (0 : Fin 1) e) = ((bq e : ℝ) : EReal) := by
  obtain ⟨-, -, z2, -, -, -, -, -, -⟩ := idx_q t
  obtain ⟨w20, w21, w30, w31⟩ := idx_w t
  have hRlt := R.isLt
  refine ⟨fun k => ?_, fun k => ?_, fun k => ?_, ?_⟩
  · have hk := k.isLt
    refine (xpblk_apply V c t (0 : Fin 1) p (⟨k.val, by omega⟩ : Fin 2048) B R hB hR z2).trans ?_
    refine (congrFun hxp _).trans ?_
    have ea : (⟨2 * R.val + k.val / 1024, by omega⟩ : Fin 4096) = ⟨2 * R.val, by omega⟩ := Fin.ext (by show 2 * R.val + k.val / 1024 = 2 * R.val; omega)
    have eb : (⟨k.val % 1024, Nat.mod_lt _ (by decide)⟩ : Fin 1024) = k := Fin.ext (by show k.val % 1024 = k.val; omega)
    show ((x B ⟨2 * R.val + k.val / 1024, _⟩ ⟨k.val % 1024, _⟩ : ℝ) : EReal) = _
    rw [ea, eb]
  · have hk := k.isLt
    refine (xpblk_apply V c t (0 : Fin 1) p (⟨1024 + k.val, by omega⟩ : Fin 2048) B R hB hR z2).trans ?_
    refine (congrFun hxp _).trans ?_
    have ea : (⟨2 * R.val + (1024 + k.val) / 1024, by omega⟩ : Fin 4096) = ⟨2 * R.val + 1, by omega⟩ := Fin.ext (by show 2 * R.val + (1024 + k.val) / 1024 = 2 * R.val + 1; omega)
    have eb : (⟨(1024 + k.val) % 1024, Nat.mod_lt _ (by decide)⟩ : Fin 1024) = k := Fin.ext (by show (1024 + k.val) % 1024 = k.val; omega)
    show ((x B ⟨2 * R.val + (1024 + k.val) / 1024, _⟩ ⟨(1024 + k.val) % 1024, _⟩ : ℝ) : EReal) = _
    rw [ea, eb]
  · exact (wqblk_apply V c t e k w20 w21).trans (congrFun hwq _)
  · exact (bqblk_apply V c t (0 : Fin 1) e w30 w31).trans (congrFun hbq _)

/-- What a point writes back to the first query array is its block of the whole query array. -/
theorem flushed8_eq
    (hxp : (V c main_v6 : S8x2048x2048.Idx → EReal) = fun i =>
      ((x (i 0) ⟨2 * (i 1).val + (i 2).val / 1024, by have h1 : (i 1).val < 2048 := (i 1).isLt; have h2 : (i 2).val < 2048 := (i 2).isLt; omega⟩
        ⟨(i 2).val % 1024, Nat.mod_lt _ (by decide)⟩ : ℝ) : EReal))
    (hwq : (V c main_v0 : S1024x1024.Idx → EReal) = fun i => ((Wq (i 0) (i 1) : ℝ) : EReal))
    (hbq : (V c main_v3 : S1x1024.Idx → EReal) = fun i => ((bq (i 1) : ℝ) : EReal))
    (t : Fin cfg0.N) :
    (dat0 V c).flushed 8 t = ((cfg0.win 8).blk t).view.read (Elt Ideal) (Gq x Wq bq) := by
  show (cfg0.win 8).cut (grid0.coords t) ((dat0 V c).after 8 t) = _
  rw [after0_8]
  obtain ⟨e0, e1, -, -, -, -, l0, l1, z8⟩ := idx_q t
  funext j
  obtain ⟨u, p, e, rfl⟩ : ∃ (u : Fin 1) (p : Fin 256) (e : Fin 1024), j = ix3 u p e := ⟨j 0, j 1, j 2, eq_ix3 j⟩
  have hp := p.isLt
  have hE : ((cfg0.win 8).blk t).view.emb (ix3 u p e) = (ix3 (⟨win0_8.index t (0 : Fin 3), l0⟩ : Fin 8) (⟨win0_8.index t (1 : Fin 3) * 256 + p.val, by omega⟩ : Fin 2048) e : S8x2048x1024.Idx) := by
    funext a
    apply Fin.ext
    match a with
    | ⟨0, _⟩ => show win0_8.index t (0 : Fin 3) * 1 + 1 * u.val = win0_8.index t (0 : Fin 3); omega
    | ⟨1, _⟩ => show win0_8.index t (1 : Fin 3) * 256 + 1 * p.val = win0_8.index t (1 : Fin 3) * 256 + p.val; omega
    | ⟨2, _⟩ => show win0_8.index t (2 : Fin 3) * 1024 + 1 * e.val = e.val; omega
  obtain ⟨hxe, hxo, hw, hb⟩ := blocks_real V c x Wq bq hxp hwq hbq t p e (⟨win0_8.index t (0 : Fin 3), l0⟩ : Fin 8) (⟨win0_8.index t (1 : Fin 3) * 256 + p.val, by omega⟩ : Fin 2048) e0.symm (by show win0_8.index t (1 : Fin 3) * 256 + p.val = _; rw [e1])
  show out0_8 (iblk0 V c 1 t) (iblk0 V c 2 t) (iblk0 V c 3 t) (ix3 u p e) = Gq x Wq bq (((cfg0.win 8).blk t).view.emb (ix3 u p e))
  rw [hE]
  exact out8_entry (iblk0 V c 1 t) (iblk0 V c 2 t) (iblk0 V c 3 t) _ _ _ _ u p e hxe hxo hw hb

end Final

section Final2
variable (V : Entry Ideal) (c : Dev nD) (x : Fin 8 → Fin 4096 → Fin 1024 → ℝ) (Wq : Fin 1024 → Fin 1024 → ℝ) (bq : Fin 1024 → ℝ)

/-- The second query array's write-backs are the same blocks of the same whole array (its format change is the
    identity on the extended reals). -/
theorem flushed9_eq
    (hxp : (V c main_v6 : S8x2048x2048.Idx → EReal) = fun i =>
      ((x (i 0) ⟨2 * (i 1).val + (i 2).val / 1024, by have h1 : (i 1).val < 2048 := (i 1).isLt; have h2 : (i 2).val < 2048 := (i 2).isLt; omega⟩
        ⟨(i 2).val % 1024, Nat.mod_lt _ (by decide)⟩ : ℝ) : EReal))
    (hwq : (V c main_v0 : S1024x1024.Idx → EReal) = fun i => ((Wq (i 0) (i 1) : ℝ) : EReal))
    (hbq : (V c main_v3 : S1x1024.Idx → EReal) = fun i => ((bq (i 1) : ℝ) : EReal))
    (t : Fin cfg0.N) :
    (dat0 V c).flushed 9 t = ((cfg0.win 9).blk t).view.read (Elt Ideal) (Gq x Wq bq) := by
  show (cfg0.win 9).cut (grid0.coords t) ((dat0 V c).after 9 t) = _
  rw [after0_9]
  obtain ⟨e0, e1, -, f0, f1, z9, l0, l1, -⟩ := idx_q t
  funext j
  obtain ⟨u, p, e, rfl⟩ : ∃ (u : Fin 1) (p : Fin 256) (e : Fin 1024), j = ix3 u p e := ⟨j 0, j 1, j 2, eq_ix3 j⟩
  have hp := p.isLt
  have hE : ((cfg0.win 9).blk t).view.emb (ix3 u p e) = (ix3 (⟨win0_8.index t (0 : Fin 3), l0⟩ : Fin 8) (⟨win0_8.index t (1 : Fin 3) * 256 + p.val, by omega⟩ : Fin 2048) e : S8x2048x1024.Idx) := by
    funext a
    apply Fin.ext
    match a with
    | ⟨0, _⟩ => show win0_9.index t (0 : Fin 3) * 1 + 1 * u.val = win0_8.index t (0 : Fin 3); omega
    | ⟨1, _⟩ => show win0_9.index t (1 : Fin 3) * 256 + 1 * p.val = win0_8.index t (1 : Fin 3) * 256 + p.val; omega
    | ⟨2, _⟩ => show win0_9.index t (2 : Fin 3) * 1024 + 1 * e.val = e.val; omega
  obtain ⟨hxe, hxo, hw, hb⟩ := blocks_real V c x Wq bq hxp hwq hbq t p e (⟨win0_8.index t (0 : Fin 3), l0⟩ : Fin 8) (⟨win0_8.index t (1 : Fin 3) * 256 + p.val, by omega⟩ : Fin 2048) e0.symm (by show win0_8.index t (1 : Fin 3) * 256 + p.val = _; rw [e1])
  show out0_9 (iblk0 V c 1 t) (iblk0 V c 2 t) (iblk0 V c 3 t) (ix3 u p e) = Gq x Wq bq (((cfg0.win 9).blk t).view.emb (ix3 u p e))
  rw [hE]
  exact out9_entry (iblk0 V c 1 t) (iblk0 V c 2 t) (iblk0 V c 3 t) _ _ _ _ u p e hxe hxo hw hb

/-- An entry of the query array lies in a point's block exactly when each coordinate lies in the block's range. -/
theorem mem_blk8 (t : Fin cfg0.N) (i : S8x2048x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v7_0).slice (win0_8.rect t)).set ↔ _
  rw [View.set_slice_whole, Rect.mem_set_unit]
  exact Iff.rfl
theorem mem_blk9 (t : Fin cfg0.N) (i : S8x2048x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v7_1).slice (win0_9.rect t)).set ↔ _
  rw [View.set_slice_whole, Rect.mem_set_unit]
  exact Iff.rfl

/-- Every entry of the query array is written back by the point of its batch and of its block of 256 rows. -/
theorem cover8 (i : S8x2048x1024.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 1024 := (i 2).isLt
  obtain ⟨t, q0, q1⟩ := onto_q ⟨(i 0).val, hi0⟩ ⟨(i 1).val / 256, by omega⟩
  obtain ⟨-, -, -, -, -, -, -, -, z8⟩ := idx_q t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; simp only at q0; omega
  | ⟨1, _⟩ => show win0_8.index t (1 : Fin 3) * 256 ≤ (i 1).val ∧ (i 1).val < win0_8.index t (1 : Fin 3) * 256 + 256; simp only at q1; omega
  | ⟨2, _⟩ => show win0_8.index t (2 : Fin 3) * 1024 ≤ (i 2).val ∧ (i 2).val < win0_8.index t (2 : Fin 3) * 1024 + 1024; omega
theorem cover9 (i : S8x2048x1024.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 1024 := (i 2).isLt
  obtain ⟨t, q0, q1⟩ := onto_q ⟨(i 0).val, hi0⟩ ⟨(i 1).val / 256, by omega⟩
  obtain ⟨-, -, -, f0, f1, z9, -, -, -⟩ := idx_q t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; simp only at q0; omega
  | ⟨1, _⟩ => show win0_9.index t (1 : Fin 3) * 256 ≤ (i 1).val ∧ (i 1).val < win0_9.index t (1 : Fin 3) * 256 + 256; simp only at q1; omega
  | ⟨2, _⟩ => show win0_9.index t (2 : Fin 3) * 1024 ≤ (i 2).val ∧ (i 2).val < win0_9.index t (2 : Fin 3) * 1024 + 1024; omega

end Final2

end ProjQ

/-- The first launch's four result arrays after its last write-back. -/
theorem proj_values (V : Entry Ideal) (c : Dev nD) (x : Fin 8 → Fin 4096 → Fin 1024 → ℝ) (Wq Wk Wv : Fin 1024 → Fin 1024 → ℝ) (bq bk bv : Fin 1024 → ℝ) (h : EntryIs V c x Wq Wk Wv bq bk bv) :
    ((dat0 V c).arrAt 8 cfg0.N : S8x2048x1024.Idx → EReal) = (fun i => ((Spec.qP x Wq bq (i 0) (i 1) (i 2) : ℝ) : EReal))
    ∧ ((dat0 V c).arrAt 9 cfg0.N : S8x2048x1024.Idx → EReal) = (fun i => ((Spec.qP x Wq bq (i 0) (i 1) (i 2) : ℝ) : EReal))
    ∧ ((dat0 V c).arrAt 10 cfg0.N : S8x4096x1024.Idx → EReal) = (fun i => ((Spec.kP x Wk bk (i 0) (i 1) (i 2) : ℝ) : EReal))
    ∧ ((dat0 V c).arrAt 11 cfg0.N : S8x4096x1024.Idx → EReal) = (fun i => ((Spec.vP x Wv bv (i 0) (i 1) (i 2) : ℝ) : EReal)) := by
  refine ⟨?_, ?_, proj_k V c x Wk bk h.hx h.hwk h.hbk, proj_v V c x Wv bv h.hx h.hwv h.hbv⟩
  · exact (dat0 V c).arrAt_eq_of_cover 8 (ProjQ.Gq x Wq bq) (fun t _ => ProjQ.flushed8_eq V c x Wq bq h.hxp h.hwq h.hbq t) ProjQ.cover8
  · exact (dat0 V c).arrAt_eq_of_cover 9 (ProjQ.Gq x Wq bq) (fun t _ => ProjQ.flushed9_eq V c x Wq bq h.hxp h.hwq h.hbq t) ProjQ.cover9

end Cert.KernelIdeal.Hand

end
-- ==== Proof.EntryReals.lean ====
/- After the host stretch the arrays the first launch reads hold the arguments' real numbers: a change of float
   format is the identity on the extended reals, and a reshape moves an element to the index with the same
   row-major position. -/
import proofs.«401980_j60120952209552_3_alg».proof.Proof.ProjValue
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

open Idealize.ShloMosaic.ValueIdx in
/-- A vector of 1024 numbers viewed as one row of 1024: entry (0, e) of the row is entry e of the vector,
    the two having the same row-major position. -/
private theorem row_of_vec (a : S1024.Idx → EReal) (b : Fin 1024 → ℝ)
    (h : a = fun i => ((b (i 0) : ℝ) : EReal)) :
    shapeCast S1x1024 a shapeCasts_S1024_S1x1024 = fun i : S1x1024.Idx => ((b (i 1) : ℝ) : EReal) := by
  funext i
  obtain ⟨p, q, rfl⟩ : ∃ (p : Fin 1) (q : Fin 1024), i = ix2 p q := ⟨_, _, eq_ix2 i⟩
  refine (shapeCast_apply a shapeCasts_S1024_S1x1024 (ix2 p q) (ix1 q) ?_).trans ?_
  · rw [Shape.rowMajor_val_one, Shape.rowMajor_val_two]
    show q.val = p.val * 1024 + q.val
    have hp := p.isLt
    omega
  · rw [h]

open Idealize.ShloMosaic.ValueIdx in
/-- The input viewed as row pairs: row r of the view is rows 2r and 2r + 1 of the input side by side, so its
    entry (b, r, cc) is the input's entry (b, 2r + cc / 1024, cc % 1024): both have row-major position
    (b * 4096 + 2r) * 1024 + cc. -/
private theorem pairs_of_rows (a : S8x4096x1024.Idx → EReal) (x : Fin 8 → Fin 4096 → Fin 1024 → ℝ)
    (h : a = fun i => ((x (i 0) (i 1) (i 2) : ℝ) : EReal)) :
    shapeCast S8x2048x2048 a shapeCasts_S8x4096x1024_S8x2048x2048 = fun i : S8x2048x2048.Idx =>
      ((x (i 0) ⟨2 * (i 1).val + (i 2).val / 1024, by have h1 : (i 1).val < 2048 := (i 1).isLt; have h2 : (i 2).val < 2048 := (i 2).isLt; omega⟩
        ⟨(i 2).val % 1024, Nat.mod_lt _ (by decide)⟩ : ℝ) : EReal) := by
  funext i
  obtain ⟨p, r, cc, rfl⟩ : ∃ (p : Fin 8) (r : Fin 2048) (cc : Fin 2048), i = ix3 p r cc := ⟨_, _, _, eq_ix3 i⟩
  have hr := r.isLt
  have hc := cc.isLt
  refine (shapeCast_apply a shapeCasts_S8x4096x1024_S8x2048x2048 (ix3 p r cc)
    (ix3 p (⟨2 * r.val + cc.val / 1024, by omega⟩ : Fin 4096) (⟨cc.val % 1024, Nat.mod_lt _ (by decide)⟩ : Fin 1024)) ?_).trans ?_
  · rw [Shape.rowMajor_val_three, Shape.rowMajor_val_three]
    show (p.val * 4096 + (2 * r.val + cc.val / 1024)) * 1024 + cc.val % 1024 = (p.val * 2048 + r.val) * 2048 + cc.val
    omega
  · rw [h]

theorem entry_of_reals' (m : (ℓ : Loc nD τ sig) → Buf (Elt Ideal) ℓ) (ρ : Dev nD → PrngReg) (c : Dev nD) (x : Fin 8 → Fin 4096 → Fin 1024 → ℝ) (Wq Wk Wv : Fin 1024 → Fin 1024 → ℝ) (bq bk bv : Fin 1024 → ℝ)
    (h0 : (m ((c.tc : Thread nD τ).loc main_arg0) : S8x4096x1024.Idx → EReal) = fun i => ((x (i 0) (i 1) (i 2) : ℝ) : EReal))
    (h1 : (m ((c.tc : Thread nD τ).loc main_arg1) : S1024x1024.Idx → EReal) = fun i => ((Wq (i 0) (i 1) : ℝ) : EReal))
    (h2 : (m ((c.tc : Thread nD τ).loc main_arg2) : S1024.Idx → EReal) = fun i => ((bq (i 0) : ℝ) : EReal))
    (h3 : (m ((c.tc : Thread nD τ).loc main_arg3) : S1024x1024.Idx → EReal) = fun i => ((Wk (i 0) (i 1) : ℝ) : EReal))
    (h4 : (m ((c.tc : Thread nD τ).loc main_arg4) : S1024.Idx → EReal) = fun i => ((bk (i 0) : ℝ) : EReal))
    (h5 : (m ((c.tc : Thread nD τ).loc main_arg5) : S1024x1024.Idx → EReal) = fun i => ((Wv (i 0) (i 1) : ℝ) : EReal))
    (h6 : (m ((c.tc : Thread nD τ).loc main_arg6) : S1024.Idx → EReal) = fun i => ((bv (i 0) : ℝ) : EReal)) :
    EntryIs (V1 m ρ) c x Wq Wk Wv bq bk bv := by
  refine ⟨?_, ?_, ?_, ?_, ?_, ?_, ?_, ?_⟩
  · -- the input array is not written by the host stretch
    have e : (V1 m ρ c main_arg0 : S8x4096x1024.Idx → EReal)
        = (m ((c.tc : Thread nD τ).loc main_arg0) : S8x4096x1024.Idx → EReal) := by
      dsimp only [V1, W1, hostOps0]; after_results
    exact e.trans h0
  · have e : (V1 m ρ c main_v6 : S8x2048x2048.Idx → EReal)
        = shapeCast S8x2048x2048 (m ((c.tc : Thread nD τ).loc main_arg0) : S8x4096x1024.Idx → EReal)
            shapeCasts_S8x4096x1024_S8x2048x2048 := by
      dsimp only [V1, W1, hostOps0]; after_results; rfl
    exact e.trans (pairs_of_rows _ x h0)
  · have e : (V1 m ρ c main_v0 : S1024x1024.Idx → EReal)
        = (m ((c.tc : Thread nD τ).loc main_arg1) : S1024x1024.Idx → EReal) := by
      dsimp only [V1, W1, hostOps0]; after_results; rfl
    exact e.trans h1
  · have e : (V1 m ρ c main_v3 : S1x1024.Idx → EReal)
        = shapeCast S1x1024 (m ((c.tc : Thread nD τ).loc main_arg2) : S1024.Idx → EReal) shapeCasts_S1024_S1x1024 := by
      dsimp only [V1, W1, hostOps0]; after_results; rfl
    exact e.trans (row_of_vec _ bq h2)
  · have e : (V1 m ρ c main_v1 : S1024x1024.Idx → EReal)
        = (m ((c.tc : Thread nD τ).loc main_arg3) : S1024x1024.Idx → EReal) := by
      dsimp only [V1, W1, hostOps0]; after_results; rfl
    exact e.trans h3
  · have e : (V1 m ρ c main_v4 : S1x1024.Idx → EReal)
        = shapeCast S1x1024 (m ((c.tc : Thread nD τ).loc main_arg4) : S1024.Idx → EReal) shapeCasts_S1024_S1x1024 := by
      dsimp only [V1, W1, hostOps0]; after_results; rfl
    exact e.trans (row_of_vec _ bk h4)
  · have e : (V1 m ρ c main_v2 : S1024x1024.Idx → EReal)
        = (m ((c.tc : Thread nD τ).loc main_arg5) : S1024x1024.Idx → EReal) := by
      dsimp only [V1, W1, hostOps0]; after_results; rfl
    exact e.trans h5
  · have e : (V1 m ρ c main_v5 : S1x1024.Idx → EReal)
        = shapeCast S1x1024 (m ((c.tc : Thread nD τ).loc main_arg6) : S1024.Idx → EReal) shapeCasts_S1024_S1x1024 := by
      dsimp only [V1, W1, hostOps0]; after_results; rfl
    exact e.trans (row_of_vec _ bv h6)

end Cert.KernelIdeal.Hand

end
-- ==== Proof.Online.lean ====
/- A softmax-weighted sum computed block by block with a running maximum: the running maximum, normaliser and
   weighted sum after the last block give the same quotient as the one-pass softmax. Over the reals. -/
import Mathlib.Analysis.SpecialFunctions.Exp
import Mathlib.Algebra.BigOperators.Fin
import Mathlib.Order.Fin.Basic

noncomputable section

namespace Cert.Online

open scoped BigOperators

variable {ι : Type} [Fintype ι] [Nonempty ι]

/-- The largest score of a block. -/
def blockMax (s : ι → ℝ) : ℝ := Finset.univ.sup' Finset.univ_nonempty s

/-- After the first block: (running maximum, running normaliser, running weighted sum). -/
def step0 (s v : ι → ℝ) : ℝ × ℝ × ℝ :=
  (blockMax s, ∑ k, Real.exp (s k - blockMax s), ∑ k, Real.exp (s k - blockMax s) * v k)

/-- After a further block, from the state `p` before it: the old normaliser and sum are rescaled by
    `exp (old maximum - new maximum)`. -/
def step (p : ℝ × ℝ × ℝ) (s v : ι → ℝ) : ℝ × ℝ × ℝ :=
  (max p.1 (blockMax s),
   Real.exp (p.1 - max p.1 (blockMax s)) * p.2.1 + ∑ k, Real.exp (s k - max p.1 (blockMax s)),
   Real.exp (p.1 - max p.1 (blockMax s)) * p.2.2 + ∑ k, Real.exp (s k - max p.1 (blockMax s)) * v k)

/-- The state after four blocks. -/
def run4 (s v : Fin 4 → ι → ℝ) : ℝ × ℝ × ℝ :=
  step (step (step (step0 (s 0) (v 0)) (s 1) (v 1)) (s 2) (v 2)) (s 3) (v 3)

/-- Moving the reference point of a block's exponentials from \`M\` to \`M'\` multiplies each of them by
    \`exp (M - M')\`, because \`exp (M - M') * exp (x - M) = exp (x - M')\`. -/
private theorem rescale_sum (M M' : ℝ) (s : ι → ℝ) :
    Real.exp (M - M') * ∑ k, Real.exp (s k - M) = ∑ k, Real.exp (s k - M') := by
  rw [Finset.mul_sum]
  refine Finset.sum_congr rfl (fun k _ => ?_)
  rw [← Real.exp_add]
  congr 1
  ring

/-- The same for the weighted sum: the weights \`v k\` ride along. -/
private theorem rescale_wsum (M M' : ℝ) (s v : ι → ℝ) :
    Real.exp (M - M') * ∑ k, Real.exp (s k - M) * v k = ∑ k, Real.exp (s k - M') * v k := by
  rw [Finset.mul_sum]
  refine Finset.sum_congr rfl (fun k _ => ?_)
  rw [← mul_assoc, ← Real.exp_add]
  congr 2
  ring

/-- The normaliser and the weighted sum after a step, written with the step's own new maximum. -/
private theorem step_norm (p : ℝ × ℝ × ℝ) (s v : ι → ℝ) :
    (step p s v).2.1 = Real.exp (p.1 - (step p s v).1) * p.2.1 + ∑ k, Real.exp (s k - (step p s v).1) := rfl
private theorem step_wsum (p : ℝ × ℝ × ℝ) (s v : ι → ℝ) :
    (step p s v).2.2
      = Real.exp (p.1 - (step p s v).1) * p.2.2 + ∑ k, Real.exp (s k - (step p s v).1) * v k := rfl

/-- The normaliser is positive after every step. -/
theorem step0_pos (s v : ι → ℝ) : 0 < (step0 s v).2.1 := by
  -- a sum of exponentials over a nonempty block
  show 0 < ∑ k, Real.exp (s k - blockMax s)
  exact Finset.sum_pos (fun k _ => Real.exp_pos _) Finset.univ_nonempty
theorem step_pos (p : ℝ × ℝ × ℝ) (hp : 0 < p.2.1) (s v : ι → ℝ) : 0 < (step p s v).2.1 := by
  -- a positive multiple of a positive number plus a sum of exponentials
  rw [step_norm]
  exact add_pos (mul_pos (Real.exp_pos _) hp)
    (Finset.sum_pos (fun k _ => Real.exp_pos _) Finset.univ_nonempty)
theorem run4_pos (s v : Fin 4 → ι → ℝ) : 0 < (run4 s v).2.1 := by
  unfold run4
  exact step_pos _ (step_pos _ (step_pos _ (step0_pos _ _) _ _) _ _) _ _

/-- The running maximum after four blocks is the largest of the four block maxima. -/
private theorem run4_fst (s v : Fin 4 → ι → ℝ) :
    (run4 s v).1 = Finset.univ.sup' Finset.univ_nonempty (fun j => blockMax (s j)) := by
  have h : (run4 s v).1
      = max (max (max (blockMax (s 0)) (blockMax (s 1))) (blockMax (s 2))) (blockMax (s 3)) := rfl
  rw [h]
  apply le_antisymm
  · -- each of the four maxima is below the supremum
    have hle : ∀ j : Fin 4, blockMax (s j)
        ≤ Finset.univ.sup' Finset.univ_nonempty (fun j => blockMax (s j)) :=
      fun j => Finset.le_sup' (fun j => blockMax (s j)) (Finset.mem_univ j)
    exact max_le (max_le (max_le (hle 0) (hle 1)) (hle 2)) (hle 3)
  · -- and each is below the nested maximum
    refine Finset.sup'_le _ _ (fun j _ => ?_)
    fin_cases j
    · exact le_max_of_le_left (le_max_of_le_left (le_max_left _ _))
    · exact le_max_of_le_left (le_max_of_le_left (le_max_right _ _))
    · exact le_max_of_le_left (le_max_right _ _)
    · exact le_max_right _ _

/-- The invariant at the end: the running normaliser is the sum, over all four blocks, of the exponentials
    taken relative to the final running maximum. Each step rescales what was accumulated to the new maximum
    and adds the new block at that maximum. -/
private theorem run4_norm (s v : Fin 4 → ι → ℝ) :
    (run4 s v).2.1 = ∑ j, ∑ k, Real.exp (s j k - (run4 s v).1) := by
  unfold run4
  have h0 : (step0 (s 0) (v 0)).2.1 = ∑ k, Real.exp (s 0 k - (step0 (s 0) (v 0)).1) := rfl
  generalize step0 (s 0) (v 0) = p0 at h0 ⊢
  have h1 : (step p0 (s 1) (v 1)).2.1
      = ∑ k, Real.exp (s 0 k - (step p0 (s 1) (v 1)).1)
        + ∑ k, Real.exp (s 1 k - (step p0 (s 1) (v 1)).1) := by
    rw [step_norm, h0, rescale_sum]
  generalize step p0 (s 1) (v 1) = p1 at h1 ⊢
  have h2 : (step p1 (s 2) (v 2)).2.1
      = ∑ k, Real.exp (s 0 k - (step p1 (s 2) (v 2)).1)
        + ∑ k, Real.exp (s 1 k - (step p1 (s 2) (v 2)).1)
        + ∑ k, Real.exp (s 2 k - (step p1 (s 2) (v 2)).1) := by
    rw [step_norm, h1, mul_add, rescale_sum, rescale_sum]
  generalize step p1 (s 2) (v 2) = p2 at h2 ⊢
  rw [step_norm, h2, mul_add, mul_add, rescale_sum, rescale_sum, rescale_sum, Fin.sum_univ_four]

/-- The same invariant for the running weighted sum. -/
private theorem run4_wsum (s v : Fin 4 → ι → ℝ) :
    (run4 s v).2.2 = ∑ j, ∑ k, Real.exp (s j k - (run4 s v).1) * v j k := by
  unfold run4
  have h0 : (step0 (s 0) (v 0)).2.2
      = ∑ k, Real.exp (s 0 k - (step0 (s 0) (v 0)).1) * v 0 k := rfl
  generalize step0 (s 0) (v 0) = p0 at h0 ⊢
  have h1 : (step p0 (s 1) (v 1)).2.2
      = ∑ k, Real.exp (s 0 k - (step p0 (s 1) (v 1)).1) * v 0 k
        + ∑ k, Real.exp (s 1 k - (step p0 (s 1) (v 1)).1) * v 1 k := by
    rw [step_wsum, h0, rescale_wsum]
  generalize step p0 (s 1) (v 1) = p1 at h1 ⊢
  have h2 : (step p1 (s 2) (v 2)).2.2
      = ∑ k, Real.exp (s 0 k - (step p1 (s 2) (v 2)).1) * v 0 k
        + ∑ k, Real.exp (s 1 k - (step p1 (s 2) (v 2)).1) * v 1 k
        + ∑ k, Real.exp (s 2 k - (step p1 (s 2) (v 2)).1) * v 2 k := by
    rw [step_wsum, h1, mul_add, rescale_wsum, rescale_wsum]
  generalize step p1 (s 2) (v 2) = p2 at h2 ⊢
  rw [step_wsum, h2, mul_add, mul_add, rescale_wsum, rescale_wsum, rescale_wsum, Fin.sum_univ_four]

/-- THE LAW: four blocks processed with a running maximum give the one-pass softmax-weighted sum over all four blocks. -/
theorem run4_quot (s v : Fin 4 → ι → ℝ) :
    (run4 s v).2.2 / (run4 s v).2.1
      = ∑ j, ∑ k, Real.exp (s j k - Finset.univ.sup' Finset.univ_nonempty (fun j => blockMax (s j)))
          / (∑ j, ∑ k, Real.exp (s j k - Finset.univ.sup' Finset.univ_nonempty (fun j => blockMax (s j)))) * v j k := by
  -- the final maximum is the supremum; numerator and denominator are the two invariants; then the
  -- quotient of a sum is the sum of the quotients
  rw [← run4_fst s v, run4_wsum, run4_norm, div_eq_mul_inv, Finset.sum_mul]
  refine Finset.sum_congr rfl (fun j _ => ?_)
  rw [Finset.sum_mul]
  refine Finset.sum_congr rfl (fun k _ => ?_)
  rw [div_eq_mul_inv]
  ring

/-- Four blocks of 1024 make the 4096 keys: a sum over all keys is the double sum over blocks and places. -/
theorem sum_blocks (f : Fin 4096 → ℝ) :
    ∑ n, f n = ∑ j : Fin 4, ∑ k : Fin 1024, f ⟨1024 * j.val + k.val, by have := j.isLt; have := k.isLt; omega⟩ := by
  -- the pairs (block, place) are in bijection with the keys by (j, k) ↦ 1024 * j + k
  rw [← Fintype.sum_prod_type']
  symm
  refine Fintype.sum_equiv (finProdFinEquiv (m := 4) (n := 1024)) _ _ (fun x => ?_)
  congr 1
  apply Fin.ext
  show 1024 * x.1.val + x.2.val = x.2.val + 1024 * x.1.val
  omega

/-- And the largest of all keys' scores is the largest of the four block maxima. -/
theorem sup_blocks (f : Fin 4096 → ℝ) :
    Finset.univ.sup' Finset.univ_nonempty f
      = Finset.univ.sup' Finset.univ_nonempty (fun j : Fin 4 => blockMax (fun k : Fin 1024 => f ⟨1024 * j.val + k.val, by have := j.isLt; have := k.isLt; omega⟩)) := by
  apply le_antisymm
  · -- key n sits at place n % 1024 of block n / 1024
    refine Finset.sup'_le _ _ (fun n _ => ?_)
    have hn := n.isLt
    let j : Fin 4 := ⟨n.val / 1024, by omega⟩
    let k : Fin 1024 := ⟨n.val % 1024, by omega⟩
    have hnk : n = ⟨1024 * j.val + k.val, by have := j.isLt; have := k.isLt; omega⟩ := by
      apply Fin.ext
      show n.val = 1024 * (n.val / 1024) + n.val % 1024
      omega
    calc f n = (fun k : Fin 1024 => f ⟨1024 * j.val + k.val, by have := j.isLt; have := k.isLt; omega⟩) k :=
            congrArg f hnk
      _ ≤ blockMax (fun k : Fin 1024 => f ⟨1024 * j.val + k.val, by have := j.isLt; have := k.isLt; omega⟩) :=
            Finset.le_sup' (fun k : Fin 1024 => f ⟨1024 * j.val + k.val, by have := j.isLt; have := k.isLt; omega⟩)
              (Finset.mem_univ k)
      _ ≤ _ := Finset.le_sup' (fun j : Fin 4 => blockMax (fun k : Fin 1024 =>
            f ⟨1024 * j.val + k.val, by have := j.isLt; have := k.isLt; omega⟩)) (Finset.mem_univ j)
  · -- every score of every block is the score of a key
    refine Finset.sup'_le _ _ (fun j _ => ?_)
    unfold blockMax
    refine Finset.sup'_le _ _ (fun k _ => ?_)
    exact Finset.le_sup' f (Finset.mem_univ _)

end Cert.Online

end
-- ==== Proof.AttnPay.lean ====
/- The attention body's arithmetic at the real numbers: with a query block, a key block and a value block holding
   real numbers, and the scratch either freshly reset or holding real numbers, each value the body stores is the
   corresponding component of the block-by-block softmax recurrence (Online). -/
import proofs.«401980_j60120952209552_3_alg».proof.Proof.Gen.KernelIdeal.Skeleton
import proofs.«401980_j60120952209552_3_alg».proof.Proof.Online
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen Cert.Online
open Idealize.ShloMosaic.ValueIdx

variable (qr : Fin 512 → Fin 1024 → ℝ) (kr vr : Fin 1024 → Fin 1024 → ℝ)

/-- A query block, a key block and a value block holding real numbers. -/
def qB : Vec Ideal S1x512x1024 .bf16 := fun i => ((qr (i 1) (i 2) : ℝ) : EReal)
def kB : Vec Ideal S1x1024x1024 .bf16 := fun i => ((kr (i 1) (i 2) : ℝ) : EReal)
def vB : Vec Ideal S1x1024x1024 .bf16 := fun i => ((vr (i 1) (i 2) : ℝ) : EReal)

/-- The block's scaled scores: query row `r` against key row `k` of the block. -/
def sB (r : Fin 512) (k : Fin 1024) : ℝ := (∑ d, qr r d * kr k d) * (1 / 32)

/-! ## Constants and coercions -/

/-- The word `0x3D000000` is the real number one thirty-second (exponent field 122, no fraction: `2 ^ (-5)`). -/
private theorem c_scale : Ideal.ofBits .f32 0x3D000000#32 = ((1 / 32 : ℝ) : EReal) := by
  simp [Ideal.ofBits, Ideal.ieee, -EReal.coe_mul]; norm_num

/-- The word `0xFF800000` is minus infinity. -/
private theorem c_ninf : Ideal.ofBits .f32 0xFF800000#32 = (⊥ : EReal) := by
  simp [Ideal.ofBits, Ideal.ieee]

/-- A finite sum of real numbers, each read as an extended real, is the real sum read as an extended real. -/
private theorem coe_sum {n : ℕ} (f : Fin n → ℝ) : (∑ k, ((f k : ℝ) : EReal)) = ((∑ k, f k : ℝ) : EReal) := by
  refine Finset.induction_on (Finset.univ : Finset (Fin n)) ?_ ?_
  · simp
  · intro a s ha ih
    rw [Finset.sum_insert ha, Finset.sum_insert ha, ih, EReal.coe_add]

/-- The larger of two real numbers, read as an extended real, is the larger of the two extended reals. -/
private theorem coe_max (a b : ℝ) : ((max a b : ℝ) : EReal) = max (a : EReal) (b : EReal) :=
  (EReal.coe_strictMono.monotone).map_max

/-! ## The two products' operand indices

In `q · kᵀ` both operands are contracted on their second axis: the left operand is read at (row, k) and the right
operand at (column, k). In `p · v` the left operand is contracted on its second axis and the right one on its first:
they are read at (row, k) and (k, column). -/

private theorem lhs1_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
private theorem lhs1_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
private theorem rhs1_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
private theorem rhs1_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

private theorem lhs2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product `a · bᵀ` into a zero accumulator, at (r, c): the sum over `k` of `a (r, k) * b (c, k)`. -/
private theorem matmul_nt_apply (a : FVec Ideal S512x1024 .bf16) (b : FVec Ideal S1024x1024 .bf16) (r : Fin 512) (c : Fin 1024) :
    matmul dot_S512x1024_S1024x1024_S512x1024_1_1_0_0_n_n none a b (constant (F := Ideal) S512x1024 .f32 0x00000000#32) (ix2 r c)
      = ∑ k : Fin 1024, a (ix2 r k) * b (ix2 c k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r c) ((contrEquiv1 dot_S512x1024_S1024x1024_S512x1024_1_1_0_0_n_n 1024 rfl rfl).symm k) = ix2 r k := funext fun x => Fin.ext (by
    match x with
    | ⟨0, _⟩ => exact lhs1_0 _ _
    | ⟨1, _⟩ => exact (lhs1_1 _ _).trans hk)
  have er : dot_S512x1024_S1024x1024_S512x1024_1_1_0_0_n_n.rhsIdx (ix2 r c) ((contrEquiv1 dot_S512x1024_S1024x1024_S512x1024_1_1_0_0_n_n 1024 rfl rfl).symm k) = ix2 c k := funext fun x => Fin.ext (by
    match x with
    | ⟨0, _⟩ => exact rhs1_0 _ _
    | ⟨1, _⟩ => exact (rhs1_1 _ _).trans hk)
  rw [el, er]

/-- The product `a · b` into a zero accumulator, at (r, c): the sum over `k` of `a (r, k) * b (k, c)`. -/
private theorem matmul_nn_apply (a : FVec Ideal S512x1024 .bf16) (b : FVec Ideal S1024x1024 .bf16) (r : Fin 512) (c : Fin 1024) :
    matmul dot_S512x1024_S1024x1024_S512x1024_1_0_0_1_n_n none a b (constant (F := Ideal) S512x1024 .f32 0x00000000#32) (ix2 r c)
      = ∑ k : Fin 1024, a (ix2 r k) * b (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun x => Fin.ext (by
    match x with
    | ⟨0, _⟩ => exact lhs2_0 _ _
    | ⟨1, _⟩ => exact (lhs2_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun x => Fin.ext (by
    match x with
    | ⟨0, _⟩ => exact (rhs2_0 _ _).trans hk
    | ⟨1, _⟩ => exact rhs2_1 _ _)
  rw [el, er]

/-! ## The scores -/

/-- The scores' payload at (r, k) is the scaled inner product of query row `r` and key row `k`. -/
private theorem pay8_apply (r : Fin 512) (k : Fin 1024) :
    k1_pay8 (F := Ideal) (qB qr) (kB kr) (ix2 r k) = ((sB qr kr r k : ℝ) : EReal) := by
  unfold k1_pay8
  rw [mulf_apply, broadcast_apply, matmul_nt_apply]
  show (∑ d : Fin 1024, _) * Ideal.ofBits .f32 0x3D000000#32 = _
  rw [c_scale]
  unfold sB
  rw [EReal.coe_mul, ← coe_sum]
  congr 1
  refine Finset.sum_congr rfl fun d _ => ?_
  rw [shapeCast_1ab_ab_apply, shapeCast_1ab_ab_apply, EReal.coe_mul]
  rfl

/-! ## Layout operations of the body read at an index -/

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row maximum -/

/-- The fold of `max` from minus infinity over finitely many real numbers is the largest of them. -/
private theorem fold_max_coe (g : Fin 1024 → ℝ) :
    (Finset.univ : Finset (Fin 1024)).fold max (⊥ : EReal) (fun k => ((g k : ℝ) : EReal))
      = ((blockMax g : ℝ) : EReal) := by
  unfold blockMax
  apply le_antisymm
  · rw [Finset.fold_max_le]
    exact ⟨bot_le, fun k _ => EReal.coe_le_coe_iff.2 (Finset.le_sup' g (Finset.mem_univ k))⟩
  · obtain ⟨k, _, hk⟩ := Finset.exists_mem_eq_sup' Finset.univ_nonempty g
    rw [hk]
    exact (Finset.le_fold_max _).2 (Or.inr ⟨k, Finset.mem_univ k, le_rfl⟩)

/-- The scores' maximum over the lanes, at row `r`: the block maximum of that row's scores. -/
private theorem rowmax_apply (hφ : FKind.Formats .f32) (hacc : (0xFF800000#32 : BitVec 32) = FKind.maximumf.neutral .f32 hφ) (r : Fin 512) :
    multiReduction (F := Ideal) .maximumf [1] S512 (k1_pay8 (qB qr) (kB kr)) 0xFF800000#32 reduces_S512x1024_S512 hφ hacc (ix1 r)
      = ((blockMax (sB qr kr r) : ℝ) : EReal) := by
  refine (Ideal.multiReduction_maximumf_single _ _ reduces_S512x1024_S512 hφ hacc (ix1 r)).trans ?_
  have hsrc : (fun k : Fin 1024 => k1_pay8 (F := Ideal) (qB qr) (kB kr) (reduces_S512x1024_S512.lift (ix1 r) k))
      = fun k : Fin 1024 => ((sB qr kr r k : ℝ) : EReal) := by
    funext k
    have hl : reduces_S512x1024_S512.lift (ix1 r) k = ix2 r k :=
      funext fun a => Fin.ext (by match a with | ⟨0, _⟩ => rfl | ⟨1, _⟩ => rfl)
    exact (congrArg (k1_pay8 (F := Ideal) (qB qr) (kB kr)) hl).trans (pay8_apply qr kr r k)
  exact (congrArg (fun f : Fin 1024 → EReal => (Finset.univ : Finset (Fin 1024)).fold max (Ideal.ofBits .f32 0xFF800000#32) f) hsrc).trans
    ((congrArg (fun b : EReal => (Finset.univ : Finset (Fin 1024)).fold max b (fun k => ((sB qr kr r k : ℝ) : EReal))) c_ninf).trans
      (fold_max_coe _))

/-- The new running maximum at row `r`: the larger of the old one and the block maximum of the row's scores. -/
private theorem pay9_apply (m : Vec Ideal S512x1 .f32) (r : Fin 512) (u : Fin 1) :
    k1_pay9 (F := Ideal) (qB qr) (kB kr) m (ix2 r u) = max (m (ix2 r u)) ((blockMax (sB qr kr r) : ℝ) : EReal) := by
  unfold k1_pay9
  rw [maximumf_apply, shapeCast_a_a1_apply]
  exact congrArg (max (m (ix2 r u))) (rowmax_apply qr kr _ _ r)

/-! ## The reset values and the identities -/

/-- The reset running maximum is minus infinity everywhere. -/
private theorem pay4_apply (i : S512x1.Idx) : k1_pay4 (F := Ideal) i = (⊥ : EReal) := by
  unfold k1_pay4
  rw [shapeCast_self, broadcast_apply]
  exact c_ninf

/-- The reset normaliser is zero everywhere. -/
private theorem pay5_apply (i : S512x1.Idx) : k1_pay5 (F := Ideal) i = (0 : EReal) := by
  unfold k1_pay5
  rw [shapeCast_self, broadcast_apply]
  exact Ideal.ofBits_zero_f32

/-- The reset weighted sum is zero everywhere. -/
private theorem pay6_apply (i : S512x1024.Idx) : k1_pay6 (F := Ideal) i = (0 : EReal) := by
  unfold k1_pay6
  rw [shapeCast_self, broadcast_apply]
  exact Ideal.ofBits_zero_f32

/-- Storing the running maximum casts it to its own shape: nothing changes. -/
private theorem pay2_eq (v : FVec Ideal S512x1 .f32) : k1_pay2 (F := Ideal) v = v := by
  unfold k1_pay2
  exact shapeCast_self _ _

/-- The value block with its leading unit axis dropped, at (k, d). -/
private theorem pay7_apply (v : Vec Ideal S1x1024x1024 .bf16) (k d : Fin 1024) :
    k1_pay7 (F := Ideal) v (ix2 k d) = v (ix3 (0 : Fin 1) k d) := by
  unfold k1_pay7
  exact shapeCast_1ab_ab_apply _ _ _ _

/-- An exponential of a vector at an index is the exponential of the element. -/
private theorem exp_apply {s : Shape} {φ : FTy} (a : FVec Ideal s φ) (i : s.Idx) : exp a i = Ideal.exp (a i) := rfl

/-! ## The rescaling factor, the weights, the normaliser, the weighted sum and the quotient -/

/-- The rescaling factor at row `r`: the exponential of (a running maximum minus the new one). -/
private theorem pay10_apply (m m' : Vec Ideal S512x1 .f32) (r : Fin 512) (u : Fin 1) :
    k1_pay10 (F := Ideal) (qB qr) (kB kr) m m' (ix2 r u)
      = Ideal.exp (m' (ix2 r u) - k1_pay9 (F := Ideal) (qB qr) (kB kr) m (ix2 r u)) := by
  unfold k1_pay10
  rw [exp_apply, subf_apply]

/-- The weight at (r, c): the exponential of (the score minus the new running maximum of row `r`). -/
private theorem pay11_apply (m : Vec Ideal S512x1 .f32) (r : Fin 512) (c : Fin 1024) :
    k1_pay11 (F := Ideal) (qB qr) (kB kr) m (ix2 r c)
      = Ideal.exp (k1_pay8 (F := Ideal) (qB qr) (kB kr) (ix2 r c) - k1_pay9 (F := Ideal) (qB qr) (kB kr) m (ix2 r (0 : Fin 1))) := by
  unfold k1_pay11
  rw [exp_apply, subf_apply, broadcastTo_a1_ab_apply]

/-- The lane sum of a [512, 1024] vector at row `r` is the sum over the row. -/
private theorem rowsum_apply (x : FVec Ideal S512x1024 .f32) (hφ : FKind.Formats .f32)
    (hacc : (0x00000000#32 : BitVec 32) = FKind.add.neutral .f32 hφ) (r : Fin 512) :
    multiReduction (F := Ideal) .add [1] S512 x 0x00000000#32 reduces_S512x1024_S512 hφ hacc (ix1 r)
      = ∑ c : Fin 1024, x (ix2 r c) := by
  refine (Ideal.multiReduction_add_single x _ reduces_S512x1024_S512 hφ hacc (ix1 r)).trans ?_
  refine Finset.sum_congr rfl fun c _ => ?_
  exact congrArg x (funext fun a => Fin.ext (by match a with | ⟨0, _⟩ => rfl | ⟨1, _⟩ => rfl))

/-- The new normaliser at row `r`: the rescaled old one plus the sum of the row's weights. -/
private theorem pay12_apply (m m' l : Vec Ideal S512x1 .f32) (r : Fin 512) (u : Fin 1) :
    k1_pay12 (F := Ideal) (qB qr) (kB kr) m m' l (ix2 r u)
      = k1_pay10 (F := Ideal) (qB qr) (kB kr) m m' (ix2 r u) * l (ix2 r u)
        + ∑ c : Fin 1024, k1_pay11 (F := Ideal) (qB qr) (kB kr) m (ix2 r c) := by
  unfold k1_pay12
  rw [shapeCast_self, addf_apply, mulf_apply, shapeCast_a_a1_apply]
  exact congrArg (_ + ·) (rowsum_apply _ _ _ r)

/-- The new weighted sum at (r, d): the rescaled old one plus the row of weights against column `d` of the values. -/
private theorem pay1_apply (v8 : FVec Ideal S1024x1024 .bf16) (v18 : FVec Ideal S512x1 .f32) (v21 : FVec Ideal S512x1024 .f32)
    (v30 : Vec Ideal S512x1024 .f32) (r : Fin 512) (d : Fin 1024) :
    k1_pay1 (F := Ideal) v8 v18 v21 v30 (ix2 r d)
      = v18 (ix2 r (0 : Fin 1)) * v30 (ix2 r d) + ∑ k : Fin 1024, v21 (ix2 r k) * v8 (ix2 k d) := by
  unfold k1_pay1
  rw [shapeCast_self, addf_apply, mulf_apply, broadcastTo_a1_ab_apply, matmul_nn_apply]
  rfl

/-- The output block at (u, r, d): the weighted sum over the normaliser of row `r`. -/
private theorem pay3_apply (a : Vec Ideal S512x1024 .f32) (l : Vec Ideal S512x1 .f32) (u : Fin 1) (r : Fin 512) (d : Fin 1024) :
    k1_pay3 (F := Ideal) a l (ix3 u r d) = Ideal.div (a (ix2 r d)) (l (ix2 r (0 : Fin 1))) := by
  unfold k1_pay3
  rw [shapeCast_ab_1ab_apply, divf_apply, broadcastTo_a1_ab_apply]

/-! ## The first block: the scratch has just been reset (maximum `-∞`, normaliser and sum `0`) -/

/-- With the old maximum minus infinity, the new one is the block maximum. -/
private theorem pay9_first (r : Fin 512) (u : Fin 1) :
    k1_pay9 (F := Ideal) (qB qr) (kB kr) (k1_pay4 (F := Ideal)) (ix2 r u) = ((blockMax (sB qr kr r) : ℝ) : EReal) := by
  rw [pay9_apply, pay4_apply]
  exact max_bot_left _

/-- With the old maximum minus infinity, the rescaling factor is `exp (-∞) = 0`. -/
private theorem pay10_first (r : Fin 512) (u : Fin 1) :
    k1_pay10 (F := Ideal) (qB qr) (kB kr) (k1_pay4 (F := Ideal)) (k1_pay4 (F := Ideal)) (ix2 r u) = (0 : EReal) := by
  rw [pay10_apply, pay4_apply, pay9_first, EReal.bot_sub]
  rfl

/-- Once the new running maximum of row `r` is a real number `M`, the weight at (r, c) is the real `exp (score - M)`. -/
private theorem pay11_coe (m : Vec Ideal S512x1 .f32) (r : Fin 512) (c : Fin 1024) (M : ℝ)
    (hM : k1_pay9 (F := Ideal) (qB qr) (kB kr) m (ix2 r (0 : Fin 1)) = (M : EReal)) :
    k1_pay11 (F := Ideal) (qB qr) (kB kr) m (ix2 r c) = ((Real.exp (sB qr kr r c - M) : ℝ) : EReal) := by
  rw [pay11_apply, pay8_apply, hM, ← EReal.coe_sub]
  rfl

theorem first_m :
    (k1_pay2 (F := Ideal) (k1_pay9 (qB qr) (kB kr) (k1_pay4 (F := Ideal))) : S512x1.Idx → EReal)
      = fun i => (((step0 (sB qr kr (i 0)) (fun _ => (0 : ℝ))).1 : ℝ) : EReal) := by
  rw [pay2_eq]
  funext i
  obtain ⟨r, u, rfl⟩ : ∃ (r : Fin 512) (u : Fin 1), i = ix2 r u := ⟨i 0, i 1, eq_ix2 i⟩
  exact pay9_first qr kr r u

theorem first_l :
    (k1_pay12 (F := Ideal) (qB qr) (kB kr) (k1_pay4 (F := Ideal)) (k1_pay4 (F := Ideal)) (k1_pay5 (F := Ideal)) : S512x1.Idx → EReal)
      = fun i => (((step0 (sB qr kr (i 0)) (fun _ => (0 : ℝ))).2.1 : ℝ) : EReal) := by
  funext i
  obtain ⟨r, u, rfl⟩ : ∃ (r : Fin 512) (u : Fin 1), i = ix2 r u := ⟨i 0, i 1, eq_ix2 i⟩
  -- zero times zero, plus the sum of the weights
  rw [pay12_apply, pay10_first, pay5_apply, mul_zero, zero_add]
  show _ = ((∑ k, Real.exp (sB qr kr r k - blockMax (sB qr kr r)) : ℝ) : EReal)
  rw [← coe_sum]
  exact Finset.sum_congr rfl fun c _ => pay11_coe qr kr _ r c _ (pay9_first qr kr r 0)

theorem first_a :
    (k1_pay1 (F := Ideal) (k1_pay7 (vB vr)) (k1_pay10 (qB qr) (kB kr) (k1_pay4 (F := Ideal)) (k1_pay4 (F := Ideal))) (k1_pay11 (qB qr) (kB kr) (k1_pay4 (F := Ideal))) (k1_pay6 (F := Ideal)) : S512x1024.Idx → EReal)
      = fun i => (((step0 (sB qr kr (i 0)) (fun k => vr k (i 1))).2.2 : ℝ) : EReal) := by
  funext i
  obtain ⟨r, d, rfl⟩ : ∃ (r : Fin 512) (d : Fin 1024), i = ix2 r d := ⟨i 0, i 1, eq_ix2 i⟩
  -- zero times zero, plus the weights against column d of the values
  rw [pay1_apply, pay10_first, pay6_apply, mul_zero, zero_add]
  show _ = ((∑ k, Real.exp (sB qr kr r k - blockMax (sB qr kr r)) * vr k d : ℝ) : EReal)
  rw [← coe_sum]
  refine Finset.sum_congr rfl fun k _ => ?_
  rw [pay11_coe qr kr _ r k _ (pay9_first qr kr r 0), pay7_apply, EReal.coe_mul]
  rfl

/-! ## A later block: the scratch holds real numbers -/

variable (mr lr : Fin 512 → ℝ) (ar : Fin 512 → Fin 1024 → ℝ)

def mS : Vec Ideal S512x1 .f32 := fun i => ((mr (i 0) : ℝ) : EReal)
def lS : Vec Ideal S512x1 .f32 := fun i => ((lr (i 0) : ℝ) : EReal)
def aS : Vec Ideal S512x1024 .f32 := fun i => ((ar (i 0) (i 1) : ℝ) : EReal)

/-- With a real old maximum, the new one is the larger of it and the block maximum. -/
private theorem pay9_next (r : Fin 512) (u : Fin 1) :
    k1_pay9 (F := Ideal) (qB qr) (kB kr) (mS mr) (ix2 r u) = ((max (mr r) (blockMax (sB qr kr r)) : ℝ) : EReal) := by
  rw [pay9_apply, coe_max]
  rfl

/-- With a real old maximum, the rescaling factor is the real `exp (old - new)`. -/
private theorem pay10_next (r : Fin 512) (u : Fin 1) :
    k1_pay10 (F := Ideal) (qB qr) (kB kr) (mS mr) (mS mr) (ix2 r u)
      = ((Real.exp (mr r - max (mr r) (blockMax (sB qr kr r))) : ℝ) : EReal) := by
  rw [pay10_apply, pay9_next]
  show Ideal.exp (((mr r : ℝ) : EReal) - _) = _
  rw [← EReal.coe_sub]
  rfl

theorem next_m :
    (k1_pay2 (F := Ideal) (k1_pay9 (qB qr) (kB kr) (mS mr)) : S512x1.Idx → EReal)
      = fun i => (((step (mr (i 0), lr (i 0), (0 : ℝ)) (sB qr kr (i 0)) (fun _ => (0 : ℝ))).1 : ℝ) : EReal) := by
  rw [pay2_eq]
  funext i
  obtain ⟨r, u, rfl⟩ : ∃ (r : Fin 512) (u : Fin 1), i = ix2 r u := ⟨i 0, i 1, eq_ix2 i⟩
  exact pay9_next qr kr mr r u

theorem next_l :
    (k1_pay12 (F := Ideal) (qB qr) (kB kr) (mS mr) (mS mr) (lS lr) : S512x1.Idx → EReal)
      = fun i => (((step (mr (i 0), lr (i 0), (0 : ℝ)) (sB qr kr (i 0)) (fun _ => (0 : ℝ))).2.1 : ℝ) : EReal) := by
  funext i
  obtain ⟨r, u, rfl⟩ : ∃ (r : Fin 512) (u : Fin 1), i = ix2 r u := ⟨i 0, i 1, eq_ix2 i⟩
  rw [pay12_apply, pay10_next]
  show _ * ((lr r : ℝ) : EReal) + _
    = ((Real.exp (mr r - max (mr r) (blockMax (sB qr kr r))) * lr r
        + ∑ k, Real.exp (sB qr kr r k - max (mr r) (blockMax (sB qr kr r))) : ℝ) : EReal)
  have hs : ∑ c : Fin 1024, k1_pay11 (F := Ideal) (qB qr) (kB kr) (mS mr) (ix2 r c)
      = ∑ c : Fin 1024, ((Real.exp (sB qr kr r c - max (mr r) (blockMax (sB qr kr r))) : ℝ) : EReal) :=
    Finset.sum_congr rfl fun c _ =>
      pay11_coe qr kr (mS mr) r c (max (mr r) (blockMax (sB qr kr r))) (pay9_next qr kr mr r 0)
  rw [hs, EReal.coe_add, EReal.coe_mul, ← coe_sum]

theorem next_a :
    (k1_pay1 (F := Ideal) (k1_pay7 (vB vr)) (k1_pay10 (qB qr) (kB kr) (mS mr) (mS mr)) (k1_pay11 (qB qr) (kB kr) (mS mr)) (aS ar) : S512x1024.Idx → EReal)
      = fun i => (((step (mr (i 0), lr (i 0), ar (i 0) (i 1)) (sB qr kr (i 0)) (fun k => vr k (i 1))).2.2 : ℝ) : EReal) := by
  funext i
  obtain ⟨r, d, rfl⟩ : ∃ (r : Fin 512) (d : Fin 1024), i = ix2 r d := ⟨i 0, i 1, eq_ix2 i⟩
  rw [pay1_apply, pay10_next]
  show _ * ((ar r d : ℝ) : EReal) + _
    = ((Real.exp (mr r - max (mr r) (blockMax (sB qr kr r))) * ar r d
        + ∑ k, Real.exp (sB qr kr r k - max (mr r) (blockMax (sB qr kr r))) * vr k d : ℝ) : EReal)
  have hs : ∑ k : Fin 1024, k1_pay11 (F := Ideal) (qB qr) (kB kr) (mS mr) (ix2 r k) * k1_pay7 (F := Ideal) (vB vr) (ix2 k d)
      = ∑ k : Fin 1024, ((Real.exp (sB qr kr r k - max (mr r) (blockMax (sB qr kr r))) * vr k d : ℝ) : EReal) := by
    refine Finset.sum_congr rfl fun k _ => ?_
    rw [pay11_coe qr kr (mS mr) r k (max (mr r) (blockMax (sB qr kr r))) (pay9_next qr kr mr r 0), pay7_apply, EReal.coe_mul]
    rfl
  rw [hs, EReal.coe_add, EReal.coe_mul, ← coe_sum]

/-- The last block's quotient: the running sum over the (positive) running normaliser. -/
theorem out_div (hl : ∀ r, 0 < lr r) :
    (k1_pay3 (F := Ideal) (aS ar) (lS lr) : S1x512x1024.Idx → EReal)
      = fun i => ((ar (i 1) (i 2) / lr (i 1) : ℝ) : EReal) := by
  funext i
  obtain ⟨u, r, d, rfl⟩ : ∃ (u : Fin 1) (r : Fin 512) (d : Fin 1024), i = ix3 u r d := ⟨i 0, i 1, i 2, eq_ix3 i⟩
  rw [pay3_apply]
  -- division by a nonzero real is multiplication by its reciprocal
  show Ideal.div ((ar r d : ℝ) : EReal) ((lr r : ℝ) : EReal) = ((ar r d / lr r : ℝ) : EReal)
  rw [Ideal.div_coe (ne_of_gt (hl r)), ← EReal.coe_mul, mul_one_div]

end Cert.KernelIdeal.Hand

end
-- ==== Proof.AttnPieces.lean ====
/- The second launch's recurrence at the real numbers: when the three input blocks of a grid point hold real numbers
   (and, after the first key/value block, the scratch holds real numbers), what the point leaves in the scratch is
   the next step of the block-by-block softmax recurrence, and what a last block leaves in the output block is the
   running sum divided by the running normaliser. -/
import proofs.«401980_j60120952209552_3_alg».proof.Proof.AttnData
import proofs.«401980_j60120952209552_3_alg».proof.Proof.AttnPay

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.Online

/-! ## What each found piece is

Every buffer of the body is loaded and stored through the rectangle that covers it whole, at offset zero. So a load
reads the buffer's contents, a store leaves its payload whatever was there before, and a load that follows a store
in the same run reads that store's payload. Reading the pieces back therefore gives one payload term per buffer,
over the three input blocks and (after a first block) the scratch the point started from. -/

section Pieces

variable {F : FTy → Type} [FloatOps F]

/-- The zero offset of a rank-two (rank-three) rectangle, spelt as a constant function. -/
private theorem hz2 : (![0,0] : Fin 2 → Nat) = fun _ => 0 := by funext a; fin_cases a <;> rfl
private theorem hz3 : (![0,0,0] : Fin 3 → Nat) = fun _ => 0 := by funext a; fin_cases a <;> rfl

/-- First block, running maximum: stored twice (the reset to `-∞`, then the update); the update wins, and the
    maximum it read back is the reset value. -/
private theorem pieceA0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_0 c i arg3 harg3 arg4 harg4 arg5 harg5 arg6 harg6 arg7 harg7 arg8 harg8 arg9 harg9 hc0 hc1 x0 x1 x2 = k1_pay2 (k1_pay9 x0 x1 k1_pay4) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1) hz2, View.readCov_unit_zero (S := S512x1) _ hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- First block, running normaliser: the update over the reset maximum `-∞` and the reset normaliser `0`. -/
private theorem pieceA1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_1 c i arg3 harg3 arg4 harg4 arg5 harg5 arg6 harg6 arg7 harg7 arg8 harg8 arg9 harg9 hc0 hc1 x0 x1 x2 = k1_pay12 x0 x1 k1_pay4 k1_pay4 k1_pay5 := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1) hz2, View.readCov_unit_zero (S := S512x1) _ hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- First block, running weighted sum: the update over the reset maximum and the reset sum `0`. -/
private theorem pieceA2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_2 c i arg3 harg3 arg4 harg4 arg5 harg5 arg6 harg6 arg7 harg7 arg8 harg8 arg9 harg9 hc0 hc1 x0 x1 x2 = k1_pay1 (k1_pay7 x2) (k1_pay10 x0 x1 k1_pay4 k1_pay4) (k1_pay11 x0 x1 k1_pay4) k1_pay6 := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1024) hz2, View.readCov_unit_zero (S := S512x1024) _ hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- Later block, running maximum: one store, the update over the maximum the point started from. -/
private theorem pieceB0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1) hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- Later block, running normaliser: one store, over the maximum and normaliser the point started from. -/
private theorem pieceB1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1) hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- Later block, running weighted sum: one store, over the maximum and sum the point started from. -/
private theorem pieceB2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1024) hz2]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

/-- Last block, output: the quotient of the freshly stored weighted sum by the freshly stored normaliser (both
    are loaded back after their stores, so they are this point's own updates). -/
private theorem pieceC3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    out1_C_3 c i arg3 harg3 arg4 harg4 arg5 harg5 arg6 harg6 arg7 harg7 arg8 harg8 arg9 harg9 hc0 hc1 x0 x1 x2 xs0 xs1 xs2 = k1_pay3 (k1_pay1 (k1_pay7 x2) (k1_pay10 x0 x1 xs0 xs0) (k1_pay11 x0 x1 xs0) xs2) (k1_pay12 x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero (S := S1x512x1024) hz3]
  simp only [View.readAt_eq_ld, harg3.read_unread, harg4.read_unread, harg5.read_unread, harg7.read_unread, harg8.read_unread, harg9.read_unread, View.ld_unit_zero (S := S1x512x1024) hz3, View.ld_unit_zero (S := S1x1024x1024) hz3, View.ld_unit_zero (S := S512x1) hz2, View.ld_unit_zero (S := S512x1024) hz2, View.readCov_unit_zero (S := S512x1) _ hz2, View.readCov_unit_zero (S := S512x1024) _ hz2]

end Pieces

variable (qr : Fin 512 → Fin 1024 → ℝ) (kr vr : Fin 1024 → Fin 1024 → ℝ)

/-- The scratch after a first block: per query row the block's maximum and normaliser, per row and column the
    block's weighted sum. -/
def firstS : (Fin 512 → ℝ) × (Fin 512 → ℝ) × (Fin 512 → Fin 1024 → ℝ) :=
  (fun r => (step0 (sB qr kr r) (fun _ => (0 : ℝ))).1,
   fun r => (step0 (sB qr kr r) (fun _ => (0 : ℝ))).2.1,
   fun r d => (step0 (sB qr kr r) (fun k => vr k d)).2.2)

/-- The scratch after a further block, from the scratch before it. -/
def nextS (mr lr : Fin 512 → ℝ) (ar : Fin 512 → Fin 1024 → ℝ) : (Fin 512 → ℝ) × (Fin 512 → ℝ) × (Fin 512 → Fin 1024 → ℝ) :=
  (fun r => (step (mr r, lr r, (0 : ℝ)) (sB qr kr r) (fun _ => (0 : ℝ))).1,
   fun r => (step (mr r, lr r, (0 : ℝ)) (sB qr kr r) (fun _ => (0 : ℝ))).2.1,
   fun r d => (step (mr r, lr r, ar r d) (sB qr kr r) (fun k => vr k d)).2.2)

variable (V : Entry Ideal) (c : Dev nD) (t : Fin cfg1.N)

/-! ## The three cases over named blocks

The same statements with the input blocks and the previous scratch named by variables: the point's own blocks are
substituted for the variables afterwards. -/

/-- After a first block the three scratch buffers are the first-block payloads of the point's input blocks. -/
private theorem atA_pay (h0 : t.val % 4 = 0) (h1 : ¬t.val % 4 = 3)
    (x0 : Vec Ideal S1x512x1024 .bf16) (x1 x2 : Vec Ideal S1x1024x1024 .bf16)
    (hq : iblk1 V c 0 t = x0) (hk : iblk1 V c 1 t = x1) (hv : iblk1 V c 2 t = x2) :
    (atA V c t h0 h1).2.1 = k1_pay2 (F := Ideal) (k1_pay9 x0 x1 (k1_pay4 (F := Ideal)))
      ∧ (atA V c t h0 h1).2.2.1 = k1_pay12 (F := Ideal) x0 x1 (k1_pay4 (F := Ideal)) (k1_pay4 (F := Ideal)) (k1_pay5 (F := Ideal))
      ∧ (atA V c t h0 h1).2.2.2 = k1_pay1 (F := Ideal) (k1_pay7 x2) (k1_pay10 x0 x1 (k1_pay4 (F := Ideal)) (k1_pay4 (F := Ideal))) (k1_pay11 x0 x1 (k1_pay4 (F := Ideal))) (k1_pay6 (F := Ideal)) := by
  subst hq hk hv
  unfold atA
  dsimp only
  exact ⟨pieceA0 .., pieceA1 .., pieceA2 ..⟩

/-- After a middle block they are the later-block payloads of the input blocks and the scratch before. -/
private theorem atB_pay (h0 : ¬t.val % 4 = 0) (h1 : ¬t.val % 4 = 3) (p : Outs1 Ideal)
    (x0 : Vec Ideal S1x512x1024 .bf16) (x1 x2 : Vec Ideal S1x1024x1024 .bf16)
    (xs0 xs1 : Vec Ideal S512x1 .f32) (xs2 : Vec Ideal S512x1024 .f32)
    (hq : iblk1 V c 0 t = x0) (hk : iblk1 V c 1 t = x1) (hv : iblk1 V c 2 t = x2)
    (hm : p.2.1 = xs0) (hl : p.2.2.1 = xs1) (ha : p.2.2.2 = xs2) :
    (atB V c t h0 h1 p).2.1 = k1_pay2 (F := Ideal) (k1_pay9 x0 x1 xs0)
      ∧ (atB V c t h0 h1 p).2.2.1 = k1_pay12 (F := Ideal) x0 x1 xs0 xs0 xs1
      ∧ (atB V c t h0 h1 p).2.2.2 = k1_pay1 (F := Ideal) (k1_pay7 x2) (k1_pay10 x0 x1 xs0 xs0) (k1_pay11 x0 x1 xs0) xs2 := by
  subst hq hk hv hm hl ha
  unfold atB
  dsimp only
  exact ⟨pieceB0 .., pieceB1 .., pieceB2 ..⟩

/-- After a last block the output block is the quotient payload of this point's updated sum and normaliser. -/
private theorem atC_pay (h0 : ¬t.val % 4 = 0) (h1 : t.val % 4 = 3) (p : Outs1 Ideal)
    (x0 : Vec Ideal S1x512x1024 .bf16) (x1 x2 : Vec Ideal S1x1024x1024 .bf16)
    (xs0 xs1 : Vec Ideal S512x1 .f32) (xs2 : Vec Ideal S512x1024 .f32)
    (hq : iblk1 V c 0 t = x0) (hk : iblk1 V c 1 t = x1) (hv : iblk1 V c 2 t = x2)
    (hm : p.2.1 = xs0) (hl : p.2.2.1 = xs1) (ha : p.2.2.2 = xs2) :
    (atC V c t h0 h1 p).1
      = k1_pay3 (F := Ideal) (k1_pay1 (k1_pay7 x2) (k1_pay10 x0 x1 xs0 xs0) (k1_pay11 x0 x1 xs0) xs2) (k1_pay12 x0 x1 xs0 xs0 xs1) := by
  subst hq hk hv hm hl ha
  unfold atC
  dsimp only
  exact pieceC3 ..

/-- A first key/value block leaves the scratch at `firstS`. -/
theorem atA_scratch (h0 : t.val % 4 = 0) (h1 : ¬t.val % 4 = 3)
    (hq : iblk1 V c 0 t = qB qr) (hk : iblk1 V c 1 t = kB kr) (hv : iblk1 V c 2 t = vB vr) :
    (atA V c t h0 h1).2.1 = mS (firstS qr kr vr).1 ∧ (atA V c t h0 h1).2.2.1 = lS (firstS qr kr vr).2.1
      ∧ (atA V c t h0 h1).2.2.2 = aS (firstS qr kr vr).2.2 := by
  -- the payloads over the real blocks are the first step of the recurrence, component by component
  obtain ⟨e0, e1, e2⟩ := atA_pay V c t h0 h1 (qB qr) (kB kr) (vB vr) hq hk hv
  exact ⟨e0.trans (first_m qr kr), e1.trans (first_l qr kr), e2.trans (first_a qr kr vr)⟩

/-- A middle block takes the scratch one step on. -/
theorem atB_scratch (h0 : ¬t.val % 4 = 0) (h1 : ¬t.val % 4 = 3)
    (hq : iblk1 V c 0 t = qB qr) (hk : iblk1 V c 1 t = kB kr) (hv : iblk1 V c 2 t = vB vr)
    (mr lr : Fin 512 → ℝ) (ar : Fin 512 → Fin 1024 → ℝ) (p : Outs1 Ideal)
    (hm : p.2.1 = mS mr) (hl : p.2.2.1 = lS lr) (ha : p.2.2.2 = aS ar) :
    (atB V c t h0 h1 p).2.1 = mS (nextS qr kr vr mr lr ar).1 ∧ (atB V c t h0 h1 p).2.2.1 = lS (nextS qr kr vr mr lr ar).2.1
      ∧ (atB V c t h0 h1 p).2.2.2 = aS (nextS qr kr vr mr lr ar).2.2 := by
  -- the payloads over the real blocks and the real scratch are the next step of the recurrence
  obtain ⟨e0, e1, e2⟩ := atB_pay V c t h0 h1 p (qB qr) (kB kr) (vB vr) (mS mr) (lS lr) (aS ar) hq hk hv hm hl ha
  exact ⟨e0.trans (next_m qr kr mr lr), e1.trans (next_l qr kr mr lr), e2.trans (next_a qr kr vr mr lr ar)⟩

/-- A last block leaves in the output block the stepped running sum over the stepped running normaliser. -/
theorem atC_out (h0 : ¬t.val % 4 = 0) (h1 : t.val % 4 = 3)
    (hq : iblk1 V c 0 t = qB qr) (hk : iblk1 V c 1 t = kB kr) (hv : iblk1 V c 2 t = vB vr)
    (mr lr : Fin 512 → ℝ) (ar : Fin 512 → Fin 1024 → ℝ) (hlpos : ∀ r, 0 < lr r) (p : Outs1 Ideal)
    (hm : p.2.1 = mS mr) (hl : p.2.2.1 = lS lr) (ha : p.2.2.2 = aS ar) :
    ((atC V c t h0 h1 p).1 : S1x512x1024.Idx → EReal)
      = fun i => (((nextS qr kr vr mr lr ar).2.2 (i 1) (i 2) / (nextS qr kr vr mr lr ar).2.1 (i 1) : ℝ) : EReal) := by
  -- the stepped normaliser is positive because the old one is
  have hpos : ∀ r, 0 < (nextS qr kr vr mr lr ar).2.1 r :=
    fun r => step_pos (mr r, lr r, (0 : ℝ)) (hlpos r) (sB qr kr r) (fun _ => (0 : ℝ))
  -- the block is the quotient payload of the updated sum and the updated normaliser; these are the stepped
  -- sum and the stepped normaliser, and the quotient payload of real numbers with a positive divisor is their quotient
  have e := atC_pay V c t h0 h1 p (qB qr) (kB kr) (vB vr) (mS mr) (lS lr) (aS ar) hq hk hv hm hl ha
  have ea : (k1_pay1 (F := Ideal) (k1_pay7 (vB vr)) (k1_pay10 (qB qr) (kB kr) (mS mr) (mS mr)) (k1_pay11 (qB qr) (kB kr) (mS mr)) (aS ar) : S512x1024.Idx → EReal)
      = aS (nextS qr kr vr mr lr ar).2.2 := next_a qr kr vr mr lr ar
  have el : (k1_pay12 (F := Ideal) (qB qr) (kB kr) (mS mr) (mS mr) (lS lr) : S512x1.Idx → EReal)
      = lS (nextS qr kr vr mr lr ar).2.1 := next_l qr kr mr lr
  refine e.trans ?_
  refine (congrArg₂ (k1_pay3 (F := Ideal)) ea el).trans ?_
  exact out_div (nextS qr kr vr mr lr ar).2.1 (nextS qr kr vr mr lr ar).2.2 hpos

end Cert.KernelIdeal.Hand

end
-- ==== Proof.AttnGeom.lean ====
/- Where the second launch's blocks sit in their arrays: grid point `t` is batch `t / 16`, query tile
   `t / 4 % 4` (512 rows) and key/value block `t % 4` (1024 rows); a block read off an array of real numbers is the
   block of those real numbers; the write-backs of the last key/value blocks tile the result array. -/
import proofs.«401980_j60120952209552_3_alg».proof.Proof.AttnData
import proofs.«401980_j60120952209552_3_alg».proof.Proof.AttnPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (V : Entry Ideal) (c : Dev nD)

/-- The block index maps of the second launch, in closed form at every grid point: point `t` is batch `t / 16`, query
    tile `t / 4 % 4`, key/value block `t % 4`; the query and output windows move with the batch and the query tile,
    the key and value windows with the batch and the key/value block; no window moves along the last axis. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- A real array read at two triples of coordinates with the same values gives the same number. -/
private theorem coe_congr3 {n0 n1 n2 : Nat} (q : Fin n0 → Fin n1 → Fin n2 → ℝ) {a a' : Fin n0} {b b' : Fin n1}
    {d d' : Fin n2} (ha : a.val = a'.val) (hb : b.val = b'.val) (hd : d.val = d'.val) :
    ((q a b d : ℝ) : EReal) = ((q a' b' d' : ℝ) : EReal) := by
  rw [Fin.ext ha, Fin.ext hb, Fin.ext hd]

/-- The query block at point `t`. -/
theorem iblk1_q (q : Fin 8 → Fin 2048 → Fin 1024 → ℝ)
    (hq : (V c main_v7_1 : S8x2048x1024.Idx → EReal) = fun i => ((q (i 0) (i 1) (i 2) : ℝ) : EReal)) (t : Fin cfg1.N) :
    iblk1 V c 0 t = qB (fun r d => q ⟨t.val / 16, by have h := t.isLt; have hN : cfg1.N = 128 := N_1; omega⟩ ⟨512 * (t.val / 4 % 4) + r.val, by have := r.isLt; omega⟩ d) := by
  unfold iblk1
  funext y
  obtain ⟨e0, e1, e2, -⟩ := idx_facts1 t
  have hy0 : (y 0).val < 1 := (y 0).isLt
  have hy1 : (y 1).val < 512 := (y 1).isLt
  have hy2 : (y 2).val < 1024 := (y 2).isLt
  show (V c main_v7_1 : S8x2048x1024.Idx → EReal) (((cfg1.win 0).blk t).view.emb y) = _
  rw [hq]
  refine coe_congr3 q ?_ ?_ ?_
  · show win1_0.index t (0 : Fin 3) * 1 + 1 * (y 0).val = t.val / 16
    omega
  · show win1_0.index t (1 : Fin 3) * 512 + 1 * (y 1).val = 512 * (t.val / 4 % 4) + (y 1).val
    omega
  · show win1_0.index t (2 : Fin 3) * 1024 + 1 * (y 2).val = (y 2).val
    omega

/-- The key block and the value block at point `t`. -/
theorem iblk1_k (k : Fin 8 → Fin 4096 → Fin 1024 → ℝ)
    (hk : (V c main_v7_2 : S8x4096x1024.Idx → EReal) = fun i => ((k (i 0) (i 1) (i 2) : ℝ) : EReal)) (t : Fin cfg1.N) :
    iblk1 V c 1 t = kB (fun n d => k ⟨t.val / 16, by have h := t.isLt; have hN : cfg1.N = 128 := N_1; omega⟩ ⟨1024 * (t.val % 4) + n.val, by have := n.isLt; omega⟩ d) := by
  unfold iblk1
  funext y
  obtain ⟨-, -, -, e0, e1, e2, -⟩ := idx_facts1 t
  have hy0 : (y 0).val < 1 := (y 0).isLt
  have hy1 : (y 1).val < 1024 := (y 1).isLt
  have hy2 : (y 2).val < 1024 := (y 2).isLt
  show (V c main_v7_2 : S8x4096x1024.Idx → EReal) (((cfg1.win 1).blk t).view.emb y) = _
  rw [hk]
  refine coe_congr3 k ?_ ?_ ?_
  · show win1_1.index t (0 : Fin 3) * 1 + 1 * (y 0).val = t.val / 16
    omega
  · show win1_1.index t (1 : Fin 3) * 1024 + 1 * (y 1).val = 1024 * (t.val % 4) + (y 1).val
    omega
  · show win1_1.index t (2 : Fin 3) * 1024 + 1 * (y 2).val = (y 2).val
    omega

theorem iblk1_v (v : Fin 8 → Fin 4096 → Fin 1024 → ℝ)
    (hv : (V c main_v7_3 : S8x4096x1024.Idx → EReal) = fun i => ((v (i 0) (i 1) (i 2) : ℝ) : EReal)) (t : Fin cfg1.N) :
    iblk1 V c 2 t = vB (fun n d => v ⟨t.val / 16, by have h := t.isLt; have hN : cfg1.N = 128 := N_1; omega⟩ ⟨1024 * (t.val % 4) + n.val, by have := n.isLt; omega⟩ d) := by
  unfold iblk1
  funext y
  obtain ⟨-, -, -, -, -, -, e0, e1, e2, -⟩ := idx_facts1 t
  have hy0 : (y 0).val < 1 := (y 0).isLt
  have hy1 : (y 1).val < 1024 := (y 1).isLt
  have hy2 : (y 2).val < 1024 := (y 2).isLt
  show (V c main_v7_3 : S8x4096x1024.Idx → EReal) (((cfg1.win 2).blk t).view.emb y) = _
  rw [hv]
  refine coe_congr3 v ?_ ?_ ?_
  · show win1_2.index t (0 : Fin 3) * 1 + 1 * (y 0).val = t.val / 16
    omega
  · show win1_2.index t (1 : Fin 3) * 1024 + 1 * (y 1).val = 1024 * (t.val % 4) + (y 1).val
    omega
  · show win1_2.index t (2 : Fin 3) * 1024 + 1 * (y 2).val = (y 2).val
    omega

/-- What a last key/value block writes back is its block of a whole-array function `G`, as soon as the output block
    it leaves is `G` read at the block's rows. -/
theorem flushed1_3_eq (G : S8x2048x1024.Idx → EReal) (t : Fin cfg1.N)
    (h : ((outsAt1 V c t.val t.isLt).1 : S1x512x1024.Idx → EReal)
      = fun y => G (ValueIdx.ix3 (⟨t.val / 16, by have h := t.isLt; have hN : cfg1.N = 128 := N_1; omega⟩ : Fin 8) (⟨512 * (t.val / 4 % 4) + (y 1).val, by have := (y 1).isLt; have h2 : (y 1).val < 512 := (y 1).isLt; omega⟩ : Fin 2048) (⟨(y 2).val, (y 2).isLt⟩ : Fin 1024))) :
    (dat1 V c).flushed 3 t = ((cfg1.win 3).blk t).view.read (Elt Ideal) G := by
  show (cfg1.win 3).cut (grid1.coords t) ((dat1 V c).after 3 t) = _
  rw [after1_3, h]
  funext j
  obtain ⟨-, -, -, -, -, -, -, -, -, e0, e1, e2⟩ := idx_facts1 t
  have hj0 : (j 0).val < 1 := (j 0).isLt
  have hj1 : (j 1).val < 512 := (j 1).isLt
  have hj2 : (j 2).val < 1024 := (j 2).isLt
  show G _ = G (((cfg1.win 3).blk t).view.emb j)
  refine congrArg G (funext fun a => Fin.ext ?_)
  match a with
  | ⟨0, _⟩ =>
    show t.val / 16 = win1_3.index t (0 : Fin 3) * 1 + 1 * (j 0).val
    omega
  | ⟨1, _⟩ =>
    show 512 * (t.val / 4 % 4) + (j 1).val = win1_3.index t (1 : Fin 3) * 512 + 1 * (j 1).val
    omega
  | ⟨2, _⟩ =>
    show (j 2).val = win1_3.index t (2 : Fin 3) * 1024 + 1 * (j 2).val
    omega

/-- An index of the result array lies in the block point `t` writes back exactly when each coordinate lies in that
    block's range on its axis. -/
theorem mem_blk1_3 (t : Fin cfg1.N) (i : S8x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v8).slice (win1_3.rect t)).set ↔ _
  rw [View.set_slice_whole, Rect.mem_set_unit]
  exact Iff.rfl

/-- Every index of the result array lies in the block some last key/value block writes back. -/
theorem cover1_3 (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : cfg1.N = 128 := N_1
  -- the last key/value block of the index's batch and query tile
  obtain ⟨t, ht⟩ : ∃ t : Fin cfg1.N, t.val = 16 * (i 0).val + 4 * ((i 1).val / 512) + 3 :=
    ⟨⟨16 * (i 0).val + 4 * ((i 1).val / 512) + 3, by omega⟩, rfl⟩
  obtain ⟨-, -, -, -, -, -, -, -, -, e0, e1, e2⟩ := idx_facts1 t
  refine ⟨t, (flush1_3 t).mpr (by omega), ?_⟩
  rw [mem_blk1_3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 1024 ≤ (i 2).val ∧ (i 2).val < win1_3.index t (2 : Fin 3) * 1024 + 1024
    omega

/-- So the result array ends holding `G` when every last key/value block leaves `G`'s rows in the output block. -/
theorem arrAt1_3_eq (G : S8x2048x1024.Idx → EReal)
    (h : ∀ t : Fin cfg1.N, t.val % 4 = 3 → ((outsAt1 V c t.val t.isLt).1 : S1x512x1024.Idx → EReal)
      = fun y => G (ValueIdx.ix3 (⟨t.val / 16, by have h := t.isLt; have hN : cfg1.N = 128 := N_1; omega⟩ : Fin 8) (⟨512 * (t.val / 4 % 4) + (y 1).val, by have := (y 1).isLt; have h2 : (y 1).val < 512 := (y 1).isLt; omega⟩ : Fin 2048) (⟨(y 2).val, (y 2).isLt⟩ : Fin 1024))) :
    ((dat1 V c).arrAt 3 cfg1.N : S8x2048x1024.Idx → EReal) = G :=
  (dat1 V c).arrAt_eq_of_cover 3 G (fun t hf => flushed1_3_eq V c G t (h t ((flush1_3 t).mp hf))) cover1_3

end Cert.KernelIdeal.Hand

end
-- ==== Proof.AttnValue.lean ====
/- What the second launch leaves in its result array, at the real numbers: the softmax attention of the query,
   key and value arrays it reads. The four key/value blocks of a query tile are the four steps of the block-by-block
   recurrence; the last step's quotient is what is written back. -/
import proofs.«401980_j60120952209552_3_alg».proof.Proof.AttnData
import proofs.«401980_j60120952209552_3_alg».proof.Proof.AttnPieces
import proofs.«401980_j60120952209552_3_alg».proof.Proof.AttnGeom
import proofs.«401980_j60120952209552_3_alg».proof.Proof.Online
import proofs.«401980_j60120952209552_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen Cert.Online

/-! ## The rows a block holds, and the algebra: four blocks of 1024 keys are the 4096 keys -/

/-- Row r of query tile qi of batch b, and row n of key/value block j of batch b. -/
def qrow (q : Fin 8 → Fin 2048 → Fin 1024 → ℝ) (b : Fin 8) (qi : Fin 4) : Fin 512 → Fin 1024 → ℝ :=
  fun r d => q b ⟨512 * qi.val + r.val, by have := qi.isLt; have := r.isLt; omega⟩ d
def krow (k : Fin 8 → Fin 4096 → Fin 1024 → ℝ) (b : Fin 8) (j : Fin 4) : Fin 1024 → Fin 1024 → ℝ :=
  fun n d => k b ⟨1024 * j.val + n.val, by have := j.isLt; have := n.isLt; omega⟩ d

/-- The block's scaled scores are the scores of the whole arrays at the rows the block holds. -/
theorem sB_eq_sc (q : Fin 8 → Fin 2048 → Fin 1024 → ℝ) (k : Fin 8 → Fin 4096 → Fin 1024 → ℝ) (b : Fin 8) (qi j : Fin 4) (r : Fin 512) (n : Fin 1024) :
    sB (qrow q b qi) (krow k b j) r n
      = Spec.sc q k b ⟨512 * qi.val + r.val, by have := qi.isLt; have := r.isLt; omega⟩ ⟨1024 * j.val + n.val, by have := j.isLt; have := n.isLt; omega⟩ := rfl

/-- Four key/value blocks run through the block-by-block recurrence give the softmax attention of the row:
    the one-pass quotient over the four blocks is the sum over all 4096 keys, key 1024 j + n sitting at place n of block j. -/
theorem run4_attn (q : Fin 8 → Fin 2048 → Fin 1024 → ℝ) (k v : Fin 8 → Fin 4096 → Fin 1024 → ℝ) (b : Fin 8) (m : Fin 2048) (d : Fin 1024) :
    (run4 (fun (j : Fin 4) (n : Fin 1024) => Spec.sc q k b m ⟨1024 * j.val + n.val, by have := j.isLt; have := n.isLt; omega⟩)
        (fun (j : Fin 4) (n : Fin 1024) => v b ⟨1024 * j.val + n.val, by have := j.isLt; have := n.isLt; omega⟩ d)).2.2
      / (run4 (fun (j : Fin 4) (n : Fin 1024) => Spec.sc q k b m ⟨1024 * j.val + n.val, by have := j.isLt; have := n.isLt; omega⟩)
        (fun (j : Fin 4) (n : Fin 1024) => v b ⟨1024 * j.val + n.val, by have := j.isLt; have := n.isLt; omega⟩ d)).2.1
      = Spec.attn q k v b m d := by
  have hmx : Spec.mx q k b m = Finset.univ.sup' Finset.univ_nonempty (fun j : Fin 4 => blockMax (fun n : Fin 1024 =>
      Spec.sc q k b m ⟨1024 * j.val + n.val, by have := j.isLt; have := n.isLt; omega⟩)) := sup_blocks (Spec.sc q k b m)
  have hZ : Spec.Z q k b m = ∑ j : Fin 4, ∑ n : Fin 1024,
      Real.exp (Spec.sc q k b m ⟨1024 * j.val + n.val, by have := j.isLt; have := n.isLt; omega⟩ - Spec.mx q k b m) :=
    sum_blocks (fun n => Spec.pw q k b m n)
  rw [run4_quot]
  unfold Spec.attn
  rw [sum_blocks (fun n => Spec.pw q k b m n / Spec.Z q k b m * v b n d), hZ]
  unfold Spec.pw
  rw [hmx]

/-! ## Point by point: the four key/value blocks of a query tile -/

/-- The recurrence's contents at equal positions are equal, whatever the evidence that the position is in the grid. -/
theorem outsAt1_congr (V : Entry Ideal) (c : Dev nD) (n m : ℕ) (h : n = m) (hn : n < cfg1.N) (hm : m < cfg1.N) :
    outsAt1 V c n hn = outsAt1 V c m hm := by
  subst h; rfl

/-- The grid has 8 x 4 x 4 = 128 points. -/
theorem point_lt (t : Fin cfg1.N) : t.val < 128 := lt_of_lt_of_eq t.isLt (show cfg1.N = 128 from N_1)

/-- The scratch as real numbers: per query row the running maximum and the running normaliser, per query row and
    column the running weighted sum. -/
abbrev RScratch : Type := (Fin 512 → ℝ) × (Fin 512 → ℝ) × (Fin 512 → Fin 1024 → ℝ)

/-- The three scratch buffers among the contents p hold the real numbers S. -/
def ScratchIs (p : Outs1 Ideal) (S : RScratch) : Prop :=
  p.2.1 = mS S.1 ∧ p.2.2.1 = lS S.2.1 ∧ p.2.2.2 = aS S.2.2

/-- The running normaliser is positive after the first block and stays positive through every further block. -/
theorem firstS_pos (qr : Fin 512 → Fin 1024 → ℝ) (kr vr : Fin 1024 → Fin 1024 → ℝ) (r : Fin 512) :
    0 < (firstS qr kr vr).2.1 r := step0_pos (sB qr kr r) (fun _ => (0 : ℝ))
theorem nextS_pos (qr : Fin 512 → Fin 1024 → ℝ) (kr vr : Fin 1024 → Fin 1024 → ℝ) (mr lr : Fin 512 → ℝ) (ar : Fin 512 → Fin 1024 → ℝ)
    (h : ∀ r, 0 < lr r) (r : Fin 512) : 0 < (nextS qr kr vr mr lr ar).2.1 r :=
  step_pos (mr r, lr r, (0 : ℝ)) (h r) (sB qr kr r) (fun _ => (0 : ℝ))

section Tile

variable (V : Entry Ideal) (c : Dev nD)
variable (q : Fin 8 → Fin 2048 → Fin 1024 → ℝ) (k v : Fin 8 → Fin 4096 → Fin 1024 → ℝ)
variable (hq : (V c main_v7_1 : S8x2048x1024.Idx → EReal) = fun i => ((q (i 0) (i 1) (i 2) : ℝ) : EReal))
variable (hk : (V c main_v7_2 : S8x4096x1024.Idx → EReal) = fun i => ((k (i 0) (i 1) (i 2) : ℝ) : EReal))
variable (hv : (V c main_v7_3 : S8x4096x1024.Idx → EReal) = fun i => ((v (i 0) (i 1) (i 2) : ℝ) : EReal))

include hq hk hv in
/-- The three input blocks at the grid point of batch b, query tile qi and key/value block kv hold the rows
    512 qi + r of the queries and the rows 1024 kv + n of the keys and the values of that batch. -/
theorem blocks_at (t : Fin cfg1.N) (b : Fin 8) (qi kv : Fin 4) (ht : t.val = 16 * b.val + 4 * qi.val + kv.val) :
    iblk1 V c 0 t = qB (qrow q b qi) ∧ iblk1 V c 1 t = kB (krow k b kv) ∧ iblk1 V c 2 t = vB (krow v b kv) := by
  have hb := b.isLt; have hqi := qi.isLt; have hkv := kv.isLt
  have e0 : t.val / 16 = b.val := by omega
  have e1 : t.val / 4 % 4 = qi.val := by omega
  have e2 : t.val % 4 = kv.val := by omega
  refine ⟨(iblk1_q V c q hq t).trans (congrArg qB ?_), (iblk1_k V c k hk t).trans (congrArg kB ?_),
    (iblk1_v V c v hv t).trans (congrArg vB ?_)⟩
  · funext r d
    exact congrArg₂ (fun x y => q x y d) (Fin.ext e0)
      (Fin.ext (by show 512 * (t.val / 4 % 4) + r.val = 512 * qi.val + r.val; rw [e1]))
  · funext n d
    exact congrArg₂ (fun x y => k x y d) (Fin.ext e0)
      (Fin.ext (by show 1024 * (t.val % 4) + n.val = 1024 * kv.val + n.val; rw [e2]))
  · funext n d
    exact congrArg₂ (fun x y => v x y d) (Fin.ext e0)
      (Fin.ext (by show 1024 * (t.val % 4) + n.val = 1024 * kv.val + n.val; rw [e2]))

include hq hk hv in
/-- After the first key/value block of a query tile the scratch holds the first step of the recurrence. -/
theorem scratch_first (t : Fin cfg1.N) (b : Fin 8) (qi : Fin 4) (ht : t.val = 16 * b.val + 4 * qi.val) :
    ScratchIs (outsAt1 V c t.val t.isLt) (firstS (qrow q b qi) (krow k b 0) (krow v b 0)) := by
  have hqi := qi.isLt
  have m0 : t.val % 4 = 0 := by omega
  have m3 : ¬t.val % 4 = 3 := by omega
  obtain ⟨eq, ek, ev⟩ := blocks_at V c q k v hq hk hv t b qi 0 (by show t.val = 16 * b.val + 4 * qi.val + 0; omega)
  rw [outsAt1_A V c t m0 m3]
  exact atA_scratch _ _ _ V c t m0 m3 eq ek ev

include hq hk hv in
/-- A middle key/value block takes the scratch one step of the recurrence on. -/
theorem scratch_next (t t' : Fin cfg1.N) (hs : t.val = t'.val + 1) (b : Fin 8) (qi kv : Fin 4)
    (ht : t.val = 16 * b.val + 4 * qi.val + kv.val) (hkv0 : kv.val ≠ 0) (hkv3 : kv.val ≠ 3)
    (S : RScratch) (hp : ScratchIs (outsAt1 V c t'.val t'.isLt) S) :
    ScratchIs (outsAt1 V c t.val t.isLt) (nextS (qrow q b qi) (krow k b kv) (krow v b kv) S.1 S.2.1 S.2.2) := by
  have hqi := qi.isLt; have hkv := kv.isLt
  have m0 : ¬t.val % 4 = 0 := by omega
  have m3 : ¬t.val % 4 = 3 := by omega
  obtain ⟨eq, ek, ev⟩ := blocks_at V c q k v hq hk hv t b qi kv ht
  rw [outsAt1_B V c t m0 m3, outsAt1_congr V c (t.val - 1) t'.val (by omega) _ t'.isLt]
  exact atB_scratch _ _ _ V c t m0 m3 eq ek ev S.1 S.2.1 S.2.2 _ hp.1 hp.2.1 hp.2.2

include hq hk hv in
/-- The last key/value block leaves in the output block the stepped running sum over the stepped normaliser. -/
theorem out_last (t t' : Fin cfg1.N) (hs : t.val = t'.val + 1) (b : Fin 8) (qi : Fin 4)
    (ht : t.val = 16 * b.val + 4 * qi.val + 3)
    (S : RScratch) (hlpos : ∀ r, 0 < S.2.1 r) (hp : ScratchIs (outsAt1 V c t'.val t'.isLt) S) :
    ((outsAt1 V c t.val t.isLt).1 : S1x512x1024.Idx → EReal)
      = fun i => (((nextS (qrow q b qi) (krow k b 3) (krow v b 3) S.1 S.2.1 S.2.2).2.2 (i 1) (i 2)
          / (nextS (qrow q b qi) (krow k b 3) (krow v b 3) S.1 S.2.1 S.2.2).2.1 (i 1) : ℝ) : EReal) := by
  have hqi := qi.isLt
  have m0 : ¬t.val % 4 = 0 := by omega
  have m3 : t.val % 4 = 3 := by omega
  obtain ⟨eq, ek, ev⟩ := blocks_at V c q k v hq hk hv t b qi 3 (by show t.val = 16 * b.val + 4 * qi.val + 3; omega)
  rw [outsAt1_C V c t m0 m3, outsAt1_congr V c (t.val - 1) t'.val (by omega) _ t'.isLt]
  exact atC_out _ _ _ V c t m0 m3 eq ek ev S.1 S.2.1 S.2.2 hlpos _ hp.1 hp.2.1 hp.2.2

end Tile

/-! ## The scratch after four blocks is the four-step run, row by row and column by column -/

/-- One step of the scratch recurrence, read at query row r and column d, is one step of the running
    (maximum, normaliser, weighted sum) triple on the block's scores of row r and the block's column d of values. -/
theorem nextS_step (qr : Fin 512 → Fin 1024 → ℝ) (kr vr : Fin 1024 → Fin 1024 → ℝ) (mr lr : Fin 512 → ℝ) (ar : Fin 512 → Fin 1024 → ℝ)
    (r : Fin 512) (d : Fin 1024) :
    ((nextS qr kr vr mr lr ar).1 r, (nextS qr kr vr mr lr ar).2.1 r, (nextS qr kr vr mr lr ar).2.2 r d)
      = step (mr r, lr r, ar r d) (sB qr kr r) (fun n => vr n d) := rfl

/-- The same for the first block. -/
theorem firstS_step (qr : Fin 512 → Fin 1024 → ℝ) (kr vr : Fin 1024 → Fin 1024 → ℝ) (r : Fin 512) (d : Fin 1024) :
    ((firstS qr kr vr).1 r, (firstS qr kr vr).2.1 r, (firstS qr kr vr).2.2 r d)
      = step0 (sB qr kr r) (fun n => vr n d) := rfl

/-- Four blocks through the scratch recurrence: at row r and column d the scratch's triple is the four-step run on
    the four blocks' scores of row r and their columns d of values. -/
theorem scratch_run4 (qr : Fin 512 → Fin 1024 → ℝ) (kr vr : Fin 4 → Fin 1024 → Fin 1024 → ℝ) (r : Fin 512) (d : Fin 1024)
    (S0 S1 S2 S3 : (Fin 512 → ℝ) × (Fin 512 → ℝ) × (Fin 512 → Fin 1024 → ℝ))
    (h0 : S0 = firstS qr (kr 0) (vr 0)) (h1 : S1 = nextS qr (kr 1) (vr 1) S0.1 S0.2.1 S0.2.2)
    (h2 : S2 = nextS qr (kr 2) (vr 2) S1.1 S1.2.1 S1.2.2) (h3 : S3 = nextS qr (kr 3) (vr 3) S2.1 S2.2.1 S2.2.2) :
    (S3.1 r, S3.2.1 r, S3.2.2 r d) = run4 (fun j => sB qr (kr j) r) (fun j n => vr j n d) := by
  have e0 : (S0.1 r, S0.2.1 r, S0.2.2 r d) = step0 (sB qr (kr 0) r) (fun n => vr 0 n d) := by
    rw [h0]; exact firstS_step qr (kr 0) (vr 0) r d
  have e1 : (S1.1 r, S1.2.1 r, S1.2.2 r d) = step (step0 (sB qr (kr 0) r) (fun n => vr 0 n d)) (sB qr (kr 1) r) (fun n => vr 1 n d) := by
    rw [h1, ← e0]; exact nextS_step qr (kr 1) (vr 1) _ _ _ r d
  have e2 : (S2.1 r, S2.2.1 r, S2.2.2 r d)
      = step (step (step0 (sB qr (kr 0) r) (fun n => vr 0 n d)) (sB qr (kr 1) r) (fun n => vr 1 n d)) (sB qr (kr 2) r) (fun n => vr 2 n d) := by
    rw [h2, ← e1]; exact nextS_step qr (kr 2) (vr 2) _ _ _ r d
  rw [h3]
  refine (nextS_step qr (kr 3) (vr 3) _ _ _ r d).trans ?_
  rw [e2]
  rfl

/-! ## The output block of a query tile, and the result array -/

section Tile2

variable (V : Entry Ideal) (c : Dev nD)
variable (q : Fin 8 → Fin 2048 → Fin 1024 → ℝ) (k v : Fin 8 → Fin 4096 → Fin 1024 → ℝ)
variable (hq : (V c main_v7_1 : S8x2048x1024.Idx → EReal) = fun i => ((q (i 0) (i 1) (i 2) : ℝ) : EReal))
variable (hk : (V c main_v7_2 : S8x4096x1024.Idx → EReal) = fun i => ((k (i 0) (i 1) (i 2) : ℝ) : EReal))
variable (hv : (V c main_v7_3 : S8x4096x1024.Idx → EReal) = fun i => ((v (i 0) (i 1) (i 2) : ℝ) : EReal))

include hq hk hv in
/-- What the last key/value block of query tile qi of batch b leaves in the output block: row r, column d holds the
    softmax attention of query row 512 qi + r at column d. -/
theorem tile_out (t : Fin cfg1.N) (b : Fin 8) (qi : Fin 4) (ht : t.val = 16 * b.val + 4 * qi.val + 3) :
    ((outsAt1 V c t.val t.isLt).1 : S1x512x1024.Idx → EReal)
      = fun y => ((Spec.attn q k v b ⟨512 * qi.val + (y 1).val, by have := qi.isLt; have h2 : (y 1).val < 512 := (y 1).isLt; omega⟩
          ⟨(y 2).val, (y 2).isLt⟩ : ℝ) : EReal) := by
  have hb := b.isLt; have hqi := qi.isLt; have hN := point_lt t
  have hlt : ∀ j : ℕ, t.val - j < cfg1.N := fun j => lt_of_le_of_lt (Nat.sub_le _ _) t.isLt
  -- the scratch after the first, second and third block of the tile
  obtain ⟨S0, hS0⟩ : ∃ S : RScratch, S = firstS (qrow q b qi) (krow k b 0) (krow v b 0) := ⟨_, rfl⟩
  obtain ⟨S1, hS1⟩ : ∃ S : RScratch, S = nextS (qrow q b qi) (krow k b 1) (krow v b 1) S0.1 S0.2.1 S0.2.2 := ⟨_, rfl⟩
  obtain ⟨S2, hS2⟩ : ∃ S : RScratch, S = nextS (qrow q b qi) (krow k b 2) (krow v b 2) S1.1 S1.2.1 S1.2.2 := ⟨_, rfl⟩
  have s0 : ScratchIs (outsAt1 V c (t.val - 3) (hlt 3)) S0 := by
    rw [hS0]
    exact scratch_first V c q k v hq hk hv ⟨t.val - 3, hlt 3⟩ b qi (by show t.val - 3 = 16 * b.val + 4 * qi.val; omega)
  have s1 : ScratchIs (outsAt1 V c (t.val - 2) (hlt 2)) S1 := by
    rw [hS1]
    exact scratch_next V c q k v hq hk hv ⟨t.val - 2, hlt 2⟩ ⟨t.val - 3, hlt 3⟩ (by show t.val - 2 = t.val - 3 + 1; omega) b qi 1
      (by show t.val - 2 = 16 * b.val + 4 * qi.val + 1; omega) (by decide) (by decide) S0 s0
  have s2 : ScratchIs (outsAt1 V c (t.val - 1) (hlt 1)) S2 := by
    rw [hS2]
    exact scratch_next V c q k v hq hk hv ⟨t.val - 1, hlt 1⟩ ⟨t.val - 2, hlt 2⟩ (by show t.val - 1 = t.val - 2 + 1; omega) b qi 2
      (by show t.val - 1 = 16 * b.val + 4 * qi.val + 2; omega) (by decide) (by decide) S1 s1
  -- the normalisers are positive
  have p0 : ∀ r, 0 < S0.2.1 r := by rw [hS0]; exact firstS_pos _ _ _
  have p1 : ∀ r, 0 < S1.2.1 r := by rw [hS1]; exact nextS_pos _ _ _ _ _ _ p0
  have p2 : ∀ r, 0 < S2.2.1 r := by rw [hS2]; exact nextS_pos _ _ _ _ _ _ p1
  rw [out_last V c q k v hq hk hv t ⟨t.val - 1, hlt 1⟩ (by show t.val = t.val - 1 + 1; omega) b qi ht S2 p2 s2]
  funext y
  have h2 : (y 1).val < 512 := (y 1).isLt
  have e := scratch_run4 (qrow q b qi) (krow k b) (krow v b) ⟨(y 1).val, h2⟩ ⟨(y 2).val, (y 2).isLt⟩ S0 S1 S2 _ hS0 hS1 hS2 rfl
  have e' := congrArg (fun p : ℝ × ℝ × ℝ => p.2.2 / p.2.1) e
  exact congrArg (fun x : ℝ => (x : EReal)) (e'.trans (run4_attn q k v b ⟨512 * qi.val + (y 1).val, by omega⟩ ⟨(y 2).val, (y 2).isLt⟩))

end Tile2

/-- The second launch's result array after its last write-back. -/
theorem attn_value (V : Entry Ideal) (c : Dev nD) (q : Fin 8 → Fin 2048 → Fin 1024 → ℝ) (k v : Fin 8 → Fin 4096 → Fin 1024 → ℝ)
    (hq : (V c main_v7_1 : S8x2048x1024.Idx → EReal) = fun i => ((q (i 0) (i 1) (i 2) : ℝ) : EReal))
    (hk : (V c main_v7_2 : S8x4096x1024.Idx → EReal) = fun i => ((k (i 0) (i 1) (i 2) : ℝ) : EReal))
    (hv : (V c main_v7_3 : S8x4096x1024.Idx → EReal) = fun i => ((v (i 0) (i 1) (i 2) : ℝ) : EReal)) :
    ((dat1 V c).arrAt 3 cfg1.N : S8x2048x1024.Idx → EReal) = fun i => ((Spec.attn q k v (i 0) (i 1) (i 2) : ℝ) : EReal) := by
  refine arrAt1_3_eq V c (fun i => ((Spec.attn q k v (i 0) (i 1) (i 2) : ℝ) : EReal)) (fun t h3 => ?_)
  have hN := point_lt t
  exact tile_out V c q k v hq hk hv t ⟨t.val / 16, by omega⟩ ⟨t.val / 4 % 4, by omega⟩
    (by show t.val = 16 * (t.val / 16) + 4 * (t.val / 4 % 4) + 3; omega)

end Cert.KernelIdeal.Hand

end
-- ==== Proof.RefValue.lean ====
/- The reference program's two results, read at an index, are the real-number specification: the query
   projection of the averaged row pairs, and the softmax attention of the three projections. -/
import proofs.«401980_j60120952209552_3_alg».proof.Defs
import proofs.«401980_j60120952209552_3_alg».proof.Proof.Gen.ReferenceIdeal.Run
import proofs.«401980_j60120952209552_3_alg».proof.Proof.Gen.ReferenceIdeal.Read
import proofs.«401980_j60120952209552_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe
open Idealize.SL Idealize.SL.Sem
open Cert.ReferenceIdeal Cert.ReferenceIdeal.Gen

open scoped BigOperators

/-! ## The float constants of the program, as extended reals -/

/-- The pattern of `2.0` denotes the real number two. -/
private theorem ofBits_two : Ideal.ofBits .f32 0x40000000#32 = ((2 : ℝ) : EReal) := by
  simp [Ideal.ofBits, Ideal.ieee, -EReal.coe_mul]; norm_num

/-- The pattern of `0.03125` denotes one thirty-second. -/
private theorem ofBits_inv32 : Ideal.ofBits .f32 0x3D000000#32 = ((1 / 32 : ℝ) : EReal) := by
  simp [Ideal.ofBits, Ideal.ieee, -EReal.coe_mul]; norm_num

/-- The pattern of `1.0` denotes one. -/
private theorem ofBits_one : Ideal.ofBits .f32 0x3F800000#32 = ((1 : ℝ) : EReal) := by
  simp [Ideal.ofBits, Ideal.ieee, -EReal.coe_mul]; norm_num

/-- The pattern of minus infinity denotes the least extended real. -/
private theorem ofBits_neg_inf : Ideal.ofBits .f32 0xFF800000#32 = (⊥ : EReal) := by
  simp [Ideal.ofBits, Ideal.ieee]

/-! ## Sums and maxima of coerced reals -/

/-- A finite sum of coerced reals is the coerced sum. -/
private theorem coe_sum {ι : Type} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- Folding the maximum from the least element over coerced reals gives the coerced largest of them. -/
private theorem fold_max_coe {ι : Type} [Fintype ι] (hne : (Finset.univ : Finset ι).Nonempty) (g : ι → ℝ) :
    (Finset.univ : Finset ι).fold max (⊥ : EReal) (fun k => ((g k : ℝ) : EReal))
      = ((Finset.univ.sup' hne g : ℝ) : EReal) := by
  refine le_antisymm ?_ ?_
  · refine (Finset.fold_max_le _).2 ⟨bot_le, fun k _ => ?_⟩
    exact EReal.coe_le_coe_iff.2 (Finset.le_sup' g (Finset.mem_univ k))
  · obtain ⟨k, _, hk⟩ := Finset.exists_mem_eq_sup' hne g
    rw [hk]
    exact (Finset.le_fold_max _).2 (Or.inr ⟨k, Finset.mem_univ k, le_rfl⟩)

/-! ## The averaged row pairs -/

section Pool
variable (x : Fin 8 → Fin 4096 → Fin 1024 → ℝ)

/-- Splitting each batch's rows into pairs puts row `2m + j` at pair `m`, place `j`. -/
private theorem pair_index (i : S8x2048x1024.Idx) (j : Fin 2) :
    Read.idx_main_v0 (Read.idx_main_v1 i j)
      = ValueIdx.ix3 (⟨(i 0).val, (i 0).isLt⟩ : Fin 8) (⟨2 * (i 1).val + j.val, by have h1 : (i 1).val < 2048 := (i 1).isLt; have hj : j.val < 2 := j.isLt; show 2 * (i 1).val + j.val < 4096; omega⟩ : Fin 4096) (⟨(i 2).val, (i 2).isLt⟩ : Fin 1024) := by
  have h0 : (i 0).val < 8 := (i 0).isLt
  have h1 : (i 1).val < 2048 := (i 1).isLt
  have h2 : (i 2).val < 1024 := (i 2).isLt
  have hj : j.val < 2 := j.isLt
  funext a
  refine Fin.ext ?_
  match a with
  | ⟨0, _⟩ =>
    show ((((i 0).val * 2048 + (i 1).val) * 2 + j.val) * 1024 + (i 2).val) / 4194304 = (i 0).val
    omega
  | ⟨1, _⟩ =>
    show ((((i 0).val * 2048 + (i 1).val) * 2 + j.val) * 1024 + (i 2).val) / 1024 % 4096 = 2 * (i 1).val + j.val
    omega
  | ⟨2, _⟩ =>
    show ((((i 0).val * 2048 + (i 1).val) * 2 + j.val) * 1024 + (i 2).val) % 1024 = (i 2).val
    omega

/-- The first stage that matters: the sum of each pair of rows divided by two is the average. -/
private theorem stage_pool (x0 : S8x4096x1024.Idx → EReal)
    (h0 : x0 = fun i => ((x (i 0) (i 1) (i 2) : ℝ) : EReal)) :
    (Read.val_main_v3 (F := Ideal) x0 : S8x2048x1024.Idx → EReal)
      = fun i => ((Spec.pool x (i 0) (i 1) (i 2) : ℝ) : EReal) := by
  funext i
  rw [Read.val_main_v3_apply, Read.val_main_v1_apply, Read.val_main_v2_apply, Read.val_main_cst_0_apply,
    Read.val_main_cst_apply, Fin.sum_univ_two, Read.val_main_v0_apply, Read.val_main_v0_apply,
    pair_index, pair_index]
  subst h0
  simp only [Ideal.hostDivf_def, Ideal.ofBits_def, Ideal.ofBits_zero_f32, ofBits_two]
  rw [Ideal.div_coe (by norm_num : (2 : ℝ) ≠ 0), zero_add, ← EReal.coe_add, ← EReal.coe_mul]
  rfl

end Pool

/-! ## The three projections -/

section Proj
variable (x : Fin 8 → Fin 4096 → Fin 1024 → ℝ) (W : Fin 1024 → Fin 1024 → ℝ) (b : Fin 1024 → ℝ)

/-- The query projection: the averaged rows times the transposed weights, plus the bias. -/
private theorem stage_q (x0 : S8x4096x1024.Idx → EReal) (x1 : S1024x1024.Idx → EReal) (x2 : S1024.Idx → EReal)
    (h0 : x0 = fun i => ((x (i 0) (i 1) (i 2) : ℝ) : EReal))
    (h1 : x1 = fun i => ((W (i 0) (i 1) : ℝ) : EReal))
    (h2 : x2 = fun i => ((b (i 0) : ℝ) : EReal)) :
    (Read.val_main_v7 (F := Ideal) x0 x1 x2 : S8x2048x1024.Idx → EReal)
      = fun i => ((Spec.qP x W b (i 0) (i 1) (i 2) : ℝ) : EReal) := by
  funext i
  rw [Read.val_main_v7_apply, Read.val_main_v4_apply, Read.val_main_v6_apply, Read.val_main_v5_apply,
    stage_pool x x0 h0]
  subst h1 h2
  show (∑ k : Fin 1024, ((Spec.pool x (i 0) (i 1) k : ℝ) : EReal) * ((W (i 2) k : ℝ) : EReal)) + ((b (i 2) : ℝ) : EReal) = _
  simp only [← EReal.coe_mul]
  rw [← coe_sum, ← EReal.coe_add]
  rfl

/-- The key projection: the input rows times the transposed weights, plus the bias. -/
private theorem stage_k (x0 : S8x4096x1024.Idx → EReal) (x3 : S1024x1024.Idx → EReal) (x4 : S1024.Idx → EReal)
    (h0 : x0 = fun i => ((x (i 0) (i 1) (i 2) : ℝ) : EReal))
    (h3 : x3 = fun i => ((W (i 0) (i 1) : ℝ) : EReal))
    (h4 : x4 = fun i => ((b (i 0) : ℝ) : EReal)) :
    (Read.val_main_v11 (F := Ideal) x0 x3 x4 : S8x4096x1024.Idx → EReal)
      = fun i => ((Spec.kP x W b (i 0) (i 1) (i 2) : ℝ) : EReal) := by
  funext i
  rw [Read.val_main_v11_apply, Read.val_main_v8_apply, Read.val_main_v10_apply, Read.val_main_v9_apply]
  subst h0 h3 h4
  show (∑ k : Fin 1024, ((x (i 0) (i 1) k : ℝ) : EReal) * ((W (i 2) k : ℝ) : EReal)) + ((b (i 2) : ℝ) : EReal) = _
  simp only [← EReal.coe_mul]
  rw [← coe_sum, ← EReal.coe_add]
  rfl

/-- The value projection is the same computation with its own weights and bias. -/
private theorem stage_v (x0 : S8x4096x1024.Idx → EReal) (x5 : S1024x1024.Idx → EReal) (x6 : S1024.Idx → EReal)
    (h0 : x0 = fun i => ((x (i 0) (i 1) (i 2) : ℝ) : EReal))
    (h5 : x5 = fun i => ((W (i 0) (i 1) : ℝ) : EReal))
    (h6 : x6 = fun i => ((b (i 0) : ℝ) : EReal)) :
    (Read.val_main_v15 (F := Ideal) x0 x5 x6 : S8x4096x1024.Idx → EReal)
      = fun i => ((Spec.vP x W b (i 0) (i 1) (i 2) : ℝ) : EReal) :=
  stage_k x W b x0 x5 x6 h0 h5 h6

end Proj

/-! ## Softmax attention of three given projections -/

section Attn
variable (q : Fin 8 → Fin 2048 → Fin 1024 → ℝ) (k v : Fin 8 → Fin 4096 → Fin 1024 → ℝ)
variable (x0 : S8x4096x1024.Idx → EReal) (x1 : S1024x1024.Idx → EReal) (x2 : S1024.Idx → EReal)
  (x3 : S1024x1024.Idx → EReal) (x4 : S1024.Idx → EReal) (x5 : S1024x1024.Idx → EReal) (x6 : S1024.Idx → EReal)

/-- The normaliser of a softmax row is a sum of exponentials, hence positive. -/
private theorem Z_pos (b : Fin 8) (m : Fin 2048) : 0 < Spec.Z q k b m :=
  Finset.sum_pos (fun n _ => Real.exp_pos _) Finset.univ_nonempty

/-- The scores: each query row against each key row, scaled by one thirty-second (the further factor one changes nothing). -/
private theorem stage_sc
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal)) :
    (Read.val_main_v20 (F := Ideal) x0 x1 x2 x3 x4 : S8x2048x4096.Idx → EReal)
      = fun i => ((Spec.sc q k (i 0) (i 1) (i 2) : ℝ) : EReal) := by
  funext i
  rw [Read.val_main_v20_apply, Read.val_main_v18_apply, Read.val_main_v16_apply, Read.val_main_v17_apply,
    Read.val_main_v19_apply, Read.val_main_cst_1_apply, Read.val_main_cst_2_apply, hq, hk]
  simp only [Ideal.mulf_def, Ideal.ofBits_def, ofBits_inv32, ofBits_one]
  show (∑ d : Fin 1024, ((q (i 0) (i 1) d : ℝ) : EReal) * ((k (i 0) (i 2) d : ℝ) : EReal)) * ((1 / 32 : ℝ) : EReal) * ((1 : ℝ) : EReal) = _
  simp only [← EReal.coe_mul]
  rw [← coe_sum, ← EReal.coe_mul, ← EReal.coe_mul]
  exact congrArg _ (mul_one _)

/-- The row maximum: the fold of the maximum from minus infinity over a score row, then once more against minus
    infinity, is the largest score of the row. -/
private theorem stage_mx
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal)) :
    (Read.val_main_v23 (F := Ideal) x0 x1 x2 x3 x4 : S8x2048.Idx → EReal)
      = fun j => ((Spec.mx q k (j 0) (j 1) : ℝ) : EReal) := by
  funext j
  have hred : S8x2048x4096.Reduces [2] S8x2048 := by decide
  rw [Read.val_main_v23_apply, Read.val_main_v22_apply, Read.val_main_cst_4_apply]
  unfold Read.val_main_v21
  rw [Host.reduce_eq_fold_single FloatOps.maximumf _ _ reducesTo_S8x2048x4096_S8x2048_d2 hred h_S_ j,
    stage_sc q k x0 x1 x2 x3 x4 hq hk, Read.val_main_cst_3_apply]
  show max (Ideal.ofBits .f32 0xFF800000#32)
      ((Finset.univ : Finset (Fin 4096)).fold max (Ideal.ofBits .f32 0xFF800000#32)
        (fun n : Fin 4096 => ((Spec.sc q k (j 0) (j 1) n : ℝ) : EReal))) = _
  rw [ofBits_neg_inf, fold_max_coe Finset.univ_nonempty, max_eq_right bot_le]
  rfl

/-- The unnormalised weights: the exponential of each score less its row's maximum. -/
private theorem stage_pw
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal)) :
    (Read.val_main_v27 (F := Ideal) x0 x1 x2 x3 x4 : S8x2048x4096.Idx → EReal)
      = fun i => ((Spec.pw q k (i 0) (i 1) (i 2) : ℝ) : EReal) := by
  funext i
  rw [Read.val_main_v27_apply, Read.val_main_v26_apply, Read.val_main_v25_apply, Read.val_main_v24_apply,
    stage_sc q k x0 x1 x2 x3 x4 hq hk, stage_mx q k x0 x1 x2 x3 x4 hq hk]
  simp only [Ideal.hostUnary_exp_def, Ideal.subf_def]
  show Ideal.exp (((Spec.sc q k (i 0) (i 1) (i 2) : ℝ) : EReal) - ((Spec.mx q k (i 0) (i 1) : ℝ) : EReal)) = _
  rw [← EReal.coe_sub, Ideal.exp_coe]
  rfl

/-- The normaliser: the sum of a row's unnormalised weights, from zero. -/
private theorem stage_Z
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal)) :
    (Read.val_main_v28 (F := Ideal) x0 x1 x2 x3 x4 : S8x2048.Idx → EReal)
      = fun j => ((Spec.Z q k (j 0) (j 1) : ℝ) : EReal) := by
  funext j
  rw [Read.val_main_v28_apply, Read.val_main_cst_5_apply, stage_pw q k x0 x1 x2 x3 x4 hq hk]
  simp only [Ideal.ofBits_def, Ideal.ofBits_zero_f32]
  show (0 : EReal) + ∑ n : Fin 4096, ((Spec.pw q k (j 0) (j 1) n : ℝ) : EReal) = _
  rw [zero_add, ← coe_sum]
  rfl

/-- The softmax weights: each unnormalised weight divided by its row's normaliser, which is not zero. -/
private theorem stage_w
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal)) :
    (Read.val_main_v31 (F := Ideal) x0 x1 x2 x3 x4 : S8x2048x4096.Idx → EReal)
      = fun i => ((Spec.pw q k (i 0) (i 1) (i 2) / Spec.Z q k (i 0) (i 1) : ℝ) : EReal) := by
  funext i
  rw [Read.val_main_v31_apply, Read.val_main_v30_apply, Read.val_main_v29_apply,
    stage_pw q k x0 x1 x2 x3 x4 hq hk, stage_Z q k x0 x1 x2 x3 x4 hq hk]
  simp only [Ideal.hostDivf_def]
  show Ideal.div ((Spec.pw q k (i 0) (i 1) (i 2) : ℝ) : EReal) ((Spec.Z q k (i 0) (i 1) : ℝ) : EReal) = _
  rw [Ideal.div_coe (Z_pos q k (i 0) (i 1)).ne', ← EReal.coe_mul, one_div, ← div_eq_mul_inv]

/-- The attention output: the softmax weights of a row against the value rows. -/
private theorem stage_o
    (hq : (Read.val_main_v7 (F := Ideal) x0 x1 x2 : S8x2048x1024.Idx → EReal) = fun i => ((q (i 0) (i 1) (i 2) : ℝ) : EReal))
    (hk : (Read.val_main_v11 (F := Ideal) x0 x3 x4 : S8x4096x1024.Idx → EReal) = fun i => ((k (i 0) (i 1) (i 2) : ℝ) : EReal))
    (hv : (Read.val_main_v15 (F := Ideal) x0 x5 x6 : S8x4096x1024.Idx → EReal) = fun i => ((v (i 0) (i 1) (i 2) : ℝ) : EReal)) :
    (Read.val_main_v32 (F := Ideal) x0 x1 x2 x3 x4 x5 x6 : S8x2048x1024.Idx → EReal)
      = fun i => ((Spec.attn q k v (i 0) (i 1) (i 2) : ℝ) : EReal) := by
  funext i
  rw [Read.val_main_v32_apply, stage_w q k x0 x1 x2 x3 x4 hq hk, hv]
  show ∑ n : Fin 4096, ((Spec.pw q k (i 0) (i 1) n / Spec.Z q k (i 0) (i 1) : ℝ) : EReal) * ((v (i 0) n (i 2) : ℝ) : EReal) = _
  simp only [← EReal.coe_mul]
  rw [← coe_sum]
  rfl

end Attn

variable (m : (ℓ : Loc nD τ sig) → Buf (Elt Ideal) ℓ) (c : Dev nD) (x : Fin 8 → Fin 4096 → Fin 1024 → ℝ) (Wq Wk Wv : Fin 1024 → Fin 1024 → ℝ) (bq bk bv : Fin 1024 → ℝ)

/-- The first result: the query projection. -/
theorem ref_q
    (h0 : (m ((c.tc : Thread nD τ).loc main_arg0) : S8x4096x1024.Idx → EReal) = fun i => ((x (i 0) (i 1) (i 2) : ℝ) : EReal))
    (h1 : (m ((c.tc : Thread nD τ).loc main_arg1) : S1024x1024.Idx → EReal) = fun i => ((Wq (i 0) (i 1) : ℝ) : EReal))
    (h2 : (m ((c.tc : Thread nD τ).loc main_arg2) : S1024.Idx → EReal) = fun i => ((bq (i 0) : ℝ) : EReal)) :
    (Cert.ReferenceIdeal.Read.val_main_v7 (F := Ideal) (m ((c.tc : Thread nD τ).loc main_arg0)) (m ((c.tc : Thread nD τ).loc main_arg1)) (m ((c.tc : Thread nD τ).loc main_arg2)) : S8x2048x1024.Idx → EReal)
      = fun i => ((Spec.qP x Wq bq (i 0) (i 1) (i 2) : ℝ) : EReal) :=
  stage_q x Wq bq _ _ _ h0 h1 h2

/-- The second result: the attention output. -/
theorem ref_o
    (h0 : (m ((c.tc : Thread nD τ).loc main_arg0) : S8x4096x1024.Idx → EReal) = fun i => ((x (i 0) (i 1) (i 2) : ℝ) : EReal))
    (h1 : (m ((c.tc : Thread nD τ).loc main_arg1) : S1024x1024.Idx → EReal) = fun i => ((Wq (i 0) (i 1) : ℝ) : EReal))
    (h2 : (m ((c.tc : Thread nD τ).loc main_arg2) : S1024.Idx → EReal) = fun i => ((bq (i 0) : ℝ) : EReal))
    (h3 : (m ((c.tc : Thread nD τ).loc main_arg3) : S1024x1024.Idx → EReal) = fun i => ((Wk (i 0) (i 1) : ℝ) : EReal))
    (h4 : (m ((c.tc : Thread nD τ).loc main_arg4) : S1024.Idx → EReal) = fun i => ((bk (i 0) : ℝ) : EReal))
    (h5 : (m ((c.tc : Thread nD τ).loc main_arg5) : S1024x1024.Idx → EReal) = fun i => ((Wv (i 0) (i 1) : ℝ) : EReal))
    (h6 : (m ((c.tc : Thread nD τ).loc main_arg6) : S1024.Idx → EReal) = fun i => ((bv (i 0) : ℝ) : EReal)) :
    (Cert.ReferenceIdeal.Value.res_main_v32 (F := Ideal) m c : S8x2048x1024.Idx → EReal)
      = fun i => ((Spec.oP x Wq Wk Wv bq bk bv (i 0) (i 1) (i 2) : ℝ) : EReal) := by
  rw [Read.val_main_v32_eq m c]
  exact stage_o (Spec.qP x Wq bq) (Spec.kP x Wk bk) (Spec.vP x Wv bv) _ _ _ _ _ _ _
    (stage_q x Wq bq _ _ _ h0 h1 h2) (stage_k x Wk bk _ _ _ h0 h3 h4) (stage_v x Wv bv _ _ _ h0 h5 h6)

end Cert.ReferenceIdeal.RefValue

end
-- ==== Proof.lean ====
/- The certificate of a fused attention layer against its plain reference.

   THE PROGRAM. Adjacent rows of the input are averaged; the averaged rows are projected to queries, the input rows
   to keys and values (first launch, one grid point per tile of 512 input rows); then every query tile attends over
   the keys and values block by block, keeping a running maximum, a running normaliser and a running weighted sum in
   scratch memory and dividing at the last block (second launch). The reference computes the same projections, the
   full score matrix, a one-pass softmax and the weighted sum.

   THE FRAMES. Each launch is a segment of @main over proof data that say what every output block and every scratch
   buffer holds after every grid point (ProjData, AttnData), the body of each launch meets its proof data (ProjBody,
   AttnBody over the runs AttnRunA/B/C), and the segments chain to a run of @main in which every buffer is named
   (Run); the same text serves the word-level program (Bits/). The reference's frame is its run with the results
   dropped.

   THE VALUES. On finite inputs every array holds real numbers (Finite). The first launch leaves the real
   projections in its result arrays (EntryReals, ProjValue); the four key/value blocks of a query tile are four steps
   of a recurrence whose last quotient is the one-pass softmax-weighted sum (Online, AttnPay, AttnPieces, AttnValue);
   the reference's results are the same real formulas (RefValue, over the reference's run read operation by
   operation). The law that joins the two sides is exp (a - b) * exp (b - c) = exp (a - c) on the reals, with the
   normaliser positive; it needs the inputs finite, which is where the precondition is used. -/
import proofs.«401980_j60120952209552_3_alg».proof.Defs
import proofs.«401980_j60120952209552_3_alg».proof.Proof.Gen.Kernel
import proofs.«401980_j60120952209552_3_alg».proof.Proof.Gen.KernelIdeal
import proofs.«401980_j60120952209552_3_alg».proof.Proof.Gen.ReferenceIdeal
import proofs.«401980_j60120952209552_3_alg».proof.Proof.Gen.Pre_finite_inputs
import proofs.«401980_j60120952209552_3_alg».proof.Proof.Gen.ReferenceIdeal.Run
import proofs.«401980_j60120952209552_3_alg».proof.Proof.Gen.ReferenceIdeal.Read
import proofs.«401980_j60120952209552_3_alg».proof.Proof.Run
import proofs.«401980_j60120952209552_3_alg».proof.Proof.Bits.Run
import proofs.«401980_j60120952209552_3_alg».proof.Proof.Finite
import proofs.«401980_j60120952209552_3_alg».proof.Proof.EntryReals
import proofs.«401980_j60120952209552_3_alg».proof.Proof.ProjValue
import proofs.«401980_j60120952209552_3_alg».proof.Proof.AttnValue
import proofs.«401980_j60120952209552_3_alg».proof.Proof.RefValue
import Idealize.ShloMosaic.Adequacy
import Idealize.ShloMosaic.Init

noncomputable section

namespace Cert.Proof

open Idealize.ShloMosaic Idealize.ShloMosaic.TcCoe Idealize.SL.Sem

instance : Cert.Pre_finite_inputs.Facts := Cert.Pre_finite_inputs.Gen.facts

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference has no launch: its frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both programs end with the real-number specification in their result arrays: the query projection, and (twice)
    the attention output. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := fun c => Cert.KernelIdeal.Hand.reals_of_pre m hpre c
  choose x Wq Wk Wv bq bk bv h0 h1 h2 h3 h4 h5 h6 using hr
  refine ⟨fun c i => ((Cert.Spec.qP (x c) (Wq c) (bq c) (i 0) (i 1) (i 2) : ℝ) : EReal),
    fun c i => ((Cert.Spec.oP (x c) (Wq c) (Wk c) (Wv c) (bq c) (bk c) (bv c) (i 0) (i 1) (i 2) : ℝ) : EReal),
    fun c i => ((Cert.Spec.oP (x c) (Wq c) (Wk c) (Wv c) (bq c) (bk c) (bv c) (i 0) (i 1) (i 2) : ℝ) : EReal), ?_, ?_⟩
  · -- the kernel: the run with its results named, then the two launches' values
    refine (θ_run Cert.KernelIdeal.defs _ _).mono (fun r h c => ?_) (Cert.KernelIdeal.Hand.run_values (F := Ideal) m ρ)
    obtain ⟨hq, ho, hargs⟩ := h c
    have hE := Cert.KernelIdeal.Hand.entry_of_reals' m ρ c (x c) (Wq c) (Wk c) (Wv c) (bq c) (bk c) (bv c)
      (h0 c) (h1 c) (h2 c) (h3 c) (h4 c) (h5 c) (h6 c)
    have hP := Cert.KernelIdeal.Hand.proj_values (Cert.KernelIdeal.Hand.V1 m ρ) c _ _ _ _ _ _ _ hE
    have hA := Cert.KernelIdeal.Hand.attn_value (Cert.KernelIdeal.Hand.V2 m ρ) c
      (Cert.Spec.qP (x c) (Wq c) (bq c)) (Cert.Spec.kP (x c) (Wk c) (bk c)) (Cert.Spec.vP (x c) (Wv c) (bv c))
      ((Cert.KernelIdeal.Hand.V2_qb m ρ c).trans hP.2.1) ((Cert.KernelIdeal.Hand.V2_k m ρ c).trans hP.2.2.1)
      ((Cert.KernelIdeal.Hand.V2_v m ρ c).trans hP.2.2.2)
    exact ⟨hq.trans hP.1, ho.trans hA, ho.trans hA, hargs⟩
  · -- the reference: its run read back, at arguments that agree with the kernel's
    refine (θ_run Cert.ReferenceIdeal.defs _ _).mono (fun r h c => ?_) (Cert.ReferenceIdeal.Value.run (F := Ideal) m' ρ')
    obtain ⟨hq, ho, ho', hargs⟩ := h c
    obtain ⟨a0, a1, a2, a3, a4, a5, a6⟩ := hagree c
    have hQ := Cert.ReferenceIdeal.RefValue.ref_q m' c (x c) (Wq c) (bq c) (a0.trans (h0 c)) (a1.trans (h1 c)) (a2.trans (h2 c))
    have hO := Cert.ReferenceIdeal.RefValue.ref_o m' c (x c) (Wq c) (Wk c) (Wv c) (bq c) (bk c) (bv c)
      (a0.trans (h0 c)) (a1.trans (h1 c)) (a2.trans (h2 c)) (a3.trans (h3 c)) (a4.trans (h4 c)) (a5.trans (h5 c)) (a6.trans (h6 c))
    exact ⟨(hq.trans (Cert.ReferenceIdeal.Read.val_main_v7_eq _ _ _).symm).trans hQ, ho.trans hO, ho'.trans hO, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
